-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S1x1024x256 : Shape := ⟨3, ![1, 1024, 256]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel
  bcast_S_S1x1024x256 : S_.BroadcastsInDim S1x1024x256 (![] : Fin 0 → Fin S1x1024x256.rank)
  reducesTo_S1x1024x256_S_d0_1_2 : S1x1024x256.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S1024x256 .f32) (main_arg5 : FVec F S256 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S64x1024x256 .f32) (main_arg1 : FVec F S1x1024x256 .f32) (main_arg2 : FVec F S512x1024 .f32) (main_arg3 : FVec F S1024 .f32) (main_arg4 : FVec F S1024x256 .f32) (main_arg5 : FVec F S256 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S1x1024x256 .f32 := Host.absf main_arg1
  let main_cst_0 : FVec F S_ .f32 := constant S_ .f32 0x7F800000#32
  let main_v5 : FVec F S1x1024x256 .f32 := broadcastInDim S1x1024x256 ![] bcast_S_S1x1024x256 main_cst_0
  let main_v6 : IVec S1x1024x256 1 := cmpf .olt main_v4 main_v5
  let main_c_1 : IVec S_ 1 := constantI S_ 1 1#1
  let main_v7 : IVec S_ 1 := (fun x v => Host.reduce IntOp.andi x v reducesTo_S1x1024x256_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S64x1024x256 : Shape := ⟨3, ![64, 1024, 256]⟩
abbrev S1x1024x256 : Shape := ⟨3, ![1, 1024, 256]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S1x256x1024 : Shape := ⟨3, ![1, 256, 1024]⟩
abbrev S2x32x1024x256 : Shape := ⟨4, ![2, 32, 1024, 256]⟩
abbrev S2x32x1024x512 : Shape := ⟨4, ![2, 32, 1024, 512]⟩
abbrev S2x1024x256 : Shape := ⟨3, ![2, 1024, 256]⟩
abbrev S1x1x1024x256 : Shape := ⟨4, ![1, 1, 1024, 256]⟩
abbrev S1x1x1024x512 : Shape := ⟨4, ![1, 1, 1024, 512]⟩
abbrev S1x256 : Shape := ⟨2, ![1, 256]⟩
abbrev S1x1x512x256 : Shape := ⟨4, ![1, 1, 512, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩
abbrev S1x1024 : Shape := ⟨2, ![1, 1024]⟩
abbrev S1x512x256 : Shape := ⟨3, ![1, 512, 256]⟩
abbrev S64x1024x512 : Shape := ⟨3, ![64, 1024, 512]⟩
abbrev S_ : Shape := ⟨0, ![]⟩

abbrev nBuf : Space → Nat
  | .hbm => 20
  | .vmem => 14
  | .smem => 0
  | _ => 0

abbrev bufTy : (tb : Table) → Fin (tcTables nBuf tb) → BufTy
  | .hbm, ⟨0, _⟩ => ⟨S64x1024x256, .f32⟩
  | .hbm, ⟨1, _⟩ => ⟨S1x1024x256, .f32⟩
  | .hbm, ⟨2, _⟩ => ⟨S512x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S1x1024x256, .bf16⟩
  | .hbm, ⟨7, _⟩ => ⟨S1x256x1024, .bf16⟩
  | .hbm, ⟨8, _⟩ => ⟨S512x1024, .bf16⟩
  | .hbm, ⟨9, _⟩ => ⟨S1024x256, .bf16⟩
  | .hbm, ⟨10, _⟩ => ⟨S2x32x1024x256, .f32⟩
  | .hbm, ⟨11, _⟩ => ⟨S2x32x1024x512, .f32⟩
  | .hbm, ⟨12, _⟩ => ⟨S2x1024x256, .f32⟩
  | .hbm, ⟨13, _⟩ => ⟨S64x1024x512, .f32⟩
  | .hbm, ⟨14, _⟩ => ⟨S_, .f32⟩
  | .hbm, ⟨15, _⟩ => ⟨S1024x256, .f32⟩
  | .hbm, ⟨16, _⟩ => ⟨S1x1024x256, .f32⟩
  | .hbm, ⟨17, _⟩ => ⟨S_, .f32⟩
  | .hbm, ⟨18, _⟩ => ⟨S1x1024x256, .f32⟩
  | .hbm, ⟨19, _⟩ => ⟨S1x1024x256, .f32⟩
  | .local _ .vmem, ⟨0, _⟩ => ⟨S1x1x1024x256, .f32⟩
  | .local _ .vmem, ⟨1, _⟩ => ⟨S1x1x1024x256, .f32⟩
  | .local _ .vmem, ⟨2, _⟩ => ⟨S1x1024x256, .bf16⟩
  | .local _ .vmem, ⟨3, _⟩ => ⟨S1x256x1024, .bf16⟩
  | .local _ .vmem, ⟨4, _⟩ => ⟨S1x1024x256, .f32⟩
  | .local _ .vmem, ⟨5, _⟩ => ⟨S512x1024, .bf16⟩
  | .local _ .vmem, ⟨6, _⟩ => ⟨S1024, .f32⟩
  | .local _ .vmem, ⟨7, _⟩ => ⟨S1024x256, .bf16⟩
  | .local _ .vmem, ⟨8, _⟩ => ⟨S256, .f32⟩
  | .local _ .vmem, ⟨9, _⟩ => ⟨S1x1x1024x512, .f32⟩
  | .local _ .vmem, ⟨10, _⟩ => ⟨S1x1x1024x512, .f32⟩
  | .local _ .vmem, ⟨11, _⟩ => ⟨S1x1024x256, .f32⟩
  | .local _ .vmem, ⟨12, _⟩ => ⟨S1x1024x256, .f32⟩
  | .local _ .vmem, ⟨13, _⟩ => ⟨S1024x256, .f32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v138 : BitVec 1 := Scalar.cmpi .eq arg1 c31_i32
  let v139 : BitVec 32 := Scalar.extui v138
  let c0_i32_87 : BitVec 32 := 0#32
  let v140 : BitVec 1 := Scalar.cmpi .ne v139 c0_i32_87
  v140

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  bitsLt_bf16_f32 : FTy.bits .bf16 < FTy.bits .f32
  transposes_S1x1024x256_S1x256x1024_0_2_1 : S1x1024x256.Transposes [0, 2, 1] S1x256x1024
  shapeCasts_S64x1024x256_S2x32x1024x256 : S64x1024x256.ShapeCasts S2x32x1024x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1x1x1024x256_S1x1x512x256_0_0_0_0 : ∀ a, (![0, 0, 0, 0] : Fin 4 → Nat) a + S1x1x512x256.size a ≤ S1x1x1024x256.size a
  h_S1x1x512x256 : 0 < S1x1x512x256.numel
  shapeCasts_S1x1x512x256_S512x256 : S1x1x512x256.ShapeCasts S512x256
  reduces_S512x256_S256 : S512x256.Reduces [0] S256
  shapeCasts_S256_S1x256 : S256.ShapeCasts S1x256
  inb_S1x1x1024x256_S1x1x512x256_0_0_512_0 : ∀ a, (![0, 0, 512, 0] : Fin 4 → Nat) a + S1x1x512x256.size a ≤ S1x1x1024x256.size a
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S512x1024_S512 : S512x1024.Reduces [1] S512
  shapeCasts_S512_S512x1 : S512.ShapeCasts S512x1
  broadcasts_S512x1_S512x1024 : S512x1.Broadcasts S512x1024
  inb_S1x1x1024x512_S1x1x512x256_0_0_0_0 : ∀ a, (![0, 0, 0, 0] : Fin 4 → Nat) a + S1x1x512x256.size a ≤ S1x1x1024x512.size a
  shapeCasts_S512x256_S1x1x512x256 : S512x256.ShapeCasts S1x1x512x256
  inb_S1x1x1024x512_S1x1x512x256_0_0_0_256 : ∀ a, (![0, 0, 0, 256] : Fin 4 → Nat) a + S1x1x512x256.size a ≤ S1x1x1024x512.size a
  inb_S512x1024_S256x1024_0_0 : ∀ a, (![0, 0] : Fin 2 → Nat) a + S256x1024.size a ≤ S512x1024.size a
  h_S256x1024 : 0 < S256x1024.numel
  shapeCasts_S256x1024_S256x1024 : S256x1024.ShapeCasts S256x1024
  inb_S512x1024_S256x1024_256_0 : ∀ a, (![256, 0] : Fin 2 → Nat) a + S256x1024.size a ≤ S512x1024.size a
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S256_S256_0 : ∀ a, (![0] : Fin 1 → Nat) a + S256.size a ≤ S256.size a
  h_S256 : 0 < S256.numel
  broadcasts_S1x256_S512x256 : S1x256.Broadcasts S512x256
  inb_S1x1024x256_S1x512x256_0_0_0 : ∀ a, (![0, 0, 0] : Fin 3 → Nat) a + S1x512x256.size a ≤ S1x1024x256.size a
  h_S1x512x256 : 0 < S1x512x256.numel
  shapeCasts_S1x512x256_S512x256 : S1x512x256.ShapeCasts S512x256
  inb_S1024x256_S512x256_0_0 : ∀ a, (![0, 0] : Fin 2 → Nat) a + S512x256.size a ≤ S1024x256.size a
  h_S512x256 : 0 < S512x256.numel
  shapeCasts_S512x256_S512x256 : S512x256.ShapeCasts S512x256
  inb_S1x1x1024x512_S1x1x512x256_0_0_512_0 : ∀ a, (![0, 0, 512, 0] : Fin 4 → Nat) a + S1x1x512x256.size a ≤ S1x1x1024x512.size a
  inb_S1x1x1024x512_S1x1x512x256_0_0_512_256 : ∀ a, (![0, 0, 512, 256] : Fin 4 → Nat) a + S1x1x512x256.size a ≤ S1x1x1024x512.size a
  inb_S1x1024x256_S1x512x256_0_512_0 : ∀ a, (![0, 512, 0] : Fin 3 → Nat) a + S1x512x256.size a ≤ S1x1024x256.size a
  inb_S1024x256_S512x256_512_0 : ∀ a, (![512, 0] : Fin 2 → Nat) a + S512x256.size a ≤ S1024x256.size a
  shapeCasts_S1024x256_S1x1024x256 : S1024x256.ShapeCasts S1x1024x256
  shapeCasts_S2x32x1024x512_S64x1024x512 : S2x32x1024x512.ShapeCasts S64x1024x512
  reducesTo_S2x1024x256_S1024x256_d0 : S2x1024x256.ReducesTo [0] S1024x256
  h_S_ : 0 < S_.numel
  bcast_S1024x256_S1x1024x256_1_2 : S1024x256.BroadcastsInDim S1x1024x256 (![1, 2] : Fin 2 → Fin S1x1024x256.rank)
  bcast_S_S1x1024x256 : S_.BroadcastsInDim S1x1024x256 (![] : Fin 0 → Fin S1x1024x256.rank)
  dot_S512x256_S256x1024_S512x1024_1_0_0_1_n_n_wf : DotDims.WF S512x256 S256x1024 S512x1024 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x256.size a ≤ S2x32x1024x256.size a
  hwx0_0 : ∀ i : grid0.Coords, EltTy.bits .f32 = 32 ∨ (Rect.block (s := S2x32x1024x256) S1x1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S1x1024x256.size a
  hwx0_1 : ∀ i : grid0.Coords, EltTy.bits .bf16 = 32 ∨ (Rect.block (s := S1x1024x256) S1x1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S1x256x1024.size a
  hwx0_2 : ∀ i : grid0.Coords, EltTy.bits .bf16 = 32 ∨ (Rect.block (s := S1x256x1024) S1x256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024x256.size a ≤ S1x1024x256.size a
  hwx0_3 : ∀ i : grid0.Coords, EltTy.bits .f32 = 32 ∨ (Rect.block (s := S1x1024x256) S1x1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S1024x256.size a
  hwx0_6 : ∀ i : grid0.Coords, EltTy.bits .bf16 = 32 ∨ (Rect.block (s := S1024x256) S1024x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1024x512.size a ≤ S2x32x1024x512.size a
  hwx0_8 : ∀ i : grid0.Coords, EltTy.bits .f32 = 32 ∨ (Rect.block (s := S2x32x1024x512) S1x1x1024x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1024x256.size a ≤ S2x1024x256.size a
  hwx0_9 : ∀ i : grid0.Coords, EltTy.bits .f32 = 32 ∨ (Rect.block (s := S2x1024x256) S1x1024x256.size (cc0_transform_9 i) (hinb0_9 i)).WholeWords (EltTy.packing .f32)

variable [Facts₀]

def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_v4) S1x1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5_0) S1x1x1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v5_1) S1x1024x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S64x1024x256 : Shape := ⟨3, ![64, 1024, 256]⟩
abbrev S1x1024x256 : Shape := ⟨3, ![1, 1024, 256]⟩
abbrev S512x1024 : Shape := ⟨2, ![512, 1024]⟩
abbrev S1024 : Shape := ⟨1, ![1024]⟩
abbrev S1024x256 : Shape := ⟨2, ![1024, 256]⟩
abbrev S256 : Shape := ⟨1, ![256]⟩
abbrev S64x1024x1024 : Shape := ⟨3, ![64, 1024, 1024]⟩
abbrev S_ : Shape := ⟨0, ![]⟩
abbrev S64x1024 : Shape := ⟨2, ![64, 1024]⟩
abbrev S64x1024x1 : Shape := ⟨3, ![64, 1024, 1]⟩
abbrev S64x1024x512 : Shape := ⟨3, ![64, 1024, 512]⟩
abbrev S1x1x1024 : Shape := ⟨3, ![1, 1, 1024]⟩
abbrev S1x1x256 : Shape := ⟨3, ![1, 1, 256]⟩
abbrev S64x256 : Shape := ⟨2, ![64, 256]⟩
abbrev S64x1x256 : Shape := ⟨3, ![64, 1, 256]⟩

abbrev nBuf : Space → Nat
  | .hbm => 69
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S1x1024x256, .f32⟩
  | .hbm, ⟨2, _⟩ => ⟨S512x1024, .f32⟩
  | .hbm, ⟨3, _⟩ => ⟨S1024, .f32⟩
  | .hbm, ⟨4, _⟩ => ⟨S1024x256, .f32⟩
  | .hbm, ⟨5, _⟩ => ⟨S256, .f32⟩
  | .hbm, ⟨6, _⟩ => ⟨S1024x256, .f32⟩
  | .hbm, ⟨7, _⟩ => ⟨S64x1024x1024, .f32⟩
  | .hbm, ⟨8, _⟩ => ⟨S_, .f32⟩
  | .hbm, ⟨9, _⟩ => ⟨S64x1024, .f32⟩
  | .hbm, ⟨10, _⟩ => ⟨S_, .f32⟩
  | .hbm, ⟨11, _⟩ => ⟨S64x1024, .f32⟩
  | .hbm, ⟨12, _⟩ => ⟨S64x1024, .f32⟩
  | .hbm, ⟨13, _⟩ => ⟨S64x1024x1, .f32⟩
  | .hbm, ⟨14, _⟩ => ⟨S64x1024x1024, .f32⟩
  | .hbm, ⟨15, _⟩ => ⟨S64x1024x1024, .f32⟩
  | .hbm, ⟨16, _⟩ => ⟨S64x1024x1024, .f32⟩
  | .hbm, ⟨17, _⟩ => ⟨S_, .f32⟩
  | .hbm, ⟨18, _⟩ => ⟨S64x1024, .f32⟩
  | .hbm, ⟨19, _⟩ => ⟨S64x1024x1, .f32⟩
  | .hbm, ⟨20, _⟩ => ⟨S64x1024x1024, .f32⟩
  | .hbm, ⟨21, _⟩ => ⟨S64x1024x1024, .f32⟩
  | .hbm, ⟨22, _⟩ => ⟨S64x1024x256, .f32⟩
  | .hbm, ⟨23, _⟩ => ⟨S64x1024x512, .f32⟩
  | .hbm, ⟨24, _⟩ => ⟨S64x1024x1024, .f32⟩
  | .hbm, ⟨25, _⟩ => ⟨S1x1x1024, .f32⟩
  | .hbm, ⟨26, _⟩ => ⟨S64x1024x1024, .f32⟩
  | .hbm, ⟨27, _⟩ => ⟨S64x1024x1024, .f32⟩
  | .hbm, ⟨28, _⟩ => ⟨S64x1024x1024, .f32⟩
  | .hbm, ⟨29, _⟩ => ⟨S64x1024x1024, .f32⟩
  | .hbm, ⟨30, _⟩ => ⟨S_, .f32⟩
  | .hbm, ⟨31, _⟩ => ⟨S64x1024x1024, .f32⟩
  | .hbm, ⟨32, _⟩ => ⟨S64x1024x1024, .f32⟩
  | .hbm, ⟨33, _⟩ => ⟨S_, .f32⟩
  | .hbm, ⟨34, _⟩ => ⟨S64x1024x1024, .f32⟩
  | .hbm, ⟨35, _⟩ => ⟨S64x1024x1024, .f32⟩
  | .hbm, ⟨36, _⟩ => ⟨S64x1024x1024, .f32⟩
  | .hbm, ⟨37, _⟩ => ⟨S64x1024x256, .f32⟩
  | .hbm, ⟨38, _⟩ => ⟨S1x1x256, .f32⟩
  | .hbm, ⟨39, _⟩ => ⟨S64x1024x256, .f32⟩
  | .hbm, ⟨40, _⟩ => ⟨S64x1024x256, .f32⟩
  | .hbm, ⟨41, _⟩ => ⟨S64x1024x256, .f32⟩
  | .hbm, ⟨42, _⟩ => ⟨S64x1024x256, .f32⟩
  | .hbm, ⟨43, _⟩ => ⟨S_, .f32⟩
  | .hbm, ⟨44, _⟩ => ⟨S64x1024x256, .f32⟩
  | .hbm, ⟨45, _⟩ => ⟨S64x1024x256, .f32⟩
  | .hbm, ⟨46, _⟩ => ⟨S_, .f32⟩
  | .hbm, ⟨47, _⟩ => ⟨S64x1024x256, .f32⟩
  | .hbm, ⟨48, _⟩ => ⟨S64x1024x256, .f32⟩
  | .hbm, ⟨49, _⟩ => ⟨S_, .f32⟩
  | .hbm, ⟨50, _⟩ => ⟨S64x256, .f32⟩
  | .hbm, ⟨51, _⟩ => ⟨S64x1x256, .f32⟩
  | .hbm, ⟨52, _⟩ => ⟨S_, .f32⟩
  | .hbm, ⟨53, _⟩ => ⟨S64x1x256, .f32⟩
  | .hbm, ⟨54, _⟩ => ⟨S64x1x256, .f32⟩
  | .hbm, ⟨55, _⟩ => ⟨S_, .f32⟩
  | .hbm, ⟨56, _⟩ => ⟨S64x1024x256, .f32⟩
  | .hbm, ⟨57, _⟩ => ⟨S64x1024x256, .f32⟩
  | .hbm, ⟨58, _⟩ => ⟨S64x1024x256, .f32⟩
  | .hbm, ⟨59, _⟩ => ⟨S64x1024x256, .f32⟩
  | .hbm, ⟨60, _⟩ => ⟨S64x1024x256, .f32⟩
  | .hbm, ⟨61, _⟩ => ⟨S64x1024x256, .f32⟩
  | .hbm, ⟨62, _⟩ => ⟨S64x1024x256, .f32⟩
  | .hbm, ⟨63, _⟩ => ⟨S_, .f32⟩
  | .hbm, ⟨64, _⟩ => ⟨S1024x256, .f32⟩
  | .hbm, ⟨65, _⟩ => ⟨S1x1024x256, .f32⟩
  | .hbm, ⟨66, _⟩ => ⟨S_, .f32⟩
  | .hbm, ⟨67, _⟩ => ⟨S1x1024x256, .f32⟩
  | .hbm, ⟨68, _⟩ => ⟨S1x1024x256, .f32⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]

class Facts₀ : Prop where
  shapeCasts_S1x1024x256_S1024x256 : S1x1024x256.ShapeCasts S1024x256
  reducesTo_S64x1024x1024_S64x1024_d2 : S64x1024x1024.ReducesTo [2] S64x1024
  h_S_ : 0 < S_.numel
  bcast_S_S64x1024 : S_.BroadcastsInDim S64x1024 (![] : Fin 0 → Fin S64x1024.rank)
  bcast_S64x1024_S64x1024x1_0_1 : S64x1024.BroadcastsInDim S64x1024x1 (![0, 1] : Fin 2 → Fin S64x1024x1.rank)
  bcast_S64x1024x1_S64x1024x1024_0_1_2 : S64x1024x1.BroadcastsInDim S64x1024x1024 (![0, 1, 2] : Fin 3 → Fin S64x1024x1024.rank)
  concatenates_S64x1024x256_S64x1024x256_S64x1024x512_d2 : Shape.Concatenates [S64x1024x256, S64x1024x256] S64x1024x512 2
  bcast_S1024_S1x1x1024_2 : S1024.BroadcastsInDim S1x1x1024 (![2] : Fin 1 → Fin S1x1x1024.rank)
  bcast_S1x1x1024_S64x1024x1024_0_1_2 : S1x1x1024.BroadcastsInDim S64x1024x1024 (![0, 1, 2] : Fin 3 → Fin S64x1024x1024.rank)
  bcast_S_S64x1024x1024 : S_.BroadcastsInDim S64x1024x1024 (![] : Fin 0 → Fin S64x1024x1024.rank)
  bcast_S256_S1x1x256_2 : S256.BroadcastsInDim S1x1x256 (![2] : Fin 1 → Fin S1x1x256.rank)
  bcast_S1x1x256_S64x1024x256_0_1_2 : S1x1x256.BroadcastsInDim S64x1024x256 (![0, 1, 2] : Fin 3 → Fin S64x1024x256.rank)
  bcast_S_S64x1024x256 : S_.BroadcastsInDim S64x1024x256 (![] : Fin 0 → Fin S64x1024x256.rank)
  reducesTo_S64x1024x256_S64x256_d1 : S64x1024x256.ReducesTo [1] S64x256
  bcast_S64x256_S64x1x256_0_2 : S64x256.BroadcastsInDim S64x1x256 (![0, 2] : Fin 2 → Fin S64x1x256.rank)
  bcast_S_S64x1x256 : S_.BroadcastsInDim S64x1x256 (![] : Fin 0 → Fin S64x1x256.rank)
  bcast_S1x1024x256_S64x1024x256_0_1_2 : S1x1024x256.BroadcastsInDim S64x1024x256 (![0, 1, 2] : Fin 3 → Fin S64x1024x256.rank)
  bcast_S64x1x256_S64x1024x256_0_1_2 : S64x1x256.BroadcastsInDim S64x1024x256 (![0, 1, 2] : Fin 3 → Fin S64x1024x256.rank)
  reducesTo_S64x1024x256_S1024x256_d0 : S64x1024x256.ReducesTo [0] S1024x256
  bcast_S1024x256_S1x1024x256_1_2 : S1024x256.BroadcastsInDim S1x1024x256 (![1, 2] : Fin 2 → Fin S1x1024x256.rank)
  bcast_S_S1x1024x256 : S_.BroadcastsInDim S1x1024x256 (![] : Fin 0 → Fin S1x1024x256.rank)
  dot_S64x1024x256_S1024x256_S64x1024x1024_2_1_01_0_n_n_wf : DotDims.WF S64x1024x256 S1024x256 S64x1024x1024 [2] [1] [0, 1] [0] [] []
  dot_S64x1024x1024_S1024x256_S64x1024x256_2_0_01_1_n_n_wf : DotDims.WF S64x1024x1024 S1024x256 S64x1024x256 [2] [0] [0, 1] [1] [] []
  dot_S64x1024x512_S512x1024_S64x1024x1024_2_0_01_1_n_n_wf : DotDims.WF S64x1024x512 S512x1024 S64x1024x1024 [2] [0] [0, 1] [1] [] []

variable [Facts₀]

def dot_S64x1024x256_S1024x256_S64x1024x1024_2_1_01_0_n_n : DotDims S64x1024x256 S1024x256 S64x1024x1024 where
  lhsContracting := [2]
  rhsContracting := [1]
  lhsNonContracting := [0, 1]
  rhsNonContracting := [0]
  lhsBatch := []
  rhsBatch := []
  wf := dot_S64x1024x256_S1024x256_S64x1024x1024_2_1_01_0_n_n_wf
def dot_S64x1024x1024_S1024x256_S64x1024x256_2_0_01_1_n_n : DotDims S64x1024x1024 S1024x256 S64x1024x256 where
  lhsContracting := [2]
  rhsContracting := [0]
  lhsNonContracting := [0, 1]
  rhsNonContracting := [1]
  lhsBatch := []
  rhsBatch := []
  wf := dot_S64x1024x1024_S1024x256_S64x1024x256_2_0_01_1_n_n_wf
def dot_S64x1024x512_S512x1024_S64x1024x1024_2_0_01_1_n_n : DotDims S64x1024x512 S512x1024 S64x1024x1024 where
  lhsContracting := [2]
  rhsContracting := [0]
  lhsNonContracting := [0, 1]
  rhsNonContracting := [1]
  lhsBatch := []
  rhsBatch := []
  wf := dot_S64x1024x512_S512x1024_S64x1024x1024_2_0_01_1_n_n_wf

class Facts : Prop extends Facts₀ where

variable [Facts]
-- ==== Proof.KCanon.lean ====
/-
  What the kernel body leaves in its buffers at one grid point, as functions of the staged input blocks.

  The joined-rows block [1, 1, 1024, 512] is filled by four stores, one per row chunk (rows 0–511, 512–1023) and
  per half (columns 0–255: the rows of `x`; columns 256–511: what they retrieve). The running-sum scratch
  [1024, 256] is updated by two stores, one per row chunk, each adding the chunk's blended memory rows to what the
  scratch held; at the first point of a core it is first filled with zeros. At the last point of a core the
  scratch is copied into the partial-sum block.
-/
import proofs.«428584_j76871324664388_3_alg».proof.Proof.Gen.KernelIdeal.Frame
import Idealize.ShloMosaic.Lib.Pipeline.Value

noncomputable section

namespace Cert.KCanon

open Idealize.ShloMosaic Idealize.ShloMosaic.TcCoe Idealize.SL.Sem
open Cert.KernelIdeal Cert.KernelIdeal.Gen

variable {F : FTy → Type} [FloatOps F]

variable (x0 : Vec F S1x1x1024x256 .f32) (x1 : Vec F S1x1024x256 .bf16) (x2 : Vec F S1x256x1024 .bf16)
  (x3 : Vec F S1x1024x256 .f32) (x4 : Vec F S512x1024 .bf16) (x5 : Vec F S1024 .f32) (x6 : Vec F S1024x256 .bf16)
  (x7 : Vec F S256 .f32)

/-! ## The sub-blocks the body loads -/

/-- Rows 0–511 of the `x` block. -/
abbrev xlo : Vec F S1x1x512x256 .f32 :=
  View.ld x0 (Rect.unit (s := S1x1x1024x256) ![0, 0, 0, 0] S1x1x512x256.size inb_S1x1x1024x256_S1x1x512x256_0_0_0_0)
/-- Rows 512–1023 of the `x` block. -/
abbrev xhi : Vec F S1x1x512x256 .f32 :=
  View.ld x0 (Rect.unit (s := S1x1x1024x256) ![0, 0, 512, 0] S1x1x512x256.size inb_S1x1x1024x256_S1x1x512x256_0_0_512_0)
/-- The transposed memory slab, whole. -/
abbrev mT : Vec F S1x256x1024 .bf16 :=
  View.ld x2 (Rect.unit (s := S1x256x1024) ![0, 0, 0] S1x256x1024.size inb_S1x256x1024_S1x256x1024_0_0_0)
/-- The memory slab (bf16 copy), whole. -/
abbrev mB : Vec F S1x1024x256 .bf16 :=
  View.ld x1 (Rect.unit (s := S1x1024x256) ![0, 0, 0] S1x1024x256.size inb_S1x1024x256_S1x1024x256_0_0_0)
/-- Rows 0–255 and 256–511 of `w1`. -/
abbrev w1a : Vec F S256x1024 .bf16 :=
  View.ld x4 (Rect.unit (s := S512x1024) ![0, 0] S256x1024.size inb_S512x1024_S256x1024_0_0)
abbrev w1b : Vec F S256x1024 .bf16 :=
  View.ld x4 (Rect.unit (s := S512x1024) ![256, 0] S256x1024.size inb_S512x1024_S256x1024_256_0)
abbrev b1l : Vec F S1024 .f32 := View.ld x5 (Rect.unit (s := S1024) ![0] S1024.size inb_S1024_S1024_0)
abbrev w2l : Vec F S1024x256 .bf16 :=
  View.ld x6 (Rect.unit (s := S1024x256) ![0, 0] S1024x256.size inb_S1024x256_S1024x256_0_0)
abbrev b2l : Vec F S256 .f32 := View.ld x7 (Rect.unit (s := S256) ![0] S256.size inb_S256_S256_0)
/-- Rows 0–511 and 512–1023 of the f32 memory slab. -/
abbrev mlo : Vec F S1x512x256 .f32 :=
  View.ld x3 (Rect.unit (s := S1x1024x256) ![0, 0, 0] S1x512x256.size inb_S1x1024x256_S1x512x256_0_0_0)
abbrev mhi : Vec F S1x512x256 .f32 :=
  View.ld x3 (Rect.unit (s := S1x1024x256) ![0, 512, 0] S1x512x256.size inb_S1x1024x256_S1x512x256_0_512_0)

/-! ## The two row chunks of the scratch, and the four quarters of the joined-rows block -/

abbrev rLo : Rect S1024x256 := Rect.unit (s := S1024x256) ![0, 0] S512x256.size inb_S1024x256_S512x256_0_0
abbrev rHi : Rect S1024x256 := Rect.unit (s := S1024x256) ![512, 0] S512x256.size inb_S1024x256_S512x256_512_0
abbrev rAll : Rect S1024x256 := Rect.unit (s := S1024x256) ![0, 0] S1024x256.size inb_S1024x256_S1024x256_0_0

/-! ## The joined-rows block -/

/-- What the four stores leave in the joined-rows block. -/
def catCanon : Vec F S1x1x1024x512 .f32 :=
  View.canon
    [⟨Rect.unit (s := S1x1x1024x512) ![0, 0, 512, 256] S1x1x512x256.size inb_S1x1x1024x512_S1x1x512x256_0_0_512_256,
        k0_pay19 (k0_pay17 (k0_pay4 (mT x2)) (k0_pay5 (mB x1)) (xhi x0))⟩,
      ⟨Rect.unit (s := S1x1x1024x512) ![0, 0, 512, 0] S1x1x512x256.size inb_S1x1x1024x512_S1x1x512x256_0_0_512_0,
        k0_pay18 (xhi x0)⟩,
      ⟨Rect.unit (s := S1x1x1024x512) ![0, 0, 0, 256] S1x1x512x256.size inb_S1x1x1024x512_S1x1x512x256_0_0_0_256,
        k0_pay12 (k0_pay5 (mB x1)) (k0_pay8 (mT x2) (xlo x0)) (k0_pay9 (mT x2) (xlo x0))⟩,
      ⟨Rect.unit (s := S1x1x1024x512) ![0, 0, 0, 0] S1x1x512x256.size inb_S1x1x1024x512_S1x1x512x256_0_0_0_0,
        k0_pay11 (k0_pay6 (xlo x0))⟩]

/-! ## The running sum -/

/-- The first chunk's update of the running sum: what the chunk of the scratch held (`ac`) plus the chunk's blend. -/
def updLo (ac : Vec F S512x256 .f32) : FVec F S512x256 .f32 :=
  k0_pay14 (k0_pay3 (xlo x0) (xhi x0))
    (k0_pay13 (k0_pay5 (mB x1)) (k0_pay7 (xlo x0)) (k0_pay8 (mT x2) (xlo x0)) (k0_pay9 (mT x2) (xlo x0))
      (w1a x4) (w1b x4) (b1l x5) (w2l x6) (b2l x7))
    (mlo x3) ac

/-- The second chunk's update. -/
def updHi (ac : Vec F S512x256 .f32) : FVec F S512x256 .f32 :=
  k0_pay20 (k0_pay3 (xlo x0) (xhi x0)) (k0_pay16 (xhi x0)) (k0_pay17 (k0_pay4 (mT x2)) (k0_pay5 (mB x1)) (xhi x0))
    (w1a x4) (w1b x4) (b1l x5) (w2l x6) (b2l x7) (mhi x3) ac

/-- The scratch after a point that finds it at `xs0`. -/
def accCanon (xs0 : Vec F S1024x256 .f32) : Vec F S1024x256 .f32 :=
  View.canon
    [⟨rHi, updHi x0 x1 x2 x3 x4 x5 x6 x7 (View.ld xs0 rHi)⟩,
      ⟨rLo, updLo x0 x1 x2 x3 x4 x5 x6 x7 (View.ld xs0 rLo)⟩]

/-- The zero fill. -/
abbrev zeros : FVec F S1024x256 .f32 := k0_pay2 (F := F)

/-- The scratch after the first update of a point that first fills it with zeros. -/
def midA : Vec F S1024x256 .f32 :=
  View.canon [⟨rLo, updLo x0 x1 x2 x3 x4 x5 x6 x7 (View.ld (View.canon [⟨rAll, zeros (F := F)⟩]) rLo)⟩, ⟨rAll, zeros (F := F)⟩]

/-- The scratch after a point that first fills it with zeros. -/
def accCanonA : Vec F S1024x256 .f32 :=
  View.canon
    [⟨rHi, updHi x0 x1 x2 x3 x4 x5 x6 x7 (View.ld (midA x0 x1 x2 x3 x4 x5 x6 x7) rHi)⟩,
      ⟨rLo, updLo x0 x1 x2 x3 x4 x5 x6 x7 (View.ld (View.canon [⟨rAll, zeros (F := F)⟩]) rLo)⟩,
      ⟨rAll, zeros (F := F)⟩]

/-- The partial-sum block after the last point of a core: the scratch, copied. -/
def out9Canon (xs0 : Vec F S1024x256 .f32) : Vec F S1x1024x256 .f32 :=
  View.canon
    [⟨Rect.unit (s := S1x1024x256) ![0, 0, 0] S1x1024x256.size inb_S1x1024x256_S1x1024x256_0_0_0,
        k0_pay1 (View.ld (accCanon x0 x1 x2 x3 x4 x5 x6 x7 xs0) rAll)⟩]

end Cert.KCanon

end
-- ==== Proof.KPieces.lean ====
/-
  What each control case of the kernel body leaves in its buffers is the canonical contents.

  The body has three cases by the grid point's position within its core's run: the first point (the scratch is
  zeroed first), a middle point, and the last point (the scratch is also copied out). In every case the
  joined-rows block is the same function of the staged `x` block and the two memory operands; the scratch is the
  running sum's update of what it held (or of zeros); the copied-out block is the scratch after the update. A load
  of the scratch made between the stores reads what the stores so far have left.
-/
import proofs.«428584_j76871324664388_3_alg».proof.Proof.KCanon
import Idealize.ShloMosaic.Lib.Pipeline.Value
import Idealize.ShloMosaic.Lib.Tactic

set_option maxRecDepth 16384

noncomputable section

namespace Cert.KPieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KCanon

variable {F : FTy → Type} [FloatOps F]

theorem hz2 : (![0, 0] : Fin 2 → Nat) = fun _ => 0 := funext fun a => by fin_cases a <;> rfl

/-- A load of the scratch right after the zero fill reads the fill. -/
theorem readCov_fill (v : View sig .tc .vmem S1024x256 .f32) (r : Rect S1024x256) :
    v.readCov [(⟨rAll, zeros (F := F)⟩ : View.Piece (Elt F) S1024x256 .f32)] r
      = View.ld (View.canon [(⟨rAll, zeros (F := F)⟩ : View.Piece (Elt F) S1024x256 .f32)]) r :=
  View.readCov_eq_canon_ld v _ r fun y => ⟨_, List.mem_singleton_self _, View.mem_set_unit_zero hz2 inb_S1024x256_S1024x256_0_0 y⟩

/-- A load of the scratch after the zero fill and one more store reads what the two left. -/
theorem readCov_fill_cons (v : View sig .tc .vmem S1024x256 .f32) (p : View.Piece (Elt F) S1024x256 .f32) (r : Rect S1024x256) :
    v.readCov [p, (⟨rAll, zeros (F := F)⟩ : View.Piece (Elt F) S1024x256 .f32)] r
      = View.ld (View.canon [p, (⟨rAll, zeros (F := F)⟩ : View.Piece (Elt F) S1024x256 .f32)]) r :=
  View.readCov_eq_canon_ld v _ r fun y =>
    ⟨⟨rAll, zeros (F := F)⟩, List.mem_cons_of_mem _ (List.mem_singleton_self _), View.mem_set_unit_zero hz2 inb_S1024x256_S1024x256_0_0 y⟩

/-- The two row chunks cover the scratch. -/
theorem chunks_cover (w₁ : rHi.shape.Idx → Elt F .f32) (w₂ : rLo.shape.Idx → Elt F .f32) (y : S1024x256.Idx) :
    ∃ p ∈ [(⟨rHi, w₁⟩ : View.Piece (Elt F) S1024x256 .f32), ⟨rLo, w₂⟩], y ∈ p.1.set := by
  have h0 : (y 0 : Nat) < 1024 := (y 0).isLt
  have h1 : (y 1 : Nat) < 256 := (y 1).isLt
  by_cases h : (y 0 : Nat) < 512
  · refine ⟨⟨rLo, w₂⟩, List.mem_cons_of_mem _ (List.mem_singleton_self _), ?_⟩
    rw [Rect.mem_set_unit]
    intro a
    match a with
    | ⟨0, _⟩ => exact ⟨Nat.zero_le _, by show (y 0 : Nat) < 0 + 512; omega⟩
    | ⟨1, _⟩ => exact ⟨Nat.zero_le _, by show (y 1 : Nat) < 0 + 256; omega⟩
  · refine ⟨⟨rHi, w₁⟩, List.mem_cons_self, ?_⟩
    rw [Rect.mem_set_unit]
    intro a
    match a with
    | ⟨0, _⟩ => exact ⟨by show 512 ≤ (y 0 : Nat); omega, by show (y 0 : Nat) < 512 + 512; omega⟩
    | ⟨1, _⟩ => exact ⟨Nat.zero_le _, by show (y 1 : Nat) < 0 + 256; omega⟩

/-- A load of the whole scratch after the two chunk stores reads what they left. -/
theorem readCov_chunks (v : View sig .tc .vmem S1024x256 .f32) (w₁ : rHi.shape.Idx → Elt F .f32) (w₂ : rLo.shape.Idx → Elt F .f32)
    (r : Rect S1024x256) :
    v.readCov [(⟨rHi, w₁⟩ : View.Piece (Elt F) S1024x256 .f32), ⟨rLo, w₂⟩] r
      = View.ld (View.canon [(⟨rHi, w₁⟩ : View.Piece (Elt F) S1024x256 .f32), ⟨rLo, w₂⟩]) r :=
  View.readCov_eq_canon_ld v _ r (chunks_cover w₁ w₂)

variable (c : Dev nD) (i : grid0.Coords) (arg2 : Memref sig .tc .vmem S1x1x1024x256 .f32) (harg2 : arg2.IsWhole) (arg3 : Memref sig .tc .vmem S1x1024x256 .bf16) (harg3 : arg3.IsWhole) (arg4 : Memref sig .tc .vmem S1x256x1024 .bf16) (harg4 : arg4.IsWhole) (arg5 : Memref sig .tc .vmem S1x1024x256 .f32) (harg5 : arg5.IsWhole) (arg6 : Memref sig .tc .vmem S512x1024 .bf16) (harg6 : arg6.IsWhole) (arg7 : Memref sig .tc .vmem S1024 .f32) (harg7 : arg7.IsWhole) (arg8 : Memref sig .tc .vmem S1024x256 .bf16) (harg8 : arg8.IsWhole) (arg9 : Memref sig .tc .vmem S256 .f32) (harg9 : arg9.IsWhole) (arg10 : Memref sig .tc .vmem S1x1x1024x512 .f32) (harg10 : arg10.IsWhole) (arg11 : Memref sig .tc .vmem S1x1024x256 .f32) (harg11 : arg11.IsWhole) (arg12 : Memref sig .tc .vmem S1024x256 .f32) (harg12 : arg12.IsWhole)

theorem out8_A (hc0 : cond0_0 i) (hc1 : ¬cond0_1 i) (x0 : Vec F S1x1x1024x256 .f32) (x1 : Vec F S1x1024x256 .bf16) (x2 : Vec F S1x256x1024 .bf16) (x3 : Vec F S1x1024x256 .f32) (x4 : Vec F S512x1024 .bf16) (x5 : Vec F S1024 .f32) (x6 : Vec F S1024x256 .bf16) (x7 : Vec F S256 .f32)  :
    out0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 = catCanon x0 x1 x2 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg12.read_unread]
  rfl

theorem out8_B (hc0 : ¬cond0_0 i) (hc1 : ¬cond0_1 i) (x0 : Vec F S1x1x1024x256 .f32) (x1 : Vec F S1x1024x256 .bf16) (x2 : Vec F S1x256x1024 .bf16) (x3 : Vec F S1x1024x256 .f32) (x4 : Vec F S512x1024 .bf16) (x5 : Vec F S1024 .f32) (x6 : Vec F S1024x256 .bf16) (x7 : Vec F S256 .f32) (xs0 : Vec F S1024x256 .f32) :
    out0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = catCanon x0 x1 x2 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg12.read_unread]
  rfl

theorem out8_C (hc0 : ¬cond0_0 i) (hc1 : cond0_1 i) (x0 : Vec F S1x1x1024x256 .f32) (x1 : Vec F S1x1024x256 .bf16) (x2 : Vec F S1x256x1024 .bf16) (x3 : Vec F S1x1024x256 .f32) (x4 : Vec F S512x1024 .bf16) (x5 : Vec F S1024 .f32) (x6 : Vec F S1024x256 .bf16) (x7 : Vec F S256 .f32) (xs0 : Vec F S1024x256 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = catCanon x0 x1 x2 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg12.read_unread]
  rfl

theorem sout_A (hc0 : cond0_0 i) (hc1 : ¬cond0_1 i) (x0 : Vec F S1x1x1024x256 .f32) (x1 : Vec F S1x1024x256 .bf16) (x2 : Vec F S1x256x1024 .bf16) (x3 : Vec F S1x1024x256 .f32) (x4 : Vec F S512x1024 .bf16) (x5 : Vec F S1024 .f32) (x6 : Vec F S1024x256 .bf16) (x7 : Vec F S256 .f32)  :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = accCanonA x0 x1 x2 x3 x4 x5 x6 x7 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, harg12.read_unread]
  rw [readCov_fill_cons, readCov_fill]
  rfl

theorem sout_B (hc0 : ¬cond0_0 i) (hc1 : ¬cond0_1 i) (x0 : Vec F S1x1x1024x256 .f32) (x1 : Vec F S1x1024x256 .bf16) (x2 : Vec F S1x256x1024 .bf16) (x3 : Vec F S1x1024x256 .f32) (x4 : Vec F S512x1024 .bf16) (x5 : Vec F S1024 .f32) (x6 : Vec F S1024x256 .bf16) (x7 : Vec F S256 .f32) (xs0 : Vec F S1024x256 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = accCanon x0 x1 x2 x3 x4 x5 x6 x7 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_B
  dsimp only
  sl_unfold_words
  simp only [View.readAt_eq_ld, harg2.read_unread, harg3.read_unread, harg4.read_unread, harg5.read_unread, harg6.read_unread, harg7.read_unread, harg8.read_unread, harg9.read_unread, harg12.read_unread]
  rfl

theorem sout_C (hc0 : ¬cond0_0 i) (hc1 : cond0_1 i) (x0 : Vec F S1x1x1024x256 .f32) (x1 : Vec F S1x1024x256 .bf16) (x2 : Vec F S1x256x1024 .bf16) (x3 : Vec F S1x1024x256 .f32) (x4 : Vec F S512x1024 .bf16) (x5 : Vec F S1024 .f32) (x6 : Vec F S1024x256 .bf16) (x7 : Vec F S256 .f32) (xs0 : Vec F S1024x256 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = accCanon x0 x1 x2 x3 x4 x5 x6 x7 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg12.read_unread]
  rfl

theorem out9_C (hc0 : ¬cond0_0 i) (hc1 : cond0_1 i) (x0 : Vec F S1x1x1024x256 .f32) (x1 : Vec F S1x1024x256 .bf16) (x2 : Vec F S1x256x1024 .bf16) (x3 : Vec F S1x1024x256 .f32) (x4 : Vec F S512x1024 .bf16) (x5 : Vec F S1024 .f32) (x6 : Vec F S1024x256 .bf16) (x7 : Vec F S256 .f32) (xs0 : Vec F S1024x256 .f32) :
    out0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 = out9Canon x0 x1 x2 x3 x4 x5 x6 x7 xs0 := by
  unfold out0_C_9
  rw [View.read_writes_eq_canon _ _ _ (cover0_C_9 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0)]
  unfold kernelRun0_C
  dsimp only
  sl_unfold_words
  simp only [View.readAt_eq_ld, harg2.read_unread, harg3.read_unread, harg4.read_unread, harg5.read_unread, harg6.read_unread, harg7.read_unread, harg8.read_unread, harg9.read_unread, harg12.read_unread]
  rw [readCov_chunks]
  rfl

end Cert.KPieces

end
-- ==== Proof.KOuts.lean ====
/-
  What the buffers hold after each grid point, case by case, as the canonical contents of the point's staged blocks.

  After a point the joined-rows staging buffer holds the joined rows of the point's `x` block; the scratch holds the
  running sum's update of what the point before left (of zeros at a core's first point); and after a core's last
  point the partial-sum staging buffer holds that scratch.
-/
import proofs.«428584_j76871324664388_3_alg».proof.Proof.KPieces

set_option maxRecDepth 16384

noncomputable section

namespace Cert.KOuts

open Idealize.ShloMosaic Idealize.ShloMosaic.TcCoe Idealize.SL.Sem
open Idealize.ShloMosaic.Pipeline (Dat)
open Cert.KernelIdeal Cert.KernelIdeal.Gen Cert.KCanon Cert.KPieces

variable {F : FTy → Type} [FloatOps F]
variable (m : (ℓ : Loc nD τ sig) → Buf (Elt F) ℓ) (c : Dev nD) (t : Fin cfg0.N)

/-- The staged input blocks at point `t`, by their literal types. -/
abbrev ib0 : Vec F S1x1x1024x256 .f32 := iblk m c 0 t
abbrev ib1 : Vec F S1x1024x256 .bf16 := iblk m c 1 t
abbrev ib2 : Vec F S1x256x1024 .bf16 := iblk m c 2 t
abbrev ib3 : Vec F S1x1024x256 .f32 := iblk m c 3 t
abbrev ib4 : Vec F S512x1024 .bf16 := iblk m c 4 t
abbrev ib5 : Vec F S1024 .f32 := iblk m c 5 t
abbrev ib6 : Vec F S1024x256 .bf16 := iblk m c 6 t
abbrev ib7 : Vec F S256 .f32 := iblk m c 7 t

/-- What the point before `t` left in the scratch. -/
abbrev prevS : Vec F S1024x256 .f32 := (outsAt0 m c (t.val - 1) (Nat.lt_of_le_of_lt (Nat.sub_le _ _) t.isLt)).2.2

/-- After a core's first point. -/
theorem outs_A (h0 : t.val % 32 = 0) (h1 : ¬t.val % 32 = 31) :
    (outsAt0 m c t.val t.isLt).1 = catCanon (ib0 m c t) (ib1 m c t) (ib2 m c t)
    ∧ (outsAt0 m c t.val t.isLt).2.2 = accCanonA (ib0 m c t) (ib1 m c t) (ib2 m c t) (ib3 m c t) (ib4 m c t) (ib5 m c t) (ib6 m c t) (ib7 m c t) := by
  rw [outsAt0_A m c t h0 h1]
  dsimp only
  exact ⟨out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (ib0 m c t) (ib1 m c t) (ib2 m c t) (ib3 m c t) (ib4 m c t) (ib5 m c t) (ib6 m c t) (ib7 m c t),
    sout_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (ib0 m c t) (ib1 m c t) (ib2 m c t) (ib3 m c t) (ib4 m c t) (ib5 m c t) (ib6 m c t) (ib7 m c t)⟩

/-- After a middle point. -/
theorem outs_B (h0 : ¬t.val % 32 = 0) (h1 : ¬t.val % 32 = 31) :
    (outsAt0 m c t.val t.isLt).1 = catCanon (ib0 m c t) (ib1 m c t) (ib2 m c t)
    ∧ (outsAt0 m c t.val t.isLt).2.2 = accCanon (ib0 m c t) (ib1 m c t) (ib2 m c t) (ib3 m c t) (ib4 m c t) (ib5 m c t) (ib6 m c t) (ib7 m c t) (prevS m c t) := by
  rw [outsAt0_B m c t h0 h1]
  dsimp only
  exact ⟨out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (ib0 m c t) (ib1 m c t) (ib2 m c t) (ib3 m c t) (ib4 m c t) (ib5 m c t) (ib6 m c t) (ib7 m c t) (prevS m c t),
    sout_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (ib0 m c t) (ib1 m c t) (ib2 m c t) (ib3 m c t) (ib4 m c t) (ib5 m c t) (ib6 m c t) (ib7 m c t) (prevS m c t)⟩

/-- After a core's last point. -/
theorem outs_C (h0 : ¬t.val % 32 = 0) (h1 : t.val % 32 = 31) :
    (outsAt0 m c t.val t.isLt).1 = catCanon (ib0 m c t) (ib1 m c t) (ib2 m c t)
    ∧ (outsAt0 m c t.val t.isLt).2.1 = out9Canon (ib0 m c t) (ib1 m c t) (ib2 m c t) (ib3 m c t) (ib4 m c t) (ib5 m c t) (ib6 m c t) (ib7 m c t) (prevS m c t)
    ∧ (outsAt0 m c t.val t.isLt).2.2 = accCanon (ib0 m c t) (ib1 m c t) (ib2 m c t) (ib3 m c t) (ib4 m c t) (ib5 m c t) (ib6 m c t) (ib7 m c t) (prevS m c t) := by
  rw [outsAt0_C m c t h0 h1]
  dsimp only
  exact ⟨out8_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (ib0 m c t) (ib1 m c t) (ib2 m c t) (ib3 m c t) (ib4 m c t) (ib5 m c t) (ib6 m c t) (ib7 m c t) (prevS m c t),
    out9_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (ib0 m c t) (ib1 m c t) (ib2 m c t) (ib3 m c t) (ib4 m c t) (ib5 m c t) (ib6 m c t) (ib7 m c t) (prevS m c t),
    sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (ib0 m c t) (ib1 m c t) (ib2 m c t) (ib3 m c t) (ib4 m c t) (ib5 m c t) (ib6 m c t) (ib7 m c t) (prevS m c t)⟩

end Cert.KOuts

end
-- ==== Proof.Spec.lean ====
/-
  The mathematics of the gated memory update, over plain functions on the extended reals.

  One batch element's rows attend to the memory slab: a row's scores against the `1024` memory rows, a softmax
  over them (the maximum subtracted, then exponentials over their sum), the retrieved row, the row joined with
  what it retrieved, a two-layer gate (SiLU, then a sigmoid), and the blend of the memory row with the batch
  element's mean row under that gate; the blended slabs are averaged over the `64` batch elements.

  Everything here is stated once, in the form a whole-array reading gives it, together with the laws that
  bring the other arrangement of the same value to that form: a quotient written as a product with a
  reciprocal (true where the divisor is not zero, which finite inputs give), a contraction over `512`
  coordinates cut in two halves, a mean taken as a product with the reciprocal of the count, and a sum over the
  batch accumulated half by half.
-/
import Idealize.ShloMosaic.PureOps.Ideal
import Mathlib.Algebra.BigOperators.Fin
import Mathlib.Algebra.BigOperators.Intervals

noncomputable section

open scoped BigOperators

namespace Cert.Spec

open Idealize.ShloMosaic

/-- An extended real that is a real number. -/
def IsReal (v : EReal) : Prop := ∃ r : ℝ, v = (r : EReal)

section Row

variable (mem : Fin 1024 → Fin 256 → EReal) (w1 : Fin 512 → Fin 1024 → EReal) (b1 : Fin 1024 → EReal)
  (w2 : Fin 1024 → Fin 256 → EReal) (b2 : Fin 256 → EReal)

/-- A row's score against memory row `m`: their inner product. -/
def energy (xr : Fin 256 → EReal) (m : Fin 1024) : EReal := ∑ k : Fin 256, xr k * mem m k

/-- The largest of a row's scores (from `-∞`). -/
def rowMax (e : Fin 1024 → EReal) : EReal := (Finset.univ : Finset (Fin 1024)).fold max ⊥ e

/-- The exponential of a score less the row's largest. -/
def expd (e : Fin 1024 → EReal) (m : Fin 1024) : EReal := Ideal.exp (e m - rowMax e)

/-- The softmax's denominator. -/
def den (e : Fin 1024 → EReal) : EReal := ∑ m : Fin 1024, expd e m

/-- The softmax weight of memory row `m`. -/
def wgt (e : Fin 1024 → EReal) (m : Fin 1024) : EReal := Ideal.div (expd e m) (den e)

/-- What the row retrieves: the weighted sum of the memory rows. -/
def retr (xr : Fin 256 → EReal) (c : Fin 256) : EReal := ∑ m : Fin 1024, wgt (energy mem xr) m * mem m c

/-- The row joined with what it retrieves. -/
def catv (xr : Fin 256 → EReal) (k : Fin 512) : EReal :=
  if h : k.val < 256 then xr ⟨k.val, h⟩ else retr mem xr ⟨k.val - 256, by omega⟩

/-- The gate's hidden pre-activation. -/
def hpre (xr : Fin 256 → EReal) (f : Fin 1024) : EReal := (∑ k : Fin 512, catv mem xr k * w1 k f) + b1 f

/-- SiLU of the pre-activation. -/
def hid (xr : Fin 256 → EReal) (f : Fin 1024) : EReal := hpre mem w1 b1 xr f * Ideal.logistic (hpre mem w1 b1 xr f)

/-- The update gate. -/
def gate (xr : Fin 256 → EReal) (c : Fin 256) : EReal :=
  Ideal.logistic ((∑ f : Fin 1024, hid mem w1 b1 xr f * w2 f c) + b2 c)

/-- A batch element's mean row. -/
def xmean (xb : Fin 1024 → Fin 256 → EReal) (c : Fin 256) : EReal :=
  Ideal.div (∑ t : Fin 1024, xb t c) ((1024 : ℝ) : EReal)

/-- The blended memory entry of one batch element. -/
def blend (xb : Fin 1024 → Fin 256 → EReal) (t : Fin 1024) (c : Fin 256) : EReal :=
  mem t c * (1 - gate mem w1 b1 w2 b2 (xb t) c) + xmean xb c * gate mem w1 b1 w2 b2 (xb t) c

/-- The new memory: the blended entries averaged over the batch. -/
def newMem (x : Fin 64 → Fin 1024 → Fin 256 → EReal) (t : Fin 1024) (c : Fin 256) : EReal :=
  Ideal.div (∑ b : Fin 64, blend mem w1 b1 w2 b2 (x b) t c) ((64 : ℝ) : EReal)

/-- The batch sum as it is accumulated point by point: restarted at every multiple of `32`. -/
def acc (x : ℕ → Fin 1024 → Fin 256 → EReal) : ℕ → Fin 1024 → Fin 256 → EReal
  | 0 => fun t c => 0 + blend mem w1 b1 w2 b2 (x 0) t c
  | n + 1 => fun t c =>
      if (n + 1) % 32 = 0 then 0 + blend mem w1 b1 w2 b2 (x (n + 1)) t c
      else acc x n t c + blend mem w1 b1 w2 b2 (x (n + 1)) t c

end Row

/-! ## The laws between the two arrangements -/

section Laws

variable (mem : Fin 1024 → Fin 256 → EReal) (w1 : Fin 512 → Fin 1024 → EReal) (b1 : Fin 1024 → EReal)
  (w2 : Fin 1024 → Fin 256 → EReal) (b2 : Fin 256 → EReal)

/-! ### Real-valued extended reals -/

/-- A product of two reals is real. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A difference of two reals is real. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    obtain ⟨r, hr⟩ := h a (Finset.mem_insert_self a s)
    obtain ⟨r', hr'⟩ := ih (fun i hi => h i (Finset.mem_insert_of_mem hi))
    exact ⟨r + r', by rw [hr, hr', EReal.coe_add]⟩

/-- The running maximum from minus infinity over reals is minus infinity or a real. -/
theorem fold_max_bot_or_isReal {ι : Type*} (s : Finset ι) (f : ι → EReal) (h : ∀ i ∈ s, IsReal (f i)) :
    s.fold max ⊥ f = ⊥ ∨ IsReal (s.fold max ⊥ f) := by
  classical
  induction s using Finset.induction_on with
  | empty => exact Or.inl (Finset.fold_empty)
  | insert a s ha ih =>
    right
    rw [Finset.fold_insert ha]
    obtain ⟨r, hr⟩ := h a (Finset.mem_insert_self a s)
    rcases ih (fun i hi => h i (Finset.mem_insert_of_mem hi)) with hb | ⟨r', hr'⟩
    · rw [hb, max_eq_left bot_le]; exact ⟨r, hr⟩
    · rcases max_choice (f a) (s.fold max ⊥ f) with hm | hm
      · rw [hm]; exact ⟨r, hr⟩
      · rw [hm]; exact ⟨r', hr'⟩

/-- The largest of finitely many real scores is real. -/
theorem isReal_rowMax (e : Fin 1024 → EReal) (he : ∀ m, IsReal (e m)) : IsReal (rowMax e) := by
  rcases fold_max_bot_or_isReal Finset.univ e (fun m _ => he m) with hb | hr
  · exfalso
    obtain ⟨r, hr⟩ := he 0
    have hle : e 0 ≤ (Finset.univ : Finset (Fin 1024)).fold max ⊥ e :=
      (Finset.le_fold_max (e 0)).mpr (Or.inr ⟨0, Finset.mem_univ _, le_refl _⟩)
    rw [hb, hr] at hle
    exact EReal.coe_ne_bot r (le_bot_iff.mp hle)
  · exact hr

/-- The exponential of a real is a positive extended real. -/
theorem exp_pos_of_isReal {v : EReal} (hv : IsReal v) : 0 < Ideal.exp v := by
  obtain ⟨r, rfl⟩ := hv
  rw [Ideal.exp_coe]
  exact EReal.coe_pos.mpr (Real.exp_pos r)

/-! ### The batch sum accumulated point by point -/

/-- Inside a block of 32 points the accumulated value is the sum of the block's blended entries so far. -/
theorem acc_block (xn : ℕ → Fin 1024 → Fin 256 → EReal) (t : Fin 1024) (c : Fin 256) (q : ℕ) :
    ∀ r : ℕ, r < 32 → acc mem w1 b1 w2 b2 xn (32 * q + r) t c
      = ∑ j ∈ Finset.range (r + 1), blend mem w1 b1 w2 b2 (xn (32 * q + j)) t c := by
  intro r
  induction r with
  | zero =>
    intro _
    rw [Finset.sum_range_one, Nat.add_zero]
    cases q with
    | zero => simp only [Nat.mul_zero, acc, zero_add]
    | succ p =>
      have hmod : (32 * p + 31 + 1) % 32 = 0 := by omega
      have hidx : 32 * (p + 1) = (32 * p + 31) + 1 := by omega
      rw [hidx]
      simp only [acc, if_pos hmod, zero_add]
  | succ r ih =>
    intro hr
    have hmod : ¬ ((32 * q + r + 1) % 32 = 0) := by omega
    have hidx : 32 * q + (r + 1) = (32 * q + r) + 1 := by omega
    rw [Finset.sum_range_succ, ← ih (by omega), hidx]
    simp only [acc, if_neg hmod]

/-- A product with the reciprocal of a divisor that is not zero is the quotient. -/
theorem mul_div_one (a d : EReal) (hd : d ≠ 0) : a * Ideal.div 1 d = Ideal.div a d := by
  simp only [Ideal.div, if_neg hd, one_mul]

/-- Finite rows against a finite memory slab have a softmax denominator that is not zero: every score is a real
    number, so is their maximum, every exponential is positive, and so is their sum. -/
theorem den_ne_zero (xr : Fin 256 → EReal) (hx : ∀ k, IsReal (xr k)) (hm : ∀ m k, IsReal (mem m k)) :
    den (energy mem xr) ≠ 0 := by
  have he : ∀ m, IsReal (energy mem xr m) := fun m =>
    isReal_sum Finset.univ _ (fun k _ => (hx k).mul (hm m k))
  have hmax : IsReal (rowMax (energy mem xr)) := isReal_rowMax _ he
  have hpos : ∀ m, 0 < expd (energy mem xr) m := fun m => exp_pos_of_isReal ((he m).sub hmax)
  have hsum : 0 < ∑ m : Fin 1024, expd (energy mem xr) m :=
    (Finset.sum_pos_iff_of_nonneg (fun m _ => (hpos m).le)).mpr ⟨0, Finset.mem_univ _, hpos 0⟩
  exact hsum.ne'

/-- The retrieved row with each weight written as the exponential times the reciprocal of the denominator. -/
theorem retr_recip (xr : Fin 256 → EReal) (c : Fin 256) (hd : den (energy mem xr) ≠ 0) :
    (∑ m : Fin 1024, (expd (energy mem xr) m * Ideal.div 1 (den (energy mem xr))) * mem m c) = retr mem xr c := by
  unfold retr wgt
  refine Finset.sum_congr rfl (fun m _ => ?_)
  rw [mul_div_one _ _ hd]

/-- The contraction over the joined row, cut at coordinate `256`: the row's half and the retrieved half. -/
theorem hpre_halves (xr : Fin 256 → EReal) (f : Fin 1024) :
    ((∑ k : Fin 256, xr k * w1 ⟨k.val, by omega⟩ f) + (∑ k : Fin 256, retr mem xr k * w1 ⟨256 + k.val, by omega⟩ f)) + b1 f
      = hpre mem w1 b1 xr f := by
  unfold hpre
  have hsplit := Fin.sum_univ_add (a := 256) (b := 256) (fun k : Fin 512 => catv mem xr k * w1 k f)
  have h1 : ∀ k : Fin 256, catv mem xr (Fin.castAdd 256 k) = xr k := by
    intro k
    have hk : (Fin.castAdd 256 k).val < 256 := k.isLt
    simp only [catv, dif_pos hk]
    rfl
  have h2 : ∀ k : Fin 256, catv mem xr (Fin.natAdd 256 k) = retr mem xr k := by
    intro k
    have hk : ¬ (Fin.natAdd 256 k).val < 256 := by simp [Fin.natAdd]
    simp only [catv, dif_neg hk]
    congr 1
    apply Fin.ext
    simp [Fin.natAdd]
  simp only [h1, h2] at hsplit
  rw [show (∑ k : Fin 512, catv mem xr k * w1 k f) = _ from hsplit]
  rfl

/-- The mean row as the two half sums (the first from zero) times the reciprocal of the count. -/
theorem xmean_halves (xb : Fin 1024 → Fin 256 → EReal) (c : Fin 256) :
    ((0 + ∑ t : Fin 512, xb ⟨t.val, by omega⟩ c) + ∑ t : Fin 512, xb ⟨512 + t.val, by omega⟩ c) * (((1 / 1024 : ℝ)) : EReal)
      = xmean xb c := by
  unfold xmean
  rw [Ideal.div_coe (by norm_num : (1024 : ℝ) ≠ 0), zero_add]
  have hsplit := Fin.sum_univ_add (a := 512) (b := 512) (fun t : Fin 1024 => xb t c)
  rw [show (∑ t : Fin 1024, xb t c) = _ from hsplit]
  rfl

/-- The average over the batch from the two accumulated halves: what the points `31` and `63` leave, added from
    zero and multiplied by the reciprocal of the count. -/
theorem newMem_halves (x : Fin 64 → Fin 1024 → Fin 256 → EReal) (xn : ℕ → Fin 1024 → Fin 256 → EReal)
    (hx : ∀ b : Fin 64, xn b.val = x b) (t : Fin 1024) (c : Fin 256) :
    (0 + ∑ k : Fin 2, acc mem w1 b1 w2 b2 xn (32 * k.val + 31) t c) * (((1 / 64 : ℝ)) : EReal)
      = newMem mem w1 b1 w2 b2 x t c := by
  unfold newMem
  rw [Ideal.div_coe (by norm_num : (64 : ℝ) ≠ 0), zero_add, Fin.sum_univ_two]
  have hsplit := Fin.sum_univ_add (a := 32) (b := 32) (fun b : Fin 64 => blend mem w1 b1 w2 b2 (x b) t c)
  rw [show (∑ b : Fin 64, blend mem w1 b1 w2 b2 (x b) t c) = _ from hsplit]
  have e0 := acc_block mem w1 b1 w2 b2 xn t c 0 31 (by norm_num)
  have e1 := acc_block mem w1 b1 w2 b2 xn t c 1 31 (by norm_num)
  rw [Finset.sum_range] at e0 e1
  have a0 : acc mem w1 b1 w2 b2 xn (32 * (0 : Fin 2).val + 31) t c
      = ∑ i : Fin 32, blend mem w1 b1 w2 b2 (x (Fin.castAdd 32 i)) t c := by
    rw [show (32 * (0 : Fin 2).val + 31) = 32 * 0 + 31 from rfl, e0]
    refine Finset.sum_congr rfl (fun i _ => ?_)
    rw [← hx (Fin.castAdd 32 i)]
    congr 2
    simp
  have a1 : acc mem w1 b1 w2 b2 xn (32 * (1 : Fin 2).val + 31) t c
      = ∑ i : Fin 32, blend mem w1 b1 w2 b2 (x (Fin.natAdd 32 i)) t c := by
    rw [show (32 * (1 : Fin 2).val + 31) = 32 * 1 + 31 from rfl, e1]
    refine Finset.sum_congr rfl (fun i _ => ?_)
    rw [← hx (Fin.natAdd 32 i)]
    congr 2
  rw [a0, a1]

end Laws

end Cert.Spec

end
-- ==== Proof.Arrays.lean ====
/-
  The six argument arrays read through their coordinates, and the two results as whole-array functions of them.

  `x` is the batch array [64, 1024, 256], `memory` the slab [1, 1024, 256], `w1` [512, 1024], `b1` [1024], `w2`
  [1024, 256], `b2` [256]. The first result joins every row of `x` with what it retrieves; the second is the new
  memory slab. Both programs are shown to end with these two functions of their (agreeing) arguments.
-/
import proofs.«428584_j76871324664388_3_alg».proof.Proof.Spec
import Idealize.ShloMosaic.Lib.ValueIdx

noncomputable section

namespace Cert.Arr

open Idealize.ShloMosaic Idealize.ShloMosaic.ValueIdx

/-- Row `t` of batch element `b`. -/
abbrev X (x0 : (⟨3, ![64, 1024, 256]⟩ : Shape).Idx → EReal) (b : Fin 64) (t : Fin 1024) (k : Fin 256) : EReal := x0 (ix3 b t k)
/-- The memory slab's entry `(m, k)`. -/
abbrev M (x1 : (⟨3, ![1, 1024, 256]⟩ : Shape).Idx → EReal) (m : Fin 1024) (k : Fin 256) : EReal := x1 (ix3 (0 : Fin 1) m k)
abbrev W1 (x2 : (⟨2, ![512, 1024]⟩ : Shape).Idx → EReal) (k : Fin 512) (f : Fin 1024) : EReal := x2 (ix2 k f)
abbrev B1 (x3 : (⟨1, ![1024]⟩ : Shape).Idx → EReal) (f : Fin 1024) : EReal := x3 (ix1 f)
abbrev W2 (x4 : (⟨2, ![1024, 256]⟩ : Shape).Idx → EReal) (f : Fin 1024) (c : Fin 256) : EReal := x4 (ix2 f c)
abbrev B2 (x5 : (⟨1, ![256]⟩ : Shape).Idx → EReal) (c : Fin 256) : EReal := x5 (ix1 c)

/-- The first result: entry `(b, t, j)` is entry `j` of row `(b, t)` joined with what it retrieves. -/
def catAll (x0 : (⟨3, ![64, 1024, 256]⟩ : Shape).Idx → EReal) (x1 : (⟨3, ![1, 1024, 256]⟩ : Shape).Idx → EReal) :
    (⟨3, ![64, 1024, 512]⟩ : Shape).Idx → EReal :=
  fun i => Spec.catv (M x1) (X x0 (i 0) (i 1)) (i 2)

/-- The second result: the new memory slab. -/
def newMemAll (x0 : (⟨3, ![64, 1024, 256]⟩ : Shape).Idx → EReal) (x1 : (⟨3, ![1, 1024, 256]⟩ : Shape).Idx → EReal)
    (x2 : (⟨2, ![512, 1024]⟩ : Shape).Idx → EReal) (x3 : (⟨1, ![1024]⟩ : Shape).Idx → EReal)
    (x4 : (⟨2, ![1024, 256]⟩ : Shape).Idx → EReal) (x5 : (⟨1, ![256]⟩ : Shape).Idx → EReal) :
    (⟨3, ![1, 1024, 256]⟩ : Shape).Idx → EReal :=
  fun i => Spec.newMem (M x1) (W1 x2) (B1 x3) (W2 x4) (B2 x5) (fun b => X x0 b) (i 1) (i 2)

end Cert.Arr

end
-- ==== Proof.KBlocks.lean ====
/-
  The kernel's input blocks, read off the arguments.

  Before the region the host casts the memory slab and the two weight matrices to bf16 (the identity at the ideal
  values), transposes the cast slab, and reshapes `x` to [2, 32, 1024, 256]. At grid point `t` the pipeline stages
  block `(t / 32, t % 32)` of the reshaped `x` — batch element `t` — and the whole of every other operand. Each staged
  block is read here at an index, in terms of the arguments as launched.
-/
import proofs.«428584_j76871324664388_3_alg».proof.Proof.Gen.KernelIdeal.Frame
import proofs.«428584_j76871324664388_3_alg».proof.Proof.Arrays
import Idealize.ShloMosaic.Lib.Pipeline.Value
import Idealize.ShloMosaic.Lib.ValueIdx
import Idealize.ShloMosaic.Lib.StableHlo.Run

noncomputable section

namespace Cert.KBlocks

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (c : Dev nD) (t : Fin cfg0.N)

/-- The grid point's number as a batch index. -/
abbrev bat (t : Fin cfg0.N) : Fin 64 := ⟨t.val, lt_of_lt_of_eq t.isLt N_0⟩

/-- The staged blocks at point `t`, by their literal types. -/
abbrev blk0 : Vec Ideal S1x1x1024x256 .f32 := iblk m c 0 t
abbrev blk1 : Vec Ideal S1x1024x256 .bf16 := iblk m c 1 t
abbrev blk2 : Vec Ideal S1x256x1024 .bf16 := iblk m c 2 t
abbrev blk3 : Vec Ideal S1x1024x256 .f32 := iblk m c 3 t
abbrev blk4 : Vec Ideal S512x1024 .bf16 := iblk m c 4 t
abbrev blk5 : Vec Ideal S1024 .f32 := iblk m c 5 t
abbrev blk6 : Vec Ideal S1024x256 .bf16 := iblk m c 6 t
abbrev blk7 : Vec Ideal S256 .f32 := iblk m c 7 t

/-! ## What the host wrote before the region -/

/-- The memory slab cast to bf16, as the region finds it. -/
theorem V_v0 : @Eq (FVec Ideal S1x1024x256 .bf16) (V m c main_v0)
    (truncf .bf16 (m ((c : Thread nD τ).loc main_arg1) : FVec Ideal S1x1024x256 .f32) bitsLt_bf16_f32) := by
  dsimp only [Gen.V, Gen.V0]
  simp only [Gen.hostOps0, List.flatten_cons, List.flatten_nil, List.append_nil, List.cons_append, List.nil_append]
  after_results

/-- The cast slab transposed, as the region finds it. -/
theorem V_v1 : @Eq (FVec Ideal S1x256x1024 .bf16) (V m c main_v1)
    (transpose S1x256x1024 [0, 2, 1]
      (truncf .bf16 (m ((c : Thread nD τ).loc main_arg1) : FVec Ideal S1x1024x256 .f32) bitsLt_bf16_f32 : FVec Ideal S1x1024x256 .bf16)
      transposes_S1x1024x256_S1x256x1024_0_2_1) := by
  dsimp only [Gen.V, Gen.V0]
  simp only [Gen.hostOps0, List.flatten_cons, List.flatten_nil, List.append_nil, List.cons_append, List.nil_append]
  after_results

/-- `w1` cast to bf16, as the region finds it. -/
theorem V_v2 : @Eq (FVec Ideal S512x1024 .bf16) (V m c main_v2)
    (truncf .bf16 (m ((c : Thread nD τ).loc main_arg2) : FVec Ideal S512x1024 .f32) bitsLt_bf16_f32) := by
  dsimp only [Gen.V, Gen.V0]
  simp only [Gen.hostOps0, List.flatten_cons, List.flatten_nil, List.append_nil, List.cons_append, List.nil_append]
  after_results

/-- `w2` cast to bf16, as the region finds it. -/
theorem V_v3 : @Eq (FVec Ideal S1024x256 .bf16) (V m c main_v3)
    (truncf .bf16 (m ((c : Thread nD τ).loc main_arg4) : FVec Ideal S1024x256 .f32) bitsLt_bf16_f32) := by
  dsimp only [Gen.V, Gen.V0]
  simp only [Gen.hostOps0, List.flatten_cons, List.flatten_nil, List.append_nil, List.cons_append, List.nil_append]
  after_results

/-- `x` reshaped to `[2, 32, 1024, 256]`, as the region finds it. -/
theorem V_v4 : @Eq (FVec Ideal S2x32x1024x256 .f32) (V m c main_v4)
    (shapeCast S2x32x1024x256 (m ((c : Thread nD τ).loc main_arg0) : FVec Ideal S64x1024x256 .f32)
      shapeCasts_S64x1024x256_S2x32x1024x256) := by
  dsimp only [Gen.V, Gen.V0]
  simp only [Gen.hostOps0, List.flatten_cons, List.flatten_nil, List.append_nil, List.cons_append, List.nil_append]
  after_results
  rfl

/-! ## Which block each window stages at a grid point -/

/-- Window 0 walks the two leading axes of the reshaped `x` with the grid: block `(t / 32, t % 32, 0, 0)`. -/
theorem idx0 : ∀ t : Fin cfg0.N, win0_0.index t 0 = t.val / 32 ∧ win0_0.index t 1 = t.val % 32
    ∧ win0_0.index t 2 = 0 ∧ win0_0.index t 3 = 0 :=
  (by decide +kernel : ∀ t : Fin grid0.N, _)
/-- Every other input window stages its whole array at every point. -/
theorem idx1 : ∀ t : Fin cfg0.N, win0_1.index t 0 = 0 ∧ win0_1.index t 1 = 0 ∧ win0_1.index t 2 = 0 :=
  (by decide +kernel : ∀ t : Fin grid0.N, _)
theorem idx2 : ∀ t : Fin cfg0.N, win0_2.index t 0 = 0 ∧ win0_2.index t 1 = 0 ∧ win0_2.index t 2 = 0 :=
  (by decide +kernel : ∀ t : Fin grid0.N, _)
theorem idx3 : ∀ t : Fin cfg0.N, win0_3.index t 0 = 0 ∧ win0_3.index t 1 = 0 ∧ win0_3.index t 2 = 0 :=
  (by decide +kernel : ∀ t : Fin grid0.N, _)
theorem idx4 : ∀ t : Fin cfg0.N, win0_4.index t 0 = 0 ∧ win0_4.index t 1 = 0 :=
  (by decide +kernel : ∀ t : Fin grid0.N, _)
theorem idx5 : ∀ t : Fin cfg0.N, win0_5.index t 0 = 0 :=
  (by decide +kernel : ∀ t : Fin grid0.N, _)
theorem idx6 : ∀ t : Fin cfg0.N, win0_6.index t 0 = 0 ∧ win0_6.index t 1 = 0 :=
  (by decide +kernel : ∀ t : Fin grid0.N, _)
theorem idx7 : ∀ t : Fin cfg0.N, win0_7.index t 0 = 0 :=
  (by decide +kernel : ∀ t : Fin grid0.N, _)

/-! ## The staged blocks at an index -/

/-- Block 0 is batch element `t` of `x`. -/
theorem blk0_apply (r : Fin 1024) (k : Fin 256) :
    blk0 m c t (ix4 (0 : Fin 1) (0 : Fin 1) r k) = Arr.X (m ((c : Thread nD τ).loc main_arg0)) (bat t) r k := by
  show iblk m c 0 t (ix4 (0 : Fin 1) (0 : Fin 1) r k) = _
  unfold iblk
  rw [View.read_apply]
  show V m c main_v4 _ = _
  rw [V_v4]
  obtain ⟨e0, e1, e2, e3⟩ := idx0 t
  have ht : t.val < 64 := lt_of_lt_of_eq t.isLt N_0
  refine shapeCast_apply _ _ _ (ix3 (bat t) r k) ?_
  rw [Shape.rowMajor_val_three, Shape.rowMajor_val_four]
  show (t.val * 1024 + r.val) * 256 + k.val
    = (((win0_0.index t 0 * 1 + 1 * 0) * 32 + (win0_0.index t 1 * 1 + 1 * 0)) * 1024 + (win0_0.index t 2 * 1024 + 1 * r.val)) * 256
      + (win0_0.index t 3 * 256 + 1 * k.val)
  rw [e0, e1, e2, e3]
  omega

/-- Block 1 is the memory slab (cast to bf16: the same extended reals). -/
theorem blk1_apply (r : Fin 1024) (k : Fin 256) :
    blk1 m c t (ix3 (0 : Fin 1) r k) = Arr.M (m ((c : Thread nD τ).loc main_arg1)) r k := by
  show iblk m c 1 t (ix3 (0 : Fin 1) r k) = _
  unfold iblk
  rw [View.read_apply]
  show V m c main_v0 _ = _
  rw [V_v0]
  obtain ⟨e0, e1, e2⟩ := idx1 t
  show m ((c : Thread nD τ).loc main_arg1) _ = _
  refine congrArg _ (funext fun a => Fin.ext ?_)
  match a with
  | ⟨0, _⟩ => show win0_1.index t 0 * 1 + 1 * 0 = 0; omega
  | ⟨1, _⟩ => show win0_1.index t 1 * 1024 + 1 * r.val = r.val; omega
  | ⟨2, _⟩ => show win0_1.index t 2 * 256 + 1 * k.val = k.val; omega

/-- Block 2 is the memory slab transposed. -/
theorem blk2_apply (k : Fin 256) (r : Fin 1024) :
    blk2 m c t (ix3 (0 : Fin 1) k r) = Arr.M (m ((c : Thread nD τ).loc main_arg1)) r k := by
  show iblk m c 2 t (ix3 (0 : Fin 1) k r) = _
  unfold iblk
  rw [View.read_apply]
  show V m c main_v1 _ = _
  rw [V_v1]
  obtain ⟨e0, e1, e2⟩ := idx2 t
  refine (transpose_apply _ _ _ _ (ix3 (0 : Fin 1) r k) fun b => ?_).trans (truncf_apply _ _ _)
  match b with
  | ⟨0, _⟩ => show 0 = win0_2.index t 0 * 1 + 1 * 0; omega
  | ⟨1, _⟩ => show k.val = win0_2.index t 1 * 256 + 1 * k.val; omega
  | ⟨2, _⟩ => show r.val = win0_2.index t 2 * 1024 + 1 * r.val; omega

/-- Block 3 is the memory slab. -/
theorem blk3_apply (r : Fin 1024) (k : Fin 256) :
    blk3 m c t (ix3 (0 : Fin 1) r k) = Arr.M (m ((c : Thread nD τ).loc main_arg1)) r k := by
  show iblk m c 3 t (ix3 (0 : Fin 1) r k) = _
  unfold iblk
  rw [View.read_apply]
  show V m c main_arg1 _ = _
  rw [V_main_arg1]
  obtain ⟨e0, e1, e2⟩ := idx3 t
  refine congrArg _ (funext fun a => Fin.ext ?_)
  match a with
  | ⟨0, _⟩ => show win0_3.index t 0 * 1 + 1 * 0 = 0; omega
  | ⟨1, _⟩ => show win0_3.index t 1 * 1024 + 1 * r.val = r.val; omega
  | ⟨2, _⟩ => show win0_3.index t 2 * 256 + 1 * k.val = k.val; omega

/-- Block 4 is `w1`. -/
theorem blk4_apply (k : Fin 512) (f : Fin 1024) :
    blk4 m c t (ix2 k f) = Arr.W1 (m ((c : Thread nD τ).loc main_arg2)) k f := by
  show iblk m c 4 t (ix2 k f) = _
  unfold iblk
  rw [View.read_apply]
  show V m c main_v2 _ = _
  rw [V_v2]
  obtain ⟨e0, e1⟩ := idx4 t
  show m ((c : Thread nD τ).loc main_arg2) _ = _
  refine congrArg _ (funext fun a => Fin.ext ?_)
  match a with
  | ⟨0, _⟩ => show win0_4.index t 0 * 512 + 1 * k.val = k.val; omega
  | ⟨1, _⟩ => show win0_4.index t 1 * 1024 + 1 * f.val = f.val; omega

/-- Block 5 is `b1`. -/
theorem blk5_apply (f : Fin 1024) :
    blk5 m c t (ix1 f) = Arr.B1 (m ((c : Thread nD τ).loc main_arg3)) f := by
  show iblk m c 5 t (ix1 f) = _
  unfold iblk
  rw [View.read_apply]
  show V m c main_arg3 _ = _
  rw [V_main_arg3]
  have e0 := idx5 t
  refine congrArg _ (funext fun a => Fin.ext ?_)
  match a with
  | ⟨0, _⟩ => show win0_5.index t 0 * 1024 + 1 * f.val = f.val; omega

/-- Block 6 is `w2`. -/
theorem blk6_apply (f : Fin 1024) (k : Fin 256) :
    blk6 m c t (ix2 f k) = Arr.W2 (m ((c : Thread nD τ).loc main_arg4)) f k := by
  show iblk m c 6 t (ix2 f k) = _
  unfold iblk
  rw [View.read_apply]
  show V m c main_v3 _ = _
  rw [V_v3]
  obtain ⟨e0, e1⟩ := idx6 t
  show m ((c : Thread nD τ).loc main_arg4) _ = _
  refine congrArg _ (funext fun a => Fin.ext ?_)
  match a with
  | ⟨0, _⟩ => show win0_6.index t 0 * 1024 + 1 * f.val = f.val; omega
  | ⟨1, _⟩ => show win0_6.index t 1 * 256 + 1 * k.val = k.val; omega

/-- Block 7 is `b2`. -/
theorem blk7_apply (k : Fin 256) :
    blk7 m c t (ix1 k) = Arr.B2 (m ((c : Thread nD τ).loc main_arg5)) k := by
  show iblk m c 7 t (ix1 k) = _
  unfold iblk
  rw [View.read_apply]
  show V m c main_arg5 _ = _
  rw [V_main_arg5]
  have e0 := idx7 t
  refine congrArg _ (funext fun a => Fin.ext ?_)
  match a with
  | ⟨0, _⟩ => show win0_7.index t 0 * 256 + 1 * k.val = k.val; omega

end Cert.KBlocks

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.KAttn.lean ====
/-
  The kernel body's attention step and mean row, read one entry at a time at the ideal values.

  The body handles the `1024` rows of a batch element in two chunks of `512`; for each chunk it computes what the
  rows retrieve from the memory slab and then adds the chunk's blended memory rows to the running sum. Both
  are stated here for a chunk given as a variable, entry `(p, c)` of the chunk in terms of the row-level functions
  of the specification; the mean row is stated from its two half sums.
-/
import proofs.«428584_j76871324664388_3_alg».proof.Proof.Gen.KernelIdeal.Skeleton
import proofs.«428584_j76871324664388_3_alg».proof.Proof.Spec
import proofs.«428584_j76871324664388_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KChunk

open Idealize.ShloMosaic Idealize.ShloMosaic.ValueIdx Cert.KernelIdeal Cert.KernelIdeal.Gen

/-! ## Layout steps read by coordinates -/

section Layout
variable {α : Type}

/-- A `[1, 1, a, b]` array cast to `[a, b]` reads, at `(i, j)`, the operand at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Layout

/-- A half's column sum as the body takes it: the `512` rows of the chunk summed along axis `0`, the `[256]` result
    cast to the row `[1, 256]`; at `(0, c)` it is the sum of column `c` of the chunk. -/
theorem halfSum_apply (v : Vec Ideal S1x1x512x256 .f32) (hφ : FKind.Formats .f32)
    (hacc : (0x00000000#32 : BitVec FTy.f32.bits) = FKind.add.neutral .f32 hφ) (c : Fin 256) :
    shapeCast S1x256
        (multiReduction (F := Ideal) .add [0] S256 (shapeCast S512x256 v shapeCasts_S1x1x512x256_S512x256) 0x00000000#32
          reduces_S512x256_S256 hφ hacc)
        shapeCasts_S256_S1x256 (ix2 (0 : Fin 1) c)
      = ∑ t : Fin 512, v (ix4 (0 : Fin 1) (0 : Fin 1) t c) :=
  (shapeCast_a_1a_apply _ shapeCasts_S256_S1x256 (0 : Fin 1) c).trans
    ((Cert.LibColumn.sumAxis0_apply (a := 512) (b := 256) _ _ reduces_S512x256_S256 hφ hacc c).trans
      (Finset.sum_congr rfl fun t _ => shapeCast_11ab_ab_apply v shapeCasts_S1x1x512x256_S512x256 t c))

/-- The mean row's entry `c`: the two half sums of column `c` (the first added to zero), times the literal the
    body multiplies by. -/
theorem pay3_apply (v4 v9 : Vec Ideal S1x1x512x256 .f32) (c : Fin 256) :
    k0_pay3 (F := Ideal) v4 v9 (ix2 (0 : Fin 1) c)
      = ((0 + ∑ t : Fin 512, v4 (ix4 (0 : Fin 1) (0 : Fin 1) t c)) + ∑ t : Fin 512, v9 (ix4 (0 : Fin 1) (0 : Fin 1) t c))
          * Ideal.ofBits .f32 0x3A800000#32 := by
  unfold k0_pay3
  simp only [mulf_apply, addf_apply, broadcast_apply, Ideal.ofBits_def, Ideal.ofBits_zero_f32]
  refine congrArg (· * Ideal.ofBits .f32 0x3A800000#32) ?_
  exact congrArg₂ (· + ·) (congrArg (0 + ·) (halfSum_apply v4 _ _ c)) (halfSum_apply v9 _ _ c)

/-! ## The two contractions read at an entry

Each is a plain matrix product: the left operand's row against the right operand's column, the contraction over the
one shared axis. The four coordinate facts of each product say which operand coordinate an output coordinate or the
contraction coordinate lands on. -/

theorem lhs_scores_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
theorem lhs_scores_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
theorem rhs_scores_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
theorem rhs_scores_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- The scores' product `[512, 256] × [256, 1024]` into zero: entry `(p, c)` is the sum over `k` of `lhs (p, k) * rhs (k, c)`. -/
theorem matmulScores_apply (lhs : FVec Ideal S512x256 .bf16) (rhs : FVec Ideal S256x1024 .bf16) (p : Fin 512) (c : Fin 1024) :
    matmul dot_S512x256_S256x1024_S512x1024_1_0_0_1_n_n none lhs rhs (constant (F := Ideal) S512x1024 .f32 0x00000000#32) (ix2 p c)
      = ∑ k : Fin 256, lhs (ix2 p k) * rhs (ix2 k c) := by
  refine (Ideal.matmul_constant_zero_apply dot_S512x256_S256x1024_S512x1024_1_0_0_1_n_n none lhs rhs (ix2 p c)).trans ?_
  refine (Equiv.sum_comp (contrEquiv1 dot_S512x256_S256x1024_S512x1024_1_0_0_1_n_n 256 rfl rfl).symm _).symm.trans ?_
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p c) ((contrEquiv1 dot_S512x256_S256x1024_S512x1024_1_0_0_1_n_n 256 rfl rfl).symm k) = ix2 p k := funext fun a => Fin.ext (by
    match a with
    | ⟨0, _⟩ => exact lhs_scores_0 _ _
    | ⟨1, _⟩ => exact (lhs_scores_1 _ _).trans hk)
  have er : dot_S512x256_S256x1024_S512x1024_1_0_0_1_n_n.rhsIdx (ix2 p c) ((contrEquiv1 dot_S512x256_S256x1024_S512x1024_1_0_0_1_n_n 256 rfl rfl).symm k) = ix2 k c := funext fun a => Fin.ext (by
    match a with
    | ⟨0, _⟩ => exact (rhs_scores_0 _ _).trans hk
    | ⟨1, _⟩ => exact rhs_scores_1 _ _)
  rw [el, er]

theorem lhs_retr_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhs_retr_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhs_retr_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhs_retr_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- The retrieval's product `[512, 1024] × [1024, 256]` into zero: entry `(p, c)` is the sum over `k` of `lhs (p, k) * rhs (k, c)`. -/
theorem matmulRetr_apply (lhs : FVec Ideal S512x1024 .bf16) (rhs : FVec Ideal S1024x256 .bf16) (p : Fin 512) (c : Fin 256) :
    matmul dot_S512x1024_S1024x256_S512x256_1_0_0_1_n_n none lhs rhs (constant (F := Ideal) S512x256 .f32 0x00000000#32) (ix2 p c)
      = ∑ k : Fin 1024, lhs (ix2 p k) * rhs (ix2 k c) := by
  refine (Ideal.matmul_constant_zero_apply dot_S512x1024_S1024x256_S512x256_1_0_0_1_n_n none lhs rhs (ix2 p c)).trans ?_
  refine (Equiv.sum_comp (contrEquiv1 dot_S512x1024_S1024x256_S512x256_1_0_0_1_n_n 1024 rfl rfl).symm _).symm.trans ?_
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p c) ((contrEquiv1 dot_S512x1024_S1024x256_S512x256_1_0_0_1_n_n 1024 rfl rfl).symm k) = ix2 p k := funext fun a => Fin.ext (by
    match a with
    | ⟨0, _⟩ => exact lhs_retr_0 _ _
    | ⟨1, _⟩ => exact (lhs_retr_1 _ _).trans hk)
  have er : dot_S512x1024_S1024x256_S512x256_1_0_0_1_n_n.rhsIdx (ix2 p c) ((contrEquiv1 dot_S512x1024_S1024x256_S512x256_1_0_0_1_n_n 1024 rfl rfl).symm k) = ix2 k c := funext fun a => Fin.ext (by
    match a with
    | ⟨0, _⟩ => exact (rhs_retr_0 _ _).trans hk
    | ⟨1, _⟩ => exact rhs_retr_1 _ _)
  rw [el, er]

/-! ## The softmax steps along a row -/

/-- The accumulator of the row maximum, `0xFF800000`, denotes `-∞`. -/
theorem ofBits_negInf_f32 : Ideal.ofBits .f32 0xFF800000#32 = ⊥ := by
  simp [Ideal.ofBits, Ideal.ieee]

/-- The numerator of the reciprocal, `0x3F800000`, denotes `1`. -/
theorem ofBits_one_f32 : Ideal.ofBits .f32 0x3F800000#32 = 1 := by
  simp [Ideal.ofBits, Ideal.ieee, -EReal.coe_mul]; norm_num

/-- The chunk's rows as the scores' left operand: entry `(p, k)` is the chunk's entry `(0, 0, p, k)`. -/
theorem pay16_apply (xc : Vec Ideal S1x1x512x256 .f32) (p : Fin 512) (k : Fin 256) :
    k0_pay16 (F := Ideal) xc (ix2 p k) = xc (ix4 (0 : Fin 1) (0 : Fin 1) p k) := by
  unfold k0_pay16 k0_pay15
  exact shapeCast_11ab_ab_apply xc shapeCasts_S1x1x512x256_S512x256 p k

/-- The row maximum put back over the row — reduced along axis `1`, cast to a column, broadcast over the columns:
    at `(p, m)` it is the fold of `max` over row `p` from `-∞`. -/
theorem rowMaxBack_apply (s : FVec Ideal S512x1024 .f32) (hφ : FKind.Formats .f32)
    (hacc : (0xFF800000#32 : BitVec FTy.f32.bits) = FKind.maximumf.neutral .f32 hφ) (p : Fin 512) (m : Fin 1024) :
    broadcastTo S512x1024
        (shapeCast S512x1
          (multiReduction (F := Ideal) .maximumf [1] S512 s 0xFF800000#32 reduces_S512x1024_S512 hφ hacc)
          shapeCasts_S512_S512x1)
        broadcasts_S512x1_S512x1024 (ix2 p m)
      = (Finset.univ : Finset (Fin 1024)).fold max ⊥ (fun k => s (ix2 p k)) :=
  (Cert.LibColumn.broadcastTo_a1_ab_apply _ broadcasts_S512x1_S512x1024 p m).trans
    ((Cert.LibColumn.shapeCast_a_a1_apply _ shapeCasts_S512_S512x1 p (0 : Fin 1)).trans
      ((Cert.LibColumn.maxAxis1_apply (a := 512) (b := 1024) s _ reduces_S512x1024_S512 hφ hacc p).trans
        (congrArg (fun b => (Finset.univ : Finset (Fin 1024)).fold max b (fun k => s (ix2 p k))) ofBits_negInf_f32)))

/-- The row sum as a column — reduced along axis `1`, cast to `[512, 1]`: at `(p, u)` it is the sum of row `p`. -/
theorem rowSumCol_apply (ex : FVec Ideal S512x1024 .f32) (hφ : FKind.Formats .f32)
    (hacc : (0x00000000#32 : BitVec FTy.f32.bits) = FKind.add.neutral .f32 hφ) (p : Fin 512) (u : Fin 1) :
    shapeCast S512x1
        (multiReduction (F := Ideal) .add [1] S512 ex 0x00000000#32 reduces_S512x1024_S512 hφ hacc)
        shapeCasts_S512_S512x1 (ix2 p u)
      = ∑ m : Fin 1024, ex (ix2 p m) :=
  (Cert.LibColumn.shapeCast_a_a1_apply _ shapeCasts_S512_S512x1 p u).trans
    (Cert.LibColumn.sumAxis1_apply (a := 512) (b := 1024) ex _ reduces_S512x1024_S512 hφ hacc p)

/-- The exponentials: where row `p` of the scores is `e`, entry `(p, m)` of the exponential of the scores less their
    row maximum is the specification's `expd e m`. -/
theorem expRow_apply (s : FVec Ideal S512x1024 .f32) (hφ : FKind.Formats .f32)
    (hacc : (0xFF800000#32 : BitVec FTy.f32.bits) = FKind.maximumf.neutral .f32 hφ) (e : Fin 1024 → EReal) (p : Fin 512)
    (hs : ∀ m : Fin 1024, s (ix2 p m) = e m) (m : Fin 1024) :
    exp (subf s
        (broadcastTo S512x1024
          (shapeCast S512x1
            (multiReduction (F := Ideal) .maximumf [1] S512 s 0xFF800000#32 reduces_S512x1024_S512 hφ hacc)
            shapeCasts_S512_S512x1)
          broadcasts_S512x1_S512x1024)) (ix2 p m)
      = Spec.expd e m :=
  congrArg Ideal.exp (congrArg₂ (· - ·) (hs m)
    ((rowMaxBack_apply s hφ hacc p m).trans
      (congrArg (fun f => (Finset.univ : Finset (Fin 1024)).fold max ⊥ f) (funext hs))))

/-- The reciprocal of the row sum put back over the row: where row `p` of the exponentials is `expd e`, entry `(p, m)`
    is one over the specification's denominator. -/
theorem recipRow_apply (ex : FVec Ideal S512x1024 .f32) (hφ : FKind.Formats .f32)
    (hacc : (0x00000000#32 : BitVec FTy.f32.bits) = FKind.add.neutral .f32 hφ) (e : Fin 1024 → EReal) (p : Fin 512)
    (hex : ∀ m : Fin 1024, ex (ix2 p m) = Spec.expd e m) (m : Fin 1024) :
    broadcastTo S512x1024
        (divf (broadcast S512x1 (Scalar.ofBits (F := Ideal) .f32 0x3F800000#32))
          (shapeCast S512x1
            (multiReduction (F := Ideal) .add [1] S512 ex 0x00000000#32 reduces_S512x1024_S512 hφ hacc)
            shapeCasts_S512_S512x1))
        broadcasts_S512x1_S512x1024 (ix2 p m)
      = Ideal.div 1 (Spec.den e) :=
  (Cert.LibColumn.broadcastTo_a1_ab_apply _ broadcasts_S512x1_S512x1024 p m).trans
    (congrArg₂ Ideal.div ofBits_one_f32
      ((rowSumCol_apply ex hφ hacc p (0 : Fin 1)).trans (Finset.sum_congr rfl fun m' _ => hex m')))

/-- What row `p` of a chunk retrieves, entry `c`: the specification's retrieved row of that chunk row, when the two
    memory operands are the slab `M` and its transpose and the row's softmax denominator is not zero. -/
theorem pay17_apply (memT : FVec Ideal S256x1024 .bf16) (mem : FVec Ideal S1024x256 .bf16) (xc : Vec Ideal S1x1x512x256 .f32)
    (M : Fin 1024 → Fin 256 → EReal) (hmem : ∀ (m : Fin 1024) (k : Fin 256), mem (ix2 m k) = M m k)
    (hmemT : ∀ (k : Fin 256) (m : Fin 1024), memT (ix2 k m) = M m k)
    (p : Fin 512) (c : Fin 256)
    (hden : Spec.den (Spec.energy M fun k => xc (ix4 (0 : Fin 1) (0 : Fin 1) p k)) ≠ 0) :
    k0_pay17 (F := Ideal) memT mem xc (ix2 p c) = Spec.retr M (fun k => xc (ix4 (0 : Fin 1) (0 : Fin 1) p k)) c := by
  have hs : ∀ m : Fin 1024,
      matmul dot_S512x256_S256x1024_S512x1024_1_0_0_1_n_n none (k0_pay16 (F := Ideal) xc) memT
          (constant (F := Ideal) S512x1024 .f32 0x00000000#32) (ix2 p m)
        = Spec.energy M (fun k => xc (ix4 (0 : Fin 1) (0 : Fin 1) p k)) m := fun m =>
    (matmulScores_apply _ memT p m).trans
      (Finset.sum_congr rfl fun k _ => congrArg₂ (· * ·) (pay16_apply xc p k) (hmemT k m))
  unfold k0_pay17
  refine (matmulRetr_apply _ mem p c).trans ?_
  refine Eq.trans ?_ (Spec.retr_recip M (fun k => xc (ix4 (0 : Fin 1) (0 : Fin 1) p k)) c hden)
  refine Finset.sum_congr rfl fun m _ => ?_
  refine congrArg₂ (· * ·) ?_ (hmem m c)
  refine (truncf_apply (ψ := .bf16) _ bitsLt_bf16_f32 _).trans ?_
  refine (mulf_apply _ _ _).trans ?_
  refine congrArg₂ (· * ·) ?_ ?_
  · exact expRow_apply _ _ _ _ p hs m
  · exact recipRow_apply _ _ _ _ p (fun m' => expRow_apply _ _ _ _ p hs m') m

end Cert.KChunk

end
-- ==== Proof.KCat.lean ====
/-
  The joined-rows block, read at an index.

  Entry `(r, j)` of the block the four stores leave is entry `j` of row `r` of the batch element joined with what the
  row retrieves: the left half is the row itself, the right half the attention step's result for the row's chunk.
-/
import proofs.«428584_j76871324664388_3_alg».proof.Proof.KCanon
import proofs.«428584_j76871324664388_3_alg».proof.Proof.KAttn
import proofs.«428584_j76871324664388_3_alg».proof.Proof.Spec
import Idealize.ShloMosaic.Lib.Pipeline.Value
import Idealize.ShloMosaic.Lib.ValueIdx
import Idealize.ShloMosaic.Lib.ValueLayout

noncomputable section

open scoped BigOperators

namespace Cert.KCat

open Idealize.ShloMosaic Idealize.ShloMosaic.ValueIdx Cert.KernelIdeal Cert.KernelIdeal.Gen

/-! ## Reading the contents a list of stores leaves, under unit rectangles -/

section Canon
variable {s : Shape} {e : EltTy} {Val : EltTy → Type} [∀ e, Nonempty (Val e)]

/-- Under the last store, through a unit rectangle: at the index whose coordinates are the offsets plus those of `x`,
    the contents are the store's payload at `x`. -/
theorem canon_unit_at (off size : Fin s.rank → ℕ) (inb : ∀ a, off a + size a ≤ s.size a)
    (w : (Rect.unit off size inb).shape.Idx → Val e) (L : List (View.Piece Val s e)) (i : s.Idx)
    (x : (Rect.unit off size inb).shape.Idx) (hx : ∀ a, (i a : ℕ) = off a + (x a : ℕ)) :
    View.canon (⟨Rect.unit off size inb, w⟩ :: L) i = w x := by
  have hi : i = (Rect.unit off size inb).emb x := funext fun a => Fin.ext (by
    rw [Rect.emb_apply, Rect.off_unit, Rect.stride_unit, Nat.one_mul]; exact hx a)
  rw [hi]; exact View.canon_cons_emb _ w L x

/-- Off the last store: an index that misses its unit rectangle on one axis reads what the earlier stores leave. -/
theorem canon_unit_skip (off size : Fin s.rank → ℕ) (inb : ∀ a, off a + size a ≤ s.size a)
    (w : (Rect.unit off size inb).shape.Idx → Val e) (L : List (View.Piece Val s e)) (i : s.Idx) (a : Fin s.rank)
    (ha : (i a : ℕ) < off a ∨ off a + size a ≤ (i a : ℕ)) :
    View.canon (⟨Rect.unit off size inb, w⟩ :: L) i = View.canon L i :=
  View.canon_cons_of_not_mem _ L fun hmem => by
    have := ((Rect.mem_set_unit (off := off) (size := size) (inb := inb)).mp hmem) a
    omega

/-- A load through a unit rectangle: at `x` it reads the contents at the index whose coordinates are the offsets plus
    those of `x`. -/
theorem ld_unit_at (X : s.Idx → Val e) (off size : Fin s.rank → ℕ) (inb : ∀ a, off a + size a ≤ s.size a)
    (x : (Rect.unit off size inb).shape.Idx) (i : s.Idx) (hx : ∀ a, (i a : ℕ) = off a + (x a : ℕ)) :
    View.ld X (Rect.unit off size inb) x = X i :=
  congrArg X (funext fun a => Fin.ext (by
    show off a + 1 * (x a : ℕ) = (i a : ℕ)
    rw [Nat.one_mul]; exact (hx a).symm))

end Canon

section Layout
variable {α : Type}

/-- An `[a, b]` array cast to `[1, 1, a, b]` reads, at `(u, v, i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    simp only [hu, hv, Nat.zero_mul, Nat.zero_add])

end Layout

/-! ## The loaded sub-blocks at an index -/

/-- Rows `0`–`511` of the `x` block: row `t` of the chunk is row `r` of the block when `r = t`. -/
theorem xlo_apply (x0 : Vec Ideal S1x1x1024x256 .f32) (t : Fin 512) (r : Fin 1024) (hrt : r.val = t.val) (k : Fin 256) :
    KCanon.xlo (F := Ideal) x0 (ix4 (0 : Fin 1) (0 : Fin 1) t k) = x0 (ix4 (0 : Fin 1) (0 : Fin 1) r k) :=
  ld_unit_at (Val := Elt Ideal) (e := .f32) x0 _ _ _ _ _ (by
    intro a
    match a with
    | ⟨0, _⟩ => exact rfl
    | ⟨1, _⟩ => exact rfl
    | ⟨2, _⟩ =>
      show r.val = 0 + t.val
      omega
    | ⟨3, _⟩ =>
      show k.val = 0 + k.val
      omega)

/-- Rows `512`–`1023` of the `x` block: row `t` of the chunk is row `r` of the block when `r = 512 + t`. -/
theorem xhi_apply (x0 : Vec Ideal S1x1x1024x256 .f32) (t : Fin 512) (r : Fin 1024) (hrt : r.val = 512 + t.val) (k : Fin 256) :
    KCanon.xhi (F := Ideal) x0 (ix4 (0 : Fin 1) (0 : Fin 1) t k) = x0 (ix4 (0 : Fin 1) (0 : Fin 1) r k) :=
  ld_unit_at (Val := Elt Ideal) (e := .f32) x0 _ _ _ _ _ (by
    intro a
    match a with
    | ⟨0, _⟩ => exact rfl
    | ⟨1, _⟩ => exact rfl
    | ⟨2, _⟩ =>
      show r.val = 512 + t.val
      omega
    | ⟨3, _⟩ =>
      show k.val = 0 + k.val
      omega)

/-- The memory slab, loaded whole, is the staged block. -/
theorem mB_apply (x1 : Vec Ideal S1x1024x256 .bf16) (m : Fin 1024) (k : Fin 256) :
    KCanon.mB (F := Ideal) x1 (ix3 (0 : Fin 1) m k) = x1 (ix3 (0 : Fin 1) m k) :=
  ld_unit_at (Val := Elt Ideal) (e := .bf16) x1 _ _ _ _ _ (by
    intro a
    match a with
    | ⟨0, _⟩ => exact rfl
    | ⟨1, _⟩ =>
      show m.val = 0 + m.val
      omega
    | ⟨2, _⟩ =>
      show k.val = 0 + k.val
      omega)

/-- The transposed memory slab, loaded whole, is the staged block. -/
theorem mT_apply (x2 : Vec Ideal S1x256x1024 .bf16) (k : Fin 256) (m : Fin 1024) :
    KCanon.mT (F := Ideal) x2 (ix3 (0 : Fin 1) k m) = x2 (ix3 (0 : Fin 1) k m) :=
  ld_unit_at (Val := Elt Ideal) (e := .bf16) x2 _ _ _ _ _ (by
    intro a
    match a with
    | ⟨0, _⟩ => exact rfl
    | ⟨1, _⟩ =>
      show k.val = 0 + k.val
      omega
    | ⟨2, _⟩ =>
      show m.val = 0 + m.val
      omega)

/-! ## What a chunk's rows retrieve -/

/-- The first chunk's attention, spelt in three steps, is the same term as the second chunk's, spelt in one. -/
theorem pay10_eq_pay17 (v16 : Vec Ideal S1x256x1024 .bf16) (v18 : Vec Ideal S1x1024x256 .bf16) (v20 : Vec Ideal S1x1x512x256 .f32) :
    k0_pay10 (F := Ideal) (k0_pay5 v18) (k0_pay8 v16 v20) (k0_pay9 v16 v20) = k0_pay17 (k0_pay4 v16) (k0_pay5 v18) v20 := rfl

/-- Row `t` of a chunk whose row `t` is `row`, against the loaded memory slab and its transpose: entry `c` of what the
    row retrieves is the specification's, when the row's softmax denominator is not zero. -/
theorem chunkRetr_apply (x1 : Vec Ideal S1x1024x256 .bf16) (x2 : Vec Ideal S1x256x1024 .bf16) (M : Fin 1024 → Fin 256 → EReal)
    (h1 : ∀ (m : Fin 1024) (k : Fin 256), x1 (ix3 (0 : Fin 1) m k) = M m k)
    (h2 : ∀ (k : Fin 256) (m : Fin 1024), x2 (ix3 (0 : Fin 1) k m) = M m k)
    (xc : Vec Ideal S1x1x512x256 .f32) (row : Fin 256 → EReal) (t : Fin 512)
    (hrow : ∀ k : Fin 256, xc (ix4 (0 : Fin 1) (0 : Fin 1) t k) = row k) (hden : Spec.den (Spec.energy M row) ≠ 0)
    (c : Fin 256) :
    k0_pay17 (F := Ideal) (k0_pay4 (KCanon.mT x2)) (k0_pay5 (KCanon.mB x1)) xc (ix2 t c) = Spec.retr M row c := by
  have hfun : (fun k => xc (ix4 (0 : Fin 1) (0 : Fin 1) t k)) = row := funext hrow
  subst hfun
  refine KChunk.pay17_apply _ _ xc M (fun m k => ?_) (fun k m => ?_) t c hden
  · unfold k0_pay5
    exact (shapeCast_1ab_ab_apply _ shapeCasts_S1x1024x256_S1024x256 m k).trans ((mB_apply x1 m k).trans (h1 m k))
  · unfold k0_pay4
    exact (shapeCast_1ab_ab_apply _ shapeCasts_S1x256x1024_S256x1024 k m).trans ((mT_apply x2 k m).trans (h2 k m))

/-! ## The joined row on each half -/

/-- On the left half the joined row is the row itself. -/
theorem catv_lo (M : Fin 1024 → Fin 256 → EReal) (xr : Fin 256 → EReal) (j : Fin 512) (hj : j.val < 256) :
    Spec.catv M xr j = xr ⟨j.val, hj⟩ := by
  unfold Spec.catv
  exact dif_pos hj

/-- On the right half it is what the row retrieves. -/
theorem catv_hi (M : Fin 1024 → Fin 256 → EReal) (xr : Fin 256 → EReal) (j : Fin 512) (hj : ¬ j.val < 256) :
    Spec.catv M xr j = Spec.retr M xr ⟨j.val - 256, by omega⟩ := by
  unfold Spec.catv
  exact dif_neg hj

/-- The joined-rows block at `(r, j)`, when the staged blocks are the batch element's rows `Xb`, the memory slab `M`
    and its transpose, and every row's softmax denominator is not zero. -/
theorem catCanon_apply (x0 : Vec Ideal S1x1x1024x256 .f32) (x1 : Vec Ideal S1x1024x256 .bf16) (x2 : Vec Ideal S1x256x1024 .bf16)
    (M : Fin 1024 → Fin 256 → EReal) (Xb : Fin 1024 → Fin 256 → EReal)
    (h0 : ∀ (r : Fin 1024) (k : Fin 256), x0 (ix4 (0 : Fin 1) (0 : Fin 1) r k) = Xb r k)
    (h1 : ∀ (m : Fin 1024) (k : Fin 256), x1 (ix3 (0 : Fin 1) m k) = M m k)
    (h2 : ∀ (k : Fin 256) (m : Fin 1024), x2 (ix3 (0 : Fin 1) k m) = M m k)
    (hden : ∀ r : Fin 1024, Spec.den (Spec.energy M (Xb r)) ≠ 0) (r : Fin 1024) (j : Fin 512) :
    KCanon.catCanon (F := Ideal) x0 x1 x2 (ix4 (0 : Fin 1) (0 : Fin 1) r j) = Spec.catv M (Xb r) j := by
  unfold KCanon.catCanon
  by_cases hr : r.val < 512
  · by_cases hj : j.val < 256
    · -- rows 0–511, columns 0–255: the row itself
      refine Eq.trans (canon_unit_skip (Val := Elt Ideal) _ _ _ _ _ _ ⟨2, by decide⟩ (by exact Or.inl hr)) ?_
      refine Eq.trans (canon_unit_skip (Val := Elt Ideal) _ _ _ _ _ _ ⟨2, by decide⟩ (by exact Or.inl hr)) ?_
      refine Eq.trans (canon_unit_skip (Val := Elt Ideal) _ _ _ _ _ _ ⟨3, by decide⟩ (by exact Or.inl hj)) ?_
      refine Eq.trans (canon_unit_at (Val := Elt Ideal) _ _ _ _ _ _ (ix4 (0 : Fin 1) (0 : Fin 1) (⟨r.val, hr⟩ : Fin 512) (⟨j.val, hj⟩ : Fin 256)) (by
        intro a
        match a with
        | ⟨0, _⟩ => exact rfl
        | ⟨1, _⟩ => exact rfl
        | ⟨2, _⟩ =>
          show r.val = 0 + r.val
          omega
        | ⟨3, _⟩ =>
          show j.val = 0 + j.val
          omega)) ?_
      unfold k0_pay11 k0_pay6
      refine Eq.trans (shapeCast_ab_11ab_apply _ shapeCasts_S512x256_S1x1x512x256 0 0 _ _) ?_
      refine Eq.trans (KChunk.shapeCast_11ab_ab_apply _ shapeCasts_S1x1x512x256_S512x256 _ _) ?_
      refine Eq.trans (xlo_apply x0 _ r rfl _) ?_
      exact (h0 r _).trans (catv_lo M (Xb r) j hj).symm
    · -- rows 0–511, columns 256–511: what the row retrieves
      refine Eq.trans (canon_unit_skip (Val := Elt Ideal) _ _ _ _ _ _ ⟨2, by decide⟩ (by exact Or.inl hr)) ?_
      refine Eq.trans (canon_unit_skip (Val := Elt Ideal) _ _ _ _ _ _ ⟨2, by decide⟩ (by exact Or.inl hr)) ?_
      refine Eq.trans (canon_unit_at (Val := Elt Ideal) _ _ _ _ _ _ (ix4 (0 : Fin 1) (0 : Fin 1) (⟨r.val, hr⟩ : Fin 512) (⟨j.val - 256, by omega⟩ : Fin 256)) (by
        intro a
        match a with
        | ⟨0, _⟩ => exact rfl
        | ⟨1, _⟩ => exact rfl
        | ⟨2, _⟩ =>
          show r.val = 0 + r.val
          omega
        | ⟨3, _⟩ =>
          show j.val = 256 + (j.val - 256)
          omega)) ?_
      unfold k0_pay12
      refine Eq.trans (shapeCast_ab_11ab_apply _ shapeCasts_S512x256_S1x1x512x256 0 0 _ _) ?_
      refine Eq.trans (congrFun (pay10_eq_pay17 _ _ _) _) ?_
      refine Eq.trans (chunkRetr_apply x1 x2 M h1 h2 (KCanon.xlo x0) (Xb r) (⟨r.val, hr⟩ : Fin 512)
        (fun k => (xlo_apply x0 _ r rfl k).trans (h0 r k)) (hden r) _) ?_
      exact (catv_hi M (Xb r) j hj).symm
  · by_cases hj : j.val < 256
    · -- rows 512–1023, columns 0–255: the row itself
      refine Eq.trans (canon_unit_skip (Val := Elt Ideal) _ _ _ _ _ _ ⟨3, by decide⟩ (by exact Or.inl hj)) ?_
      refine Eq.trans (canon_unit_at (Val := Elt Ideal) _ _ _ _ _ _ (ix4 (0 : Fin 1) (0 : Fin 1) (⟨r.val - 512, by omega⟩ : Fin 512) (⟨j.val, hj⟩ : Fin 256)) (by
        intro a
        match a with
        | ⟨0, _⟩ => exact rfl
        | ⟨1, _⟩ => exact rfl
        | ⟨2, _⟩ =>
          show r.val = 512 + (r.val - 512)
          omega
        | ⟨3, _⟩ =>
          show j.val = 0 + j.val
          omega)) ?_
      unfold k0_pay18 k0_pay15
      refine Eq.trans (shapeCast_ab_11ab_apply _ shapeCasts_S512x256_S1x1x512x256 0 0 _ _) ?_
      refine Eq.trans (KChunk.shapeCast_11ab_ab_apply _ shapeCasts_S1x1x512x256_S512x256 _ _) ?_
      refine Eq.trans (xhi_apply x0 _ r (by show r.val = 512 + (r.val - 512); omega) _) ?_
      exact (h0 r _).trans (catv_lo M (Xb r) j hj).symm
    · -- rows 512–1023, columns 256–511: what the row retrieves
      refine Eq.trans (canon_unit_at (Val := Elt Ideal) _ _ _ _ _ _ (ix4 (0 : Fin 1) (0 : Fin 1) (⟨r.val - 512, by omega⟩ : Fin 512) (⟨j.val - 256, by omega⟩ : Fin 256)) (by
        intro a
        match a with
        | ⟨0, _⟩ => exact rfl
        | ⟨1, _⟩ => exact rfl
        | ⟨2, _⟩ =>
          show r.val = 512 + (r.val - 512)
          omega
        | ⟨3, _⟩ =>
          show j.val = 256 + (j.val - 256)
          omega)) ?_
      unfold k0_pay19
      refine Eq.trans (shapeCast_ab_11ab_apply _ shapeCasts_S512x256_S1x1x512x256 0 0 _ _) ?_
      refine Eq.trans (chunkRetr_apply x1 x2 M h1 h2 (KCanon.xhi x0) (Xb r) (⟨r.val - 512, by omega⟩ : Fin 512)
        (fun k => (xhi_apply x0 _ r (by show r.val = 512 + (r.val - 512); omega) k).trans (h0 r k)) (hden r) _) ?_
      exact (catv_hi M (Xb r) j hj).symm

end Cert.KCat

end
-- ==== Proof.KGate.lean ====
/-
  The kernel body's gate and blend step, read one entry at a time at the ideal values.

  The body handles the `1024` rows of a batch element in two chunks of `512`; for each chunk it computes what the
  rows retrieve from the memory slab and then adds the chunk's blended memory rows to the running sum. Both
  are stated here for a chunk given as a variable, entry `(p, c)` of the chunk in terms of the row-level functions
  of the specification; the mean row is stated from its two half sums.
-/
import proofs.«428584_j76871324664388_3_alg».proof.Proof.Gen.KernelIdeal.Skeleton
import proofs.«428584_j76871324664388_3_alg».proof.Proof.Spec
import proofs.«428584_j76871324664388_3_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KChunk

open Idealize.ShloMosaic Idealize.ShloMosaic.ValueIdx Cert.KernelIdeal Cert.KernelIdeal.Gen

/-! ## The two contractions of the gate, read at an entry

Both matrix products contract the left operand's columns against the right operand's rows. Which operand entry a
result entry and a contraction position name is read off the dimension numbers, one axis at a time; the product
into the zero constant is then the plain sum over the contracted coordinate. -/

section Dots

/-- First layer, left operand, row axis: the result's row. -/
theorem lhs_w1_0 (i : S512x1024.Idx) (q : dot_S512x256_S256x1024_S512x1024_1_0_0_1_n_n.contr.Idx) :
    (dot_S512x256_S256x1024_S512x1024_1_0_0_1_n_n.lhsIdx i q 0).val = (i 0).val := by
  unfold DotDims.lhsIdx
  rw [dif_neg (show ¬(0 : Fin S512x256.rank) ∈ dot_S512x256_S256x1024_S512x1024_1_0_0_1_n_n.lhsBatch by decide), dif_pos (show (0 : Fin S512x256.rank) ∈ dot_S512x256_S256x1024_S512x1024_1_0_0_1_n_n.lhsNonContracting by decide)]
  rfl
/-- First layer, left operand, column axis: the contracted coordinate. -/
theorem lhs_w1_1 (i : S512x1024.Idx) (q : dot_S512x256_S256x1024_S512x1024_1_0_0_1_n_n.contr.Idx) :
    (dot_S512x256_S256x1024_S512x1024_1_0_0_1_n_n.lhsIdx i q 1).val = (q ⟨0, by decide⟩).val :=
  dot_S512x256_S256x1024_S512x1024_1_0_0_1_n_n.lhsIdx_val_of_single rfl i q
/-- First layer, right operand, row axis: the contracted coordinate. -/
theorem rhs_w1_0 (i : S512x1024.Idx) (q : dot_S512x256_S256x1024_S512x1024_1_0_0_1_n_n.contr.Idx) :
    (dot_S512x256_S256x1024_S512x1024_1_0_0_1_n_n.rhsIdx i q 0).val = (q ⟨0, by decide⟩).val :=
  dot_S512x256_S256x1024_S512x1024_1_0_0_1_n_n.rhsIdx_val_of_single rfl i q
/-- First layer, right operand, column axis: the result's column. -/
theorem rhs_w1_1 (i : S512x1024.Idx) (q : dot_S512x256_S256x1024_S512x1024_1_0_0_1_n_n.contr.Idx) :
    (dot_S512x256_S256x1024_S512x1024_1_0_0_1_n_n.rhsIdx i q 1).val = (i 1).val := by
  unfold DotDims.rhsIdx
  rw [dif_neg (show ¬(1 : Fin S256x1024.rank) ∈ dot_S512x256_S256x1024_S512x1024_1_0_0_1_n_n.rhsBatch by decide), dif_pos (show (1 : Fin S256x1024.rank) ∈ dot_S512x256_S256x1024_S512x1024_1_0_0_1_n_n.rhsNonContracting by decide)]
  rfl

/-- A `[512, 256]` by `[256, 1024]` product into zero, entry `(p, f)`: the sum over `k` of the left entry `(p, k)`
    times the right entry `(k, f)`. -/
theorem matmul_w1_apply (x : FVec Ideal S512x256 .bf16) (w : FVec Ideal S256x1024 .bf16) (p : Fin 512) (f : Fin 1024) :
    matmul dot_S512x256_S256x1024_S512x1024_1_0_0_1_n_n none x w (constant (F := Ideal) S512x1024 .f32 0x00000000#32) (ix2 p f)
      = ∑ k : Fin 256, x (ix2 p k) * w (ix2 k f) := by
  simp only [matmul]
  rw [Ideal.matmul_constant_zero_apply, ← Equiv.sum_comp (contrEquiv1 dot_S512x256_S256x1024_S512x1024_1_0_0_1_n_n 256 rfl rfl).symm]
  refine Finset.sum_congr rfl fun k _ => ?_
  have hk := contrEquiv1_symm_val dot_S512x256_S256x1024_S512x1024_1_0_0_1_n_n 256 rfl rfl k
  have el : dot_S512x256_S256x1024_S512x1024_1_0_0_1_n_n.lhsIdx (ix2 p f) ((contrEquiv1 dot_S512x256_S256x1024_S512x1024_1_0_0_1_n_n 256 rfl rfl).symm k) = ix2 p k := funext fun a => Fin.ext (by
    match a with
    | ⟨0, _⟩ => exact lhs_w1_0 _ _
    | ⟨1, _⟩ => exact (lhs_w1_1 _ _).trans hk)
  have er : dot_S512x256_S256x1024_S512x1024_1_0_0_1_n_n.rhsIdx (ix2 p f) ((contrEquiv1 dot_S512x256_S256x1024_S512x1024_1_0_0_1_n_n 256 rfl rfl).symm k) = ix2 k f := funext fun a => Fin.ext (by
    match a with
    | ⟨0, _⟩ => exact (rhs_w1_0 _ _).trans hk
    | ⟨1, _⟩ => exact rhs_w1_1 _ _)
  rw [el, er]

/-- Second layer, left operand, row axis: the result's row. -/
theorem lhs_w2_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
/-- Second layer, left operand, column axis: the contracted coordinate. -/
theorem lhs_w2_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
/-- Second layer, right operand, row axis: the contracted coordinate. -/
theorem rhs_w2_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
/-- Second layer, right operand, column axis: the result's column. -/
theorem rhs_w2_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- A `[512, 1024]` by `[1024, 256]` product into zero, entry `(p, c)`: the sum over `f` of the left entry `(p, f)`
    times the right entry `(f, c)`. -/
theorem matmul_w2_apply (x : FVec Ideal S512x1024 .bf16) (w : FVec Ideal S1024x256 .bf16) (p : Fin 512) (c : Fin 256) :
    matmul dot_S512x1024_S1024x256_S512x256_1_0_0_1_n_n none x w (constant (F := Ideal) S512x256 .f32 0x00000000#32) (ix2 p c)
      = ∑ f : Fin 1024, x (ix2 p f) * w (ix2 f c) := by
  simp only [matmul]
  rw [Ideal.matmul_constant_zero_apply, ← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 p c) ((contrEquiv1 dot_S512x1024_S1024x256_S512x256_1_0_0_1_n_n 1024 rfl rfl).symm k) = ix2 p k := funext fun a => Fin.ext (by
    match a with
    | ⟨0, _⟩ => exact lhs_w2_0 _ _
    | ⟨1, _⟩ => exact (lhs_w2_1 _ _).trans hk)
  have er : dot_S512x1024_S1024x256_S512x256_1_0_0_1_n_n.rhsIdx (ix2 p c) ((contrEquiv1 dot_S512x1024_S1024x256_S512x256_1_0_0_1_n_n 1024 rfl rfl).symm k) = ix2 k c := funext fun a => Fin.ext (by
    match a with
    | ⟨0, _⟩ => exact (rhs_w2_0 _ _).trans hk
    | ⟨1, _⟩ => exact rhs_w2_1 _ _)
  rw [el, er]

end Dots

/-! ## The stages of the gate over a chunk -/

section Stages

/-- The hidden pre-activation of every row of a chunk: the row's half of the first layer, the retrieved row's half,
    and the bias row laid over the rows. -/
def hpreV (xb : FVec Ideal S512x256 .bf16) (rt : FVec Ideal S512x256 .f32) (w1a w1b : Vec Ideal S256x1024 .bf16)
    (b1v : Vec Ideal S1024 .f32) : FVec Ideal S512x1024 .f32 :=
  addf
    (addf
      (matmul dot_S512x256_S256x1024_S512x1024_1_0_0_1_n_n none xb (shapeCast S256x1024 w1a shapeCasts_S256x1024_S256x1024 : FVec Ideal S256x1024 .bf16)
        (constant S512x1024 .f32 0x00000000#32))
      (matmul dot_S512x256_S256x1024_S512x1024_1_0_0_1_n_n none (truncf .bf16 rt bitsLt_bf16_f32)
        (shapeCast S256x1024 w1b shapeCasts_S256x1024_S256x1024 : FVec Ideal S256x1024 .bf16) (constant S512x1024 .f32 0x00000000#32)))
    (broadcastTo S512x1024 (shapeCast S1x1024 b1v shapeCasts_S1024_S1x1024 : FVec Ideal S1x1024 .f32) broadcasts_S1x1024_S512x1024)

/-- The gate of every row of a chunk from its hidden pre-activation: SiLU, the second layer with its bias row laid
    over the rows, and the sigmoid. -/
def gateV (h : FVec Ideal S512x1024 .f32) (w2v : Vec Ideal S1024x256 .bf16) (b2v : Vec Ideal S256 .f32) :
    FVec Ideal S512x256 .f32 :=
  logistic
    (addf
      (matmul dot_S512x1024_S1024x256_S512x256_1_0_0_1_n_n none (truncf .bf16 (mulf h (logistic h)) bitsLt_bf16_f32)
        (shapeCast S1024x256 w2v shapeCasts_S1024x256_S1024x256 : FVec Ideal S1024x256 .bf16) (constant S512x256 .f32 0x00000000#32))
      (broadcastTo S512x256 (shapeCast S1x256 b2v shapeCasts_S256_S1x256 : FVec Ideal S1x256 .f32) broadcasts_S1x256_S512x256))

/-- The body's update of the running sum's chunk is the blend under that gate, added to what the chunk held. -/
theorem pay20_eq (xm : FVec Ideal S1x256 .f32) (xb : FVec Ideal S512x256 .bf16) (rt : FVec Ideal S512x256 .f32)
    (w1a w1b : Vec Ideal S256x1024 .bf16) (b1v : Vec Ideal S1024 .f32) (w2v : Vec Ideal S1024x256 .bf16)
    (b2v : Vec Ideal S256 .f32) (mc : Vec Ideal S1x512x256 .f32) (ac : Vec Ideal S512x256 .f32) :
    k0_pay20 (F := Ideal) xm xb rt w1a w1b b1v w2v b2v mc ac
      = (shapeCast S512x256
          (addf (ac : FVec Ideal S512x256 .f32)
            (addf
              (mulf (shapeCast S512x256 mc shapeCasts_S1x512x256_S512x256 : FVec Ideal S512x256 .f32)
                (subf (broadcast S512x256 (Scalar.ofBits (F := Ideal) .f32 0x3F800000#32))
                  (gateV (hpreV xb rt w1a w1b b1v) w2v b2v)))
              (mulf (broadcastTo S512x256 xm broadcasts_S1x256_S512x256) (gateV (hpreV xb rt w1a w1b b1v) w2v b2v))))
          shapeCasts_S512x256_S512x256 : FVec Ideal S512x256 .f32) := rfl

/-- The literal the body subtracts the gate from is one. -/
theorem one_bits : Ideal.ofBits .f32 0x3F800000#32 = 1 := by
  simp [Ideal.ofBits, Ideal.ieee, -EReal.coe_mul]; norm_num

/-- Row `p` of the chunk's hidden pre-activation is the specification's, when the row is `xr`, it retrieved the
    specification's retrieved row, and the two weight operands are the halves of the first layer. -/
theorem hpreV_apply (xb : FVec Ideal S512x256 .bf16) (rt : FVec Ideal S512x256 .f32) (w1a w1b : Vec Ideal S256x1024 .bf16)
    (b1v : Vec Ideal S1024 .f32) (M : Fin 1024 → Fin 256 → EReal) (W1 : Fin 512 → Fin 1024 → EReal) (B1 : Fin 1024 → EReal)
    (xr : Fin 256 → EReal) (p : Fin 512)
    (hxb : ∀ k : Fin 256, xb (ix2 p k) = xr k) (hrt : ∀ k : Fin 256, rt (ix2 p k) = Spec.retr M xr k)
    (hw1a : ∀ (k : Fin 256) (f : Fin 1024), w1a (ix2 k f) = W1 ⟨k.val, by omega⟩ f)
    (hw1b : ∀ (k : Fin 256) (f : Fin 1024), w1b (ix2 k f) = W1 ⟨256 + k.val, by omega⟩ f)
    (hb1 : ∀ f : Fin 1024, b1v (ix1 f) = B1 f) (f : Fin 1024) :
    hpreV xb rt w1a w1b b1v (ix2 p f) = Spec.hpre M W1 B1 xr f := by
  unfold hpreV
  rw [addf_apply, addf_apply, matmul_w1_apply, matmul_w1_apply, broadcastTo_1b_ab_apply, shapeCast_a_1a_apply,
    shapeCast_self, shapeCast_self, hb1]
  simp only [truncf_apply, hxb, hrt, hw1a, hw1b]
  exact Spec.hpre_halves M W1 B1 xr f

/-- Row `p` of the chunk's gate is the specification's gate of `xr`, when the row's hidden pre-activation is the
    specification's and the weight operand and bias are the second layer's. -/
theorem gateV_apply (h : FVec Ideal S512x1024 .f32) (w2v : Vec Ideal S1024x256 .bf16) (b2v : Vec Ideal S256 .f32)
    (M : Fin 1024 → Fin 256 → EReal) (W1 : Fin 512 → Fin 1024 → EReal) (B1 : Fin 1024 → EReal)
    (W2 : Fin 1024 → Fin 256 → EReal) (B2 : Fin 256 → EReal) (xr : Fin 256 → EReal) (p : Fin 512)
    (hh : ∀ f : Fin 1024, h (ix2 p f) = Spec.hpre M W1 B1 xr f)
    (hw2 : ∀ (f : Fin 1024) (c' : Fin 256), w2v (ix2 f c') = W2 f c') (hb2 : ∀ c' : Fin 256, b2v (ix1 c') = B2 c')
    (c : Fin 256) :
    gateV h w2v b2v (ix2 p c) = Spec.gate M W1 B1 W2 B2 xr c := by
  unfold gateV
  show Ideal.logistic _ = _
  rw [addf_apply, matmul_w2_apply, broadcastTo_1b_ab_apply, shapeCast_a_1a_apply, shapeCast_self, hb2]
  unfold Spec.gate Spec.hid
  refine congrArg (fun s => Ideal.logistic (s + B2 c)) (Finset.sum_congr rfl fun f _ => ?_)
  rw [truncf_apply, mulf_apply, hw2]
  show h (ix2 p f) * Ideal.logistic (h (ix2 p f)) * W2 f c = _
  rw [hh]

end Stages

/-- The running sum's chunk after the body's update, entry `(p, c)`: what it held plus the blend of the memory entry
    with the mean row's entry under the specification's gate of the chunk row `xr`. -/
theorem pay20_apply (xm : FVec Ideal S1x256 .f32) (xb : FVec Ideal S512x256 .bf16) (rt : FVec Ideal S512x256 .f32)
    (w1a w1b : Vec Ideal S256x1024 .bf16) (b1v : Vec Ideal S1024 .f32) (w2v : Vec Ideal S1024x256 .bf16)
    (b2v : Vec Ideal S256 .f32) (mc : Vec Ideal S1x512x256 .f32) (ac : Vec Ideal S512x256 .f32)
    (M : Fin 1024 → Fin 256 → EReal) (W1 : Fin 512 → Fin 1024 → EReal) (B1 : Fin 1024 → EReal)
    (W2 : Fin 1024 → Fin 256 → EReal) (B2 : Fin 256 → EReal) (xr : Fin 256 → EReal) (p : Fin 512) (c : Fin 256)
    (hxb : ∀ k : Fin 256, xb (ix2 p k) = xr k) (hrt : ∀ k : Fin 256, rt (ix2 p k) = Spec.retr M xr k)
    (hw1a : ∀ (k : Fin 256) (f : Fin 1024), w1a (ix2 k f) = W1 ⟨k.val, by omega⟩ f)
    (hw1b : ∀ (k : Fin 256) (f : Fin 1024), w1b (ix2 k f) = W1 ⟨256 + k.val, by omega⟩ f)
    (hb1 : ∀ f : Fin 1024, b1v (ix1 f) = B1 f) (hw2 : ∀ (f : Fin 1024) (c' : Fin 256), w2v (ix2 f c') = W2 f c')
    (hb2 : ∀ c' : Fin 256, b2v (ix1 c') = B2 c') :
    k0_pay20 (F := Ideal) xm xb rt w1a w1b b1v w2v b2v mc ac (ix2 p c)
      = ac (ix2 p c) + (mc (ix3 (0 : Fin 1) p c) * (1 - Spec.gate M W1 B1 W2 B2 xr c)
          + xm (ix2 (0 : Fin 1) c) * Spec.gate M W1 B1 W2 B2 xr c) := by
  rw [pay20_eq, shapeCast_self, addf_apply, addf_apply, mulf_apply, mulf_apply, subf_apply, broadcast_apply,
    shapeCast_1ab_ab_apply, broadcastTo_1b_ab_apply,
    gateV_apply _ w2v b2v M W1 B1 W2 B2 xr p (hpreV_apply xb rt w1a w1b b1v M W1 B1 xr p hxb hrt hw1a hw1b hb1) hw2 hb2 c]
  show _ + (_ * (Ideal.ofBits .f32 0x3F800000#32 - _) + _) = _
  rw [one_bits]

end Cert.KChunk

end
-- ==== Proof.KAcc.lean ====
/-
  The running sum, read at an index.

  Entry `(r, c)` of the scratch after a grid point is what it held before the point plus the blend of the memory entry
  with the batch element's mean row under the gate of row `r`; at a point that first zeroes the scratch it is zero
  plus that blend. The partial-sum block written at a core's last point is the scratch after that point.
-/
import proofs.«428584_j76871324664388_3_alg».proof.Proof.KCanon
import proofs.«428584_j76871324664388_3_alg».proof.Proof.KAttn
import proofs.«428584_j76871324664388_3_alg».proof.Proof.KGate
import proofs.«428584_j76871324664388_3_alg».proof.Proof.Spec
import Idealize.ShloMosaic.Lib.Pipeline.Value
import Idealize.ShloMosaic.Lib.ValueIdx
import Idealize.ShloMosaic.Lib.ValueLayout

noncomputable section

open scoped BigOperators

namespace Cert.KAcc

open Idealize.ShloMosaic Idealize.ShloMosaic.ValueIdx Cert.KernelIdeal Cert.KernelIdeal.Gen

/-! ## The two chunks spell the same functions -/

/-- A chunk's rows in the narrower format: the first chunk's spelling is the second's. -/
theorem pay7_eq_pay16 (v : Vec Ideal S1x1x512x256 .f32) : k0_pay7 (F := Ideal) v = k0_pay16 v := rfl

/-- The first chunk's retrieved rows, spelt through the exponentials and their row sums, are the second chunk's. -/
theorem pay10_eq_pay17 (v16 : Vec Ideal S1x256x1024 .bf16) (v18 : Vec Ideal S1x1024x256 .bf16) (v20 : Vec Ideal S1x1x512x256 .f32) :
    k0_pay10 (F := Ideal) (k0_pay5 v18) (k0_pay8 v16 v20) (k0_pay9 v16 v20) = k0_pay17 (k0_pay4 v16) (k0_pay5 v18) v20 := rfl

/-- The first chunk's update of the running sum, spelt through its gate, is the second chunk's. -/
theorem pay14_eq_pay20 (v15 : FVec Ideal S1x256 .f32) (v19 : FVec Ideal S1024x256 .bf16) (v22 : FVec Ideal S512x256 .bf16)
    (v28 : FVec Ideal S512x1024 .f32) (v29 : FVec Ideal S512 .f32) (v44 v47 : Vec Ideal S256x1024 .bf16) (v51 : Vec Ideal S1024 .f32)
    (v58 : Vec Ideal S1024x256 .bf16) (v61 : Vec Ideal S256 .f32) (v66 : Vec Ideal S1x512x256 .f32) (v74 : Vec Ideal S512x256 .f32) :
    k0_pay14 (F := Ideal) v15 (k0_pay13 v19 v22 v28 v29 v44 v47 v51 v58 v61) v66 v74
      = k0_pay20 v15 v22 (k0_pay10 v19 v28 v29) v44 v47 v51 v58 v61 v66 v74 := rfl

/-! ## The loaded sub-blocks, entry by entry -/

/-- Rows `0`–`511` of the `x` block: row `p` is row `p` of the block. -/
theorem xlo_apply (x0 : Vec Ideal S1x1x1024x256 .f32) (p : Fin 512) (k : Fin 256) :
    KCanon.xlo x0 (ix4 (0 : Fin 1) (0 : Fin 1) p k) = x0 (ix4 (0 : Fin 1) (0 : Fin 1) (⟨p.val, by omega⟩ : Fin 1024) k) := by
  refine congrArg x0 (funext fun a => Fin.ext ?_)
  match a with
  | ⟨0, _⟩ => rfl
  | ⟨1, _⟩ => rfl
  | ⟨2, _⟩ => show 0 + 1 * p.val = p.val; omega
  | ⟨3, _⟩ => show 0 + 1 * k.val = k.val; omega

/-- Rows `512`–`1023` of the `x` block: row `p` is row `512 + p` of the block. -/
theorem xhi_apply (x0 : Vec Ideal S1x1x1024x256 .f32) (p : Fin 512) (k : Fin 256) :
    KCanon.xhi x0 (ix4 (0 : Fin 1) (0 : Fin 1) p k) = x0 (ix4 (0 : Fin 1) (0 : Fin 1) (⟨512 + p.val, by omega⟩ : Fin 1024) k) := by
  refine congrArg x0 (funext fun a => Fin.ext ?_)
  match a with
  | ⟨0, _⟩ => rfl
  | ⟨1, _⟩ => rfl
  | ⟨2, _⟩ => show 512 + 1 * p.val = 512 + p.val; omega
  | ⟨3, _⟩ => show 0 + 1 * k.val = k.val; omega

/-- Rows `0`–`511` of the memory slab. -/
theorem mlo_apply (x3 : Vec Ideal S1x1024x256 .f32) (p : Fin 512) (c : Fin 256) :
    KCanon.mlo x3 (ix3 (0 : Fin 1) p c) = x3 (ix3 (0 : Fin 1) (⟨p.val, by omega⟩ : Fin 1024) c) := by
  refine congrArg x3 (funext fun a => Fin.ext ?_)
  match a with
  | ⟨0, _⟩ => rfl
  | ⟨1, _⟩ => show 0 + 1 * p.val = p.val; omega
  | ⟨2, _⟩ => show 0 + 1 * c.val = c.val; omega

/-- Rows `512`–`1023` of the memory slab. -/
theorem mhi_apply (x3 : Vec Ideal S1x1024x256 .f32) (p : Fin 512) (c : Fin 256) :
    KCanon.mhi x3 (ix3 (0 : Fin 1) p c) = x3 (ix3 (0 : Fin 1) (⟨512 + p.val, by omega⟩ : Fin 1024) c) := by
  refine congrArg x3 (funext fun a => Fin.ext ?_)
  match a with
  | ⟨0, _⟩ => rfl
  | ⟨1, _⟩ => show 512 + 1 * p.val = 512 + p.val; omega
  | ⟨2, _⟩ => show 0 + 1 * c.val = c.val; omega

/-- Rows `0`–`255` of the first layer's weights. -/
theorem w1a_apply (x4 : Vec Ideal S512x1024 .bf16) (k : Fin 256) (f : Fin 1024) :
    KCanon.w1a x4 (ix2 k f) = x4 (ix2 (⟨k.val, by omega⟩ : Fin 512) f) := by
  refine congrArg x4 (funext fun a => Fin.ext ?_)
  match a with
  | ⟨0, _⟩ => show 0 + 1 * k.val = k.val; omega
  | ⟨1, _⟩ => show 0 + 1 * f.val = f.val; omega

/-- Rows `256`–`511` of the first layer's weights. -/
theorem w1b_apply (x4 : Vec Ideal S512x1024 .bf16) (k : Fin 256) (f : Fin 1024) :
    KCanon.w1b x4 (ix2 k f) = x4 (ix2 (⟨256 + k.val, by omega⟩ : Fin 512) f) := by
  refine congrArg x4 (funext fun a => Fin.ext ?_)
  match a with
  | ⟨0, _⟩ => show 256 + 1 * k.val = 256 + k.val; omega
  | ⟨1, _⟩ => show 0 + 1 * f.val = f.val; omega

/-- The first layer's bias, the second layer's weights and bias, whole. -/
theorem b1l_apply (x5 : Vec Ideal S1024 .f32) (f : Fin 1024) : KCanon.b1l x5 (ix1 f) = x5 (ix1 f) := by
  refine congrArg x5 (funext fun a => Fin.ext ?_)
  match a with
  | ⟨0, _⟩ => show 0 + 1 * f.val = f.val; omega

theorem w2l_apply (x6 : Vec Ideal S1024x256 .bf16) (f : Fin 1024) (k : Fin 256) : KCanon.w2l x6 (ix2 f k) = x6 (ix2 f k) := by
  refine congrArg x6 (funext fun a => Fin.ext ?_)
  match a with
  | ⟨0, _⟩ => show 0 + 1 * f.val = f.val; omega
  | ⟨1, _⟩ => show 0 + 1 * k.val = k.val; omega

theorem b2l_apply (x7 : Vec Ideal S256 .f32) (k : Fin 256) : KCanon.b2l x7 (ix1 k) = x7 (ix1 k) := by
  refine congrArg x7 (funext fun a => Fin.ext ?_)
  match a with
  | ⟨0, _⟩ => show 0 + 1 * k.val = k.val; omega

/-- The memory slab as the retrieval's right operand. -/
theorem memB_apply (x1 : Vec Ideal S1x1024x256 .bf16) (m : Fin 1024) (k : Fin 256) :
    k0_pay5 (F := Ideal) (KCanon.mB x1) (ix2 m k) = x1 (ix3 (0 : Fin 1) m k) := by
  unfold k0_pay5
  rw [shapeCast_1ab_ab_apply]
  refine congrArg x1 (funext fun a => Fin.ext ?_)
  match a with
  | ⟨0, _⟩ => rfl
  | ⟨1, _⟩ => show 0 + 1 * m.val = m.val; omega
  | ⟨2, _⟩ => show 0 + 1 * k.val = k.val; omega

/-- The transposed slab as the scores' right operand. -/
theorem memT_apply (x2 : Vec Ideal S1x256x1024 .bf16) (k : Fin 256) (m : Fin 1024) :
    k0_pay4 (F := Ideal) (KCanon.mT x2) (ix2 k m) = x2 (ix3 (0 : Fin 1) k m) := by
  unfold k0_pay4
  rw [shapeCast_1ab_ab_apply]
  refine congrArg x2 (funext fun a => Fin.ext ?_)
  match a with
  | ⟨0, _⟩ => rfl
  | ⟨1, _⟩ => show 0 + 1 * k.val = k.val; omega
  | ⟨2, _⟩ => show 0 + 1 * m.val = m.val; omega

/-! ## The mean row, the zero fill -/

/-- The mean's literal `0x3A800000` denotes `1 / 1024`. -/
theorem ofBits_recip1024 : Ideal.ofBits .f32 0x3A800000#32 = ((1 / 1024 : ℝ) : EReal) := by
  simp [Ideal.ofBits, Ideal.ieee, -EReal.coe_mul]; norm_num

/-- The body's mean row is the specification's mean row of the batch element. -/
theorem xm_apply (x0 : Vec Ideal S1x1x1024x256 .f32) (Xb : Fin 1024 → Fin 256 → EReal)
    (h0 : ∀ (r : Fin 1024) (k : Fin 256), x0 (ix4 (0 : Fin 1) (0 : Fin 1) r k) = Xb r k) (c : Fin 256) :
    k0_pay3 (F := Ideal) (KCanon.xlo x0) (KCanon.xhi x0) (ix2 (0 : Fin 1) c) = Spec.xmean Xb c := by
  rw [KChunk.pay3_apply, ofBits_recip1024, ← Spec.xmean_halves Xb c]
  refine congrArg (· * _) (congrArg₂ (· + ·) (congrArg (0 + ·) (Finset.sum_congr rfl fun t _ => ?_))
    (Finset.sum_congr rfl fun t _ => ?_))
  · rw [xlo_apply, h0]
  · rw [xhi_apply, h0]

/-- The zero fill is zero everywhere. -/
theorem zeros_apply (i : S1024x256.Idx) : KCanon.zeros (F := Ideal) i = 0 := by
  show k0_pay2 (F := Ideal) i = 0
  unfold k0_pay2
  rw [shapeCast_self, broadcast_apply]
  exact Ideal.ofBits_zero_f32

/-- The zero offsets of a whole rank-2 and rank-3 block. -/
theorem zeros2 : (![0, 0] : Fin 2 → ℕ) = fun _ => 0 := by
  funext a; match a with | ⟨0, _⟩ => rfl | ⟨1, _⟩ => rfl

theorem zeros3 : (![0, 0, 0] : Fin 3 → ℕ) = fun _ => 0 := by
  funext a; match a with | ⟨0, _⟩ => rfl | ⟨1, _⟩ => rfl | ⟨2, _⟩ => rfl

/-- The scratch right after the zero fill is zero everywhere. -/
theorem canonZ_apply (i : S1024x256.Idx) :
    View.canon [(⟨KCanon.rAll, KCanon.zeros (F := Ideal)⟩ : View.Piece (Elt Ideal) S1024x256 .f32)] i = 0 := by
  rw [View.canon_unit_zero (S := S1024x256) zeros2]
  exact zeros_apply i

/-! ## One chunk's update, for a chunk given as a variable -/

/-- The first chunk's update in the second chunk's spelling. -/
theorem updLo_eq (x0 : Vec Ideal S1x1x1024x256 .f32) (x1 : Vec Ideal S1x1024x256 .bf16) (x2 : Vec Ideal S1x256x1024 .bf16)
    (x3 : Vec Ideal S1x1024x256 .f32) (x4 : Vec Ideal S512x1024 .bf16) (x5 : Vec Ideal S1024 .f32) (x6 : Vec Ideal S1024x256 .bf16)
    (x7 : Vec Ideal S256 .f32) (ac : Vec Ideal S512x256 .f32) :
    KCanon.updLo (F := Ideal) x0 x1 x2 x3 x4 x5 x6 x7 ac
      = k0_pay20 (k0_pay3 (KCanon.xlo x0) (KCanon.xhi x0)) (k0_pay16 (KCanon.xlo x0))
          (k0_pay17 (k0_pay4 (KCanon.mT x2)) (k0_pay5 (KCanon.mB x1)) (KCanon.xlo x0))
          (KCanon.w1a x4) (KCanon.w1b x4) (KCanon.b1l x5) (KCanon.w2l x6) (KCanon.b2l x7) (KCanon.mlo x3) ac := by
  unfold KCanon.updLo
  rw [pay14_eq_pay20, pay10_eq_pay17, pay7_eq_pay16]

/-- Entry `(p, c)` of a chunk's update, where row `p` of the chunk is row `r` of the batch element and of the
    memory slab: what the scratch held there plus the blend at `(r, c)`. -/
theorem chunk_apply (x0 : Vec Ideal S1x1x1024x256 .f32) (x1 : Vec Ideal S1x1024x256 .bf16) (x2 : Vec Ideal S1x256x1024 .bf16)
    (x3 : Vec Ideal S1x1024x256 .f32) (x4 : Vec Ideal S512x1024 .bf16) (x5 : Vec Ideal S1024 .f32) (x6 : Vec Ideal S1024x256 .bf16)
    (x7 : Vec Ideal S256 .f32)
    (xc : Vec Ideal S1x1x512x256 .f32) (mc : Vec Ideal S1x512x256 .f32) (ac : Vec Ideal S512x256 .f32)
    (M : Fin 1024 → Fin 256 → EReal) (Xb : Fin 1024 → Fin 256 → EReal)
    (h0 : ∀ (r : Fin 1024) (k : Fin 256), x0 (ix4 (0 : Fin 1) (0 : Fin 1) r k) = Xb r k)
    (h1 : ∀ (m : Fin 1024) (k : Fin 256), x1 (ix3 (0 : Fin 1) m k) = M m k)
    (h2 : ∀ (k : Fin 256) (m : Fin 1024), x2 (ix3 (0 : Fin 1) k m) = M m k)
    (W1 : Fin 512 → Fin 1024 → EReal) (B1 : Fin 1024 → EReal) (W2 : Fin 1024 → Fin 256 → EReal) (B2 : Fin 256 → EReal)
    (h4 : ∀ (k : Fin 512) (f : Fin 1024), x4 (ix2 k f) = W1 k f)
    (h5 : ∀ f : Fin 1024, x5 (ix1 f) = B1 f)
    (h6 : ∀ (f : Fin 1024) (k : Fin 256), x6 (ix2 f k) = W2 f k)
    (h7 : ∀ k : Fin 256, x7 (ix1 k) = B2 k)
    (r : Fin 1024) (p : Fin 512) (c : Fin 256)
    (hden : Spec.den (Spec.energy M (Xb r)) ≠ 0)
    (hxc : ∀ k : Fin 256, xc (ix4 (0 : Fin 1) (0 : Fin 1) p k) = Xb r k) (hmc : mc (ix3 (0 : Fin 1) p c) = M r c) :
    k0_pay20 (F := Ideal) (k0_pay3 (KCanon.xlo x0) (KCanon.xhi x0)) (k0_pay16 xc)
        (k0_pay17 (k0_pay4 (KCanon.mT x2)) (k0_pay5 (KCanon.mB x1)) xc)
        (KCanon.w1a x4) (KCanon.w1b x4) (KCanon.b1l x5) (KCanon.w2l x6) (KCanon.b2l x7) mc ac (ix2 p c)
      = ac (ix2 p c) + Spec.blend M W1 B1 W2 B2 Xb r c := by
  have hfun : (fun k => xc (ix4 (0 : Fin 1) (0 : Fin 1) p k)) = Xb r := funext hxc
  have hrt : ∀ k : Fin 256,
      k0_pay17 (F := Ideal) (k0_pay4 (KCanon.mT x2)) (k0_pay5 (KCanon.mB x1)) xc (ix2 p k) = Spec.retr M (Xb r) k := fun k => by
    rw [KChunk.pay17_apply _ _ xc M (fun m k => (memB_apply x1 m k).trans (h1 m k))
      (fun k m => (memT_apply x2 k m).trans (h2 k m)) p k (by rw [hfun]; exact hden), hfun]
  rw [KChunk.pay20_apply _ _ _ _ _ _ _ _ mc ac M W1 B1 W2 B2 (Xb r) p c
        (fun k => (KChunk.pay16_apply xc p k).trans (hxc k)) hrt
        (fun k f => (w1a_apply x4 k f).trans (h4 _ f))
        (fun k f => (w1b_apply x4 k f).trans (h4 _ f))
        (fun f => (b1l_apply x5 f).trans (h5 f))
        (fun f c' => (w2l_apply x6 f c').trans (h6 f c'))
        (fun c' => (b2l_apply x7 c').trans (h7 c')),
      xm_apply x0 Xb h0 c, hmc]
  rfl

/-! ## The two row chunks of the scratch -/

/-- A row below `512` is off the second chunk. -/
theorem not_mem_rHi (r : Fin 1024) (c : Fin 256) (hr : r.val < 512) : ix2 r c ∉ KCanon.rHi.set := by
  intro h
  have h' := (Rect.mem_set_unit.mp h ⟨0, by decide⟩).1
  have : 512 ≤ r.val := h'
  omega

/-- A row from `512` on is off the first chunk. -/
theorem not_mem_rLo (r : Fin 1024) (c : Fin 256) (hr : ¬ r.val < 512) : ix2 r c ∉ KCanon.rLo.set := by
  intro h
  have h' := (Rect.mem_set_unit.mp h ⟨0, by decide⟩).2
  have : r.val < 0 + 512 := h'
  omega

/-- A row below `512` is that row of the first chunk. -/
theorem idx_lo (r : Fin 1024) (c : Fin 256) (hr : r.val < 512) :
    ix2 r c = KCanon.rLo.emb (ix2 (⟨r.val, hr⟩ : Fin 512) c) := by
  funext a; apply Fin.ext
  match a with
  | ⟨0, _⟩ => show r.val = 0 + 1 * r.val; omega
  | ⟨1, _⟩ => show c.val = 0 + 1 * c.val; omega

/-- A row from `512` on is row `r - 512` of the second chunk. -/
theorem idx_hi (r : Fin 1024) (c : Fin 256) (hr : ¬ r.val < 512) :
    ix2 r c = KCanon.rHi.emb (ix2 (⟨r.val - 512, by omega⟩ : Fin 512) c) := by
  funext a; apply Fin.ext
  match a with
  | ⟨0, _⟩ => show r.val = 512 + 1 * (r.val - 512); omega
  | ⟨1, _⟩ => show c.val = 0 + 1 * c.val; omega

/-- Off the last store's rectangle, the contents are what the earlier stores left. -/
theorem canon_off {S : Shape} {e : EltTy} (ρ : Rect S) (w : ρ.shape.Idx → Elt Ideal e)
    (L : List (View.Piece (Elt Ideal) S e)) {y : S.Idx} (h : y ∉ ρ.set) :
    View.canon ((⟨ρ, w⟩ : View.Piece (Elt Ideal) S e) :: L) y = View.canon L y :=
  View.canon_cons_of_not_mem ⟨ρ, w⟩ L h

/-- The first chunk's update at row `r < 512`. -/
theorem updLo_apply (x0 : Vec Ideal S1x1x1024x256 .f32) (x1 : Vec Ideal S1x1024x256 .bf16) (x2 : Vec Ideal S1x256x1024 .bf16)
    (x3 : Vec Ideal S1x1024x256 .f32) (x4 : Vec Ideal S512x1024 .bf16) (x5 : Vec Ideal S1024 .f32) (x6 : Vec Ideal S1024x256 .bf16)
    (x7 : Vec Ideal S256 .f32) (ac : Vec Ideal S512x256 .f32)
    (M : Fin 1024 → Fin 256 → EReal) (Xb : Fin 1024 → Fin 256 → EReal)
    (h0 : ∀ (r : Fin 1024) (k : Fin 256), x0 (ix4 (0 : Fin 1) (0 : Fin 1) r k) = Xb r k)
    (h1 : ∀ (m : Fin 1024) (k : Fin 256), x1 (ix3 (0 : Fin 1) m k) = M m k)
    (h2 : ∀ (k : Fin 256) (m : Fin 1024), x2 (ix3 (0 : Fin 1) k m) = M m k)
    (W1 : Fin 512 → Fin 1024 → EReal) (B1 : Fin 1024 → EReal) (W2 : Fin 1024 → Fin 256 → EReal) (B2 : Fin 256 → EReal)
    (h3 : ∀ (m : Fin 1024) (k : Fin 256), x3 (ix3 (0 : Fin 1) m k) = M m k)
    (h4 : ∀ (k : Fin 512) (f : Fin 1024), x4 (ix2 k f) = W1 k f)
    (h5 : ∀ f : Fin 1024, x5 (ix1 f) = B1 f)
    (h6 : ∀ (f : Fin 1024) (k : Fin 256), x6 (ix2 f k) = W2 f k)
    (h7 : ∀ k : Fin 256, x7 (ix1 k) = B2 k)
    (hden : ∀ r : Fin 1024, Spec.den (Spec.energy M (Xb r)) ≠ 0) (r : Fin 1024) (c : Fin 256) (hr : r.val < 512) :
    KCanon.updLo (F := Ideal) x0 x1 x2 x3 x4 x5 x6 x7 ac (ix2 (⟨r.val, hr⟩ : Fin 512) c)
      = ac (ix2 (⟨r.val, hr⟩ : Fin 512) c) + Spec.blend M W1 B1 W2 B2 Xb r c := by
  rw [updLo_eq]
  exact chunk_apply x0 x1 x2 x3 x4 x5 x6 x7 _ _ ac M Xb h0 h1 h2 W1 B1 W2 B2 h4 h5 h6 h7 r ⟨r.val, hr⟩ c (hden r)
    (fun k => (xlo_apply x0 _ k).trans (h0 _ k)) ((mlo_apply x3 _ c).trans (h3 _ c))

/-- The second chunk's update at row `r ≥ 512`. -/
theorem updHi_apply (x0 : Vec Ideal S1x1x1024x256 .f32) (x1 : Vec Ideal S1x1024x256 .bf16) (x2 : Vec Ideal S1x256x1024 .bf16)
    (x3 : Vec Ideal S1x1024x256 .f32) (x4 : Vec Ideal S512x1024 .bf16) (x5 : Vec Ideal S1024 .f32) (x6 : Vec Ideal S1024x256 .bf16)
    (x7 : Vec Ideal S256 .f32) (ac : Vec Ideal S512x256 .f32)
    (M : Fin 1024 → Fin 256 → EReal) (Xb : Fin 1024 → Fin 256 → EReal)
    (h0 : ∀ (r : Fin 1024) (k : Fin 256), x0 (ix4 (0 : Fin 1) (0 : Fin 1) r k) = Xb r k)
    (h1 : ∀ (m : Fin 1024) (k : Fin 256), x1 (ix3 (0 : Fin 1) m k) = M m k)
    (h2 : ∀ (k : Fin 256) (m : Fin 1024), x2 (ix3 (0 : Fin 1) k m) = M m k)
    (W1 : Fin 512 → Fin 1024 → EReal) (B1 : Fin 1024 → EReal) (W2 : Fin 1024 → Fin 256 → EReal) (B2 : Fin 256 → EReal)
    (h3 : ∀ (m : Fin 1024) (k : Fin 256), x3 (ix3 (0 : Fin 1) m k) = M m k)
    (h4 : ∀ (k : Fin 512) (f : Fin 1024), x4 (ix2 k f) = W1 k f)
    (h5 : ∀ f : Fin 1024, x5 (ix1 f) = B1 f)
    (h6 : ∀ (f : Fin 1024) (k : Fin 256), x6 (ix2 f k) = W2 f k)
    (h7 : ∀ k : Fin 256, x7 (ix1 k) = B2 k)
    (hden : ∀ r : Fin 1024, Spec.den (Spec.energy M (Xb r)) ≠ 0) (r : Fin 1024) (c : Fin 256) (hr : ¬ r.val < 512) :
    KCanon.updHi (F := Ideal) x0 x1 x2 x3 x4 x5 x6 x7 ac (ix2 (⟨r.val - 512, by omega⟩ : Fin 512) c)
      = ac (ix2 (⟨r.val - 512, by omega⟩ : Fin 512) c) + Spec.blend M W1 B1 W2 B2 Xb r c := by
  have hrow : (⟨512 + (r.val - 512), by omega⟩ : Fin 1024) = r := Fin.ext (by show 512 + (r.val - 512) = r.val; omega)
  unfold KCanon.updHi
  exact chunk_apply x0 x1 x2 x3 x4 x5 x6 x7 _ _ ac M Xb h0 h1 h2 W1 B1 W2 B2 h4 h5 h6 h7 r ⟨r.val - 512, by omega⟩ c (hden r)
    (fun k => (xhi_apply x0 _ k).trans ((h0 _ k).trans (congrArg (fun q => Xb q k) hrow)))
    ((mhi_apply x3 _ c).trans ((h3 _ c).trans (congrArg (fun q => M q c) hrow)))

/-- The scratch after a point that found it at `xs0`. -/
theorem accCanon_apply (x0 : Vec Ideal S1x1x1024x256 .f32) (x1 : Vec Ideal S1x1024x256 .bf16) (x2 : Vec Ideal S1x256x1024 .bf16)
    (x3 : Vec Ideal S1x1024x256 .f32) (x4 : Vec Ideal S512x1024 .bf16) (x5 : Vec Ideal S1024 .f32) (x6 : Vec Ideal S1024x256 .bf16)
    (x7 : Vec Ideal S256 .f32) (xs0 : Vec Ideal S1024x256 .f32)
    (M : Fin 1024 → Fin 256 → EReal) (Xb : Fin 1024 → Fin 256 → EReal)
    (h0 : ∀ (r : Fin 1024) (k : Fin 256), x0 (ix4 (0 : Fin 1) (0 : Fin 1) r k) = Xb r k)
    (h1 : ∀ (m : Fin 1024) (k : Fin 256), x1 (ix3 (0 : Fin 1) m k) = M m k)
    (h2 : ∀ (k : Fin 256) (m : Fin 1024), x2 (ix3 (0 : Fin 1) k m) = M m k)
    (W1 : Fin 512 → Fin 1024 → EReal) (B1 : Fin 1024 → EReal) (W2 : Fin 1024 → Fin 256 → EReal) (B2 : Fin 256 → EReal)
    (h3 : ∀ (m : Fin 1024) (k : Fin 256), x3 (ix3 (0 : Fin 1) m k) = M m k)
    (h4 : ∀ (k : Fin 512) (f : Fin 1024), x4 (ix2 k f) = W1 k f)
    (h5 : ∀ f : Fin 1024, x5 (ix1 f) = B1 f)
    (h6 : ∀ (f : Fin 1024) (k : Fin 256), x6 (ix2 f k) = W2 f k)
    (h7 : ∀ k : Fin 256, x7 (ix1 k) = B2 k)
    (hden : ∀ r : Fin 1024, Spec.den (Spec.energy M (Xb r)) ≠ 0) (r : Fin 1024) (c : Fin 256) :
    KCanon.accCanon (F := Ideal) x0 x1 x2 x3 x4 x5 x6 x7 xs0 (ix2 r c)
      = xs0 (ix2 r c) + Spec.blend M W1 B1 W2 B2 Xb r c := by
  unfold KCanon.accCanon
  by_cases hr : r.val < 512
  · rw [canon_off _ _ _ (not_mem_rHi r c hr)]
    conv_lhs => rw [idx_lo r c hr]
    rw [View.canon_cons_emb, updLo_apply x0 x1 x2 x3 x4 x5 x6 x7 _ M Xb h0 h1 h2 W1 B1 W2 B2 h3 h4 h5 h6 h7 hden r c hr]
    exact congrArg (· + _) (congrArg xs0 (idx_lo r c hr).symm)
  · conv_lhs => rw [idx_hi r c hr]
    rw [View.canon_cons_emb, updHi_apply x0 x1 x2 x3 x4 x5 x6 x7 _ M Xb h0 h1 h2 W1 B1 W2 B2 h3 h4 h5 h6 h7 hden r c hr]
    exact congrArg (· + _) (congrArg xs0 (idx_hi r c hr).symm)

/-- The scratch after a point that first fills it with zeros. -/
theorem accCanonA_apply (x0 : Vec Ideal S1x1x1024x256 .f32) (x1 : Vec Ideal S1x1024x256 .bf16) (x2 : Vec Ideal S1x256x1024 .bf16)
    (x3 : Vec Ideal S1x1024x256 .f32) (x4 : Vec Ideal S512x1024 .bf16) (x5 : Vec Ideal S1024 .f32) (x6 : Vec Ideal S1024x256 .bf16)
    (x7 : Vec Ideal S256 .f32)
    (M : Fin 1024 → Fin 256 → EReal) (Xb : Fin 1024 → Fin 256 → EReal)
    (h0 : ∀ (r : Fin 1024) (k : Fin 256), x0 (ix4 (0 : Fin 1) (0 : Fin 1) r k) = Xb r k)
    (h1 : ∀ (m : Fin 1024) (k : Fin 256), x1 (ix3 (0 : Fin 1) m k) = M m k)
    (h2 : ∀ (k : Fin 256) (m : Fin 1024), x2 (ix3 (0 : Fin 1) k m) = M m k)
    (W1 : Fin 512 → Fin 1024 → EReal) (B1 : Fin 1024 → EReal) (W2 : Fin 1024 → Fin 256 → EReal) (B2 : Fin 256 → EReal)
    (h3 : ∀ (m : Fin 1024) (k : Fin 256), x3 (ix3 (0 : Fin 1) m k) = M m k)
    (h4 : ∀ (k : Fin 512) (f : Fin 1024), x4 (ix2 k f) = W1 k f)
    (h5 : ∀ f : Fin 1024, x5 (ix1 f) = B1 f)
    (h6 : ∀ (f : Fin 1024) (k : Fin 256), x6 (ix2 f k) = W2 f k)
    (h7 : ∀ k : Fin 256, x7 (ix1 k) = B2 k)
    (hden : ∀ r : Fin 1024, Spec.den (Spec.energy M (Xb r)) ≠ 0) (r : Fin 1024) (c : Fin 256) :
    KCanon.accCanonA (F := Ideal) x0 x1 x2 x3 x4 x5 x6 x7 (ix2 r c)
      = 0 + Spec.blend M W1 B1 W2 B2 Xb r c := by
  unfold KCanon.accCanonA
  by_cases hr : r.val < 512
  · rw [canon_off _ _ _ (not_mem_rHi r c hr)]
    conv_lhs => rw [idx_lo r c hr]
    rw [View.canon_cons_emb, updLo_apply x0 x1 x2 x3 x4 x5 x6 x7 _ M Xb h0 h1 h2 W1 B1 W2 B2 h3 h4 h5 h6 h7 hden r c hr]
    exact congrArg (· + _) (canonZ_apply _)
  · conv_lhs => rw [idx_hi r c hr]
    rw [View.canon_cons_emb, updHi_apply x0 x1 x2 x3 x4 x5 x6 x7 _ M Xb h0 h1 h2 W1 B1 W2 B2 h3 h4 h5 h6 h7 hden r c hr]
    refine congrArg (· + _) ?_
    -- the second chunk of the scratch after the first update: off the first chunk, still the zero fill
    show KCanon.midA (F := Ideal) x0 x1 x2 x3 x4 x5 x6 x7 (KCanon.rHi.emb (ix2 (⟨r.val - 512, by omega⟩ : Fin 512) c)) = 0
    rw [← idx_hi r c hr]
    unfold KCanon.midA
    rw [canon_off _ _ _ (not_mem_rLo r c hr)]
    exact canonZ_apply _

/-- The partial-sum block is the scratch after the point, entry by entry. -/
theorem out9Canon_apply (x0 : Vec Ideal S1x1x1024x256 .f32) (x1 : Vec Ideal S1x1024x256 .bf16) (x2 : Vec Ideal S1x256x1024 .bf16)
    (x3 : Vec Ideal S1x1024x256 .f32) (x4 : Vec Ideal S512x1024 .bf16) (x5 : Vec Ideal S1024 .f32) (x6 : Vec Ideal S1024x256 .bf16)
    (x7 : Vec Ideal S256 .f32) (xs0 : Vec Ideal S1024x256 .f32) (r : Fin 1024) (c : Fin 256) :
    KCanon.out9Canon (F := Ideal) x0 x1 x2 x3 x4 x5 x6 x7 xs0 (ix3 (0 : Fin 1) r c)
      = KCanon.accCanon (F := Ideal) x0 x1 x2 x3 x4 x5 x6 x7 xs0 (ix2 r c) := by
  unfold KCanon.out9Canon
  rw [View.canon_unit_zero (S := S1x1024x256) zeros3]
  unfold k0_pay1
  rw [shapeCast_ab_1ab_apply, View.ld_unit_zero (S := S1024x256) zeros2]

end Cert.KAcc

end
-- ==== Proof.KInv.lean ====
/-
  What the buffers hold after every grid point, in the specification's terms.

  Grid point `n` handles batch element `n`. After it the joined-rows staging buffer holds that element's rows joined
  with what they retrieve; the scratch holds the running sum of the blended memory slabs of the elements handled so
  far on the point's core (points 0–31 on one, 32–63 on the other); and after a core's last point the
  partial-sum staging buffer holds that core's sum. By induction on the point, from the case-by-case contents and
  their readings at an index. Finite inputs are used once: they make every softmax denominator nonzero.
-/
import proofs.«428584_j76871324664388_3_alg».proof.Proof.KOuts
import proofs.«428584_j76871324664388_3_alg».proof.Proof.KBlocks
import proofs.«428584_j76871324664388_3_alg».proof.Proof.KCat
import proofs.«428584_j76871324664388_3_alg».proof.Proof.KAcc
import proofs.«428584_j76871324664388_3_alg».proof.Proof.Arrays

set_option maxRecDepth 16384

noncomputable section

namespace Cert.KInv

open Idealize.ShloMosaic Idealize.ShloMosaic.TcCoe Idealize.SL.Sem Idealize.ShloMosaic.ValueIdx
open Cert.KernelIdeal Cert.KernelIdeal.Gen Cert.KCanon Cert.KOuts

variable (m : (ℓ : Loc nD τ sig) → Buf (Elt Ideal) ℓ) (c : Dev nD)

/-- The arguments as launched, by their literal shapes. -/
abbrev a0 : (⟨3, ![64, 1024, 256]⟩ : Shape).Idx → EReal := m ((c : Thread nD τ).loc main_arg0)
abbrev a1 : (⟨3, ![1, 1024, 256]⟩ : Shape).Idx → EReal := m ((c : Thread nD τ).loc main_arg1)
abbrev a2 : (⟨2, ![512, 1024]⟩ : Shape).Idx → EReal := m ((c : Thread nD τ).loc main_arg2)
abbrev a3 : (⟨1, ![1024]⟩ : Shape).Idx → EReal := m ((c : Thread nD τ).loc main_arg3)
abbrev a4 : (⟨2, ![1024, 256]⟩ : Shape).Idx → EReal := m ((c : Thread nD τ).loc main_arg4)
abbrev a5 : (⟨1, ![256]⟩ : Shape).Idx → EReal := m ((c : Thread nD τ).loc main_arg5)

abbrev Mm : Fin 1024 → Fin 256 → EReal := Arr.M (a1 m c)
abbrev W1m : Fin 512 → Fin 1024 → EReal := Arr.W1 (a2 m c)
abbrev B1m : Fin 1024 → EReal := Arr.B1 (a3 m c)
abbrev W2m : Fin 1024 → Fin 256 → EReal := Arr.W2 (a4 m c)
abbrev B2m : Fin 256 → EReal := Arr.B2 (a5 m c)

/-- Batch element `n` (zero past the batch). -/
def Xn (n : ℕ) : Fin 1024 → Fin 256 → EReal :=
  fun r k => if h : n < 64 then Arr.X (a0 m c) ⟨n, h⟩ r k else 0

theorem Xn_bat (t : Fin cfg0.N) : Xn m c t.val = Arr.X (a0 m c) (KBlocks.bat t) := by
  funext r k
  unfold Xn
  rw [dif_pos (lt_of_lt_of_eq t.isLt N_0)]

theorem Xn_fin (b : Fin 64) : Xn m c b.val = Arr.X (a0 m c) b := by
  funext r k
  unfold Xn
  rw [dif_pos b.isLt]

section Finite

variable (hx : ∀ i, Spec.IsReal (a0 m c i)) (hm : ∀ i, Spec.IsReal (a1 m c i))
include hx hm

/-- Every row's softmax denominator is not zero. -/
theorem hden (n : ℕ) (r : Fin 1024) : Spec.den (Spec.energy (Mm m c) (Xn m c n r)) ≠ 0 :=
  Spec.den_ne_zero _ _ (fun k => by
    unfold Xn
    split
    · exact hx _
    · exact ⟨0, EReal.coe_zero.symm⟩) (fun mm k => hm _)

/-- The joined-rows block of point `t`, at an entry. -/
theorem cat_pt (t : Fin cfg0.N) (r : Fin 1024) (j : Fin 512) :
    catCanon (ib0 m c t) (ib1 m c t) (ib2 m c t) (ix4 (0 : Fin 1) (0 : Fin 1) r j) = Spec.catv (Mm m c) (Xn m c t.val r) j :=
  KCat.catCanon_apply (ib0 m c t) (ib1 m c t) (ib2 m c t) (Mm m c) (Xn m c t.val)
    (fun r k => (KBlocks.blk0_apply m c t r k).trans (congrFun (congrFun (Xn_bat m c t) r) k).symm)
    (KBlocks.blk1_apply m c t) (KBlocks.blk2_apply m c t) (hden m c hx hm t.val) r j

theorem cat_fun (t : Fin cfg0.N) :
    catCanon (ib0 m c t) (ib1 m c t) (ib2 m c t) = fun y => Spec.catv (Mm m c) (Xn m c t.val (y 2)) (y 3) := by
  funext y
  obtain ⟨a, b, r, j, rfl⟩ : ∃ (a b : Fin 1) (r : Fin 1024) (j : Fin 512), y = ix4 a b r j := ⟨y 0, y 1, y 2, y 3, eq_ix4 y⟩
  obtain rfl : a = 0 := Subsingleton.elim _ _
  obtain rfl : b = 0 := Subsingleton.elim _ _
  exact cat_pt m c hx hm t r j

/-- The scratch after a point that found it at `xs0`, at an entry. -/
theorem acc_pt (t : Fin cfg0.N) (xs0 : Vec Ideal S1024x256 .f32) (r : Fin 1024) (k : Fin 256) :
    accCanon (ib0 m c t) (ib1 m c t) (ib2 m c t) (ib3 m c t) (ib4 m c t) (ib5 m c t) (ib6 m c t) (ib7 m c t) xs0 (ix2 r k)
      = xs0 (ix2 r k) + Spec.blend (Mm m c) (W1m m c) (B1m m c) (W2m m c) (B2m m c) (Xn m c t.val) r k :=
  KAcc.accCanon_apply (ib0 m c t) (ib1 m c t) (ib2 m c t) (ib3 m c t) (ib4 m c t) (ib5 m c t) (ib6 m c t) (ib7 m c t) xs0
    (Mm m c) (Xn m c t.val)
    (fun r k => (KBlocks.blk0_apply m c t r k).trans (congrFun (congrFun (Xn_bat m c t) r) k).symm)
    (KBlocks.blk1_apply m c t) (KBlocks.blk2_apply m c t)
    (W1m m c) (B1m m c) (W2m m c) (B2m m c)
    (KBlocks.blk3_apply m c t) (KBlocks.blk4_apply m c t) (KBlocks.blk5_apply m c t) (KBlocks.blk6_apply m c t)
    (KBlocks.blk7_apply m c t) (hden m c hx hm t.val) r k

/-- The scratch after a point that first zeroes it, at an entry. -/
theorem accA_pt (t : Fin cfg0.N) (r : Fin 1024) (k : Fin 256) :
    accCanonA (ib0 m c t) (ib1 m c t) (ib2 m c t) (ib3 m c t) (ib4 m c t) (ib5 m c t) (ib6 m c t) (ib7 m c t) (ix2 r k)
      = 0 + Spec.blend (Mm m c) (W1m m c) (B1m m c) (W2m m c) (B2m m c) (Xn m c t.val) r k :=
  KAcc.accCanonA_apply (ib0 m c t) (ib1 m c t) (ib2 m c t) (ib3 m c t) (ib4 m c t) (ib5 m c t) (ib6 m c t) (ib7 m c t)
    (Mm m c) (Xn m c t.val)
    (fun r k => (KBlocks.blk0_apply m c t r k).trans (congrFun (congrFun (Xn_bat m c t) r) k).symm)
    (KBlocks.blk1_apply m c t) (KBlocks.blk2_apply m c t)
    (W1m m c) (B1m m c) (W2m m c) (B2m m c)
    (KBlocks.blk3_apply m c t) (KBlocks.blk4_apply m c t) (KBlocks.blk5_apply m c t) (KBlocks.blk6_apply m c t)
    (KBlocks.blk7_apply m c t) (hden m c hx hm t.val) r k

/-- The running sum, as the specification accumulates it. -/
abbrev accS (n : ℕ) (r : Fin 1024) (k : Fin 256) : EReal :=
  Spec.acc (Mm m c) (W1m m c) (B1m m c) (W2m m c) (B2m m c) (Xn m c) n r k

/-- After every point: the joined rows of its batch element, the running sum, and at a core's last point the
    partial-sum block. -/
theorem inv : ∀ (n : ℕ) (h : n < cfg0.N),
    (outsAt0 m c n h).1 = (fun y => Spec.catv (Mm m c) (Xn m c n (y 2)) (y 3))
    ∧ (outsAt0 m c n h).2.2 = (fun y => accS m c n (y 0) (y 1))
    ∧ (n % 32 = 31 → (outsAt0 m c n h).2.1 = fun y => accS m c n (y 1) (y 2))
  | 0, h => by
    obtain ⟨e1, e3⟩ := outs_A m c ⟨0, h⟩ (Nat.zero_mod 32) (by show ¬(0 % 32 = 31); decide)
    refine ⟨e1.trans (cat_fun m c hx hm ⟨0, h⟩), e3.trans ?_, fun h31 => absurd h31 (by decide)⟩
    funext y
    obtain ⟨r, k, rfl⟩ : ∃ (r : Fin 1024) (k : Fin 256), y = ix2 r k := ⟨y 0, y 1, eq_ix2 y⟩
    exact accA_pt m c hx hm ⟨0, h⟩ r k
  | n + 1, h => by
    have ih := inv n (Nat.lt_of_succ_lt h)
    have hp : prevS m c ⟨n + 1, h⟩ = (outsAt0 m c n (Nat.lt_of_succ_lt h)).2.2 := rfl
    by_cases h0 : (n + 1) % 32 = 0
    · have h1 : ¬(n + 1) % 32 = 31 := by omega
      obtain ⟨e1, e3⟩ := outs_A m c ⟨n + 1, h⟩ h0 h1
      refine ⟨e1.trans (cat_fun m c hx hm ⟨n + 1, h⟩), e3.trans ?_, fun h31 => absurd h31 h1⟩
      funext y
      obtain ⟨r, k, rfl⟩ : ∃ (r : Fin 1024) (k : Fin 256), y = ix2 r k := ⟨y 0, y 1, eq_ix2 y⟩
      refine (accA_pt m c hx hm ⟨n + 1, h⟩ r k).trans ?_
      show _ = Spec.acc _ _ _ _ _ _ (n + 1) r k
      unfold Spec.acc
      rw [if_pos h0]
    · by_cases h1 : (n + 1) % 32 = 31
      · obtain ⟨e1, e2, e3⟩ := outs_C m c ⟨n + 1, h⟩ h0 h1
        have hacc : ∀ (r : Fin 1024) (k : Fin 256),
            accCanon (ib0 m c ⟨n + 1, h⟩) (ib1 m c ⟨n + 1, h⟩) (ib2 m c ⟨n + 1, h⟩) (ib3 m c ⟨n + 1, h⟩) (ib4 m c ⟨n + 1, h⟩)
              (ib5 m c ⟨n + 1, h⟩) (ib6 m c ⟨n + 1, h⟩) (ib7 m c ⟨n + 1, h⟩) (prevS m c ⟨n + 1, h⟩) (ix2 r k)
              = accS m c (n + 1) r k := by
          intro r k
          refine (acc_pt m c hx hm ⟨n + 1, h⟩ _ r k).trans ?_
          rw [hp, ih.2.1]
          show _ = Spec.acc _ _ _ _ _ _ (n + 1) r k
          conv_rhs => unfold Spec.acc
          rw [if_neg h0]
        refine ⟨e1.trans (cat_fun m c hx hm ⟨n + 1, h⟩), e3.trans ?_, fun _ => e2.trans ?_⟩
        · funext y
          obtain ⟨r, k, rfl⟩ : ∃ (r : Fin 1024) (k : Fin 256), y = ix2 r k := ⟨y 0, y 1, eq_ix2 y⟩
          exact hacc r k
        · funext y
          obtain ⟨a, r, k, rfl⟩ : ∃ (a : Fin 1) (r : Fin 1024) (k : Fin 256), y = ix3 a r k := ⟨y 0, y 1, y 2, eq_ix3 y⟩
          obtain rfl : a = 0 := Subsingleton.elim _ _
          exact (KAcc.out9Canon_apply _ _ _ _ _ _ _ _ _ r k).trans (hacc r k)
      · obtain ⟨e1, e3⟩ := outs_B m c ⟨n + 1, h⟩ h0 h1
        refine ⟨e1.trans (cat_fun m c hx hm ⟨n + 1, h⟩), e3.trans ?_, fun h31 => absurd h31 h1⟩
        funext y
        obtain ⟨r, k, rfl⟩ : ∃ (r : Fin 1024) (k : Fin 256), y = ix2 r k := ⟨y 0, y 1, eq_ix2 y⟩
        refine (acc_pt m c hx hm ⟨n + 1, h⟩ _ r k).trans ?_
        rw [hp, ih.2.1]
        show _ = Spec.acc _ _ _ _ _ _ (n + 1) r k
        conv_rhs => unfold Spec.acc
        rw [if_neg h0]

end Finite

end Cert.KInv

end
-- ==== Proof.KTail.lean ====
/-
  The host operations after the region, read at an index at the ideal values.

  The joined rows leave the region as [2, 32, 1024, 512] and are reshaped to [64, 1024, 512]: entry `(b, t, j)` is entry
  `(b / 32, b % 32, t, j)`. The two per-core partial sums [2, 1024, 256] are added from zero along the first axis,
  broadcast to [1, 1024, 256] and multiplied by the literal `1/64`.
-/
import proofs.«428584_j76871324664388_3_alg».proof.Proof.Gen.KernelIdeal
import proofs.«428584_j76871324664388_3_alg».proof.Proof.LibColumn
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KTail

open Idealize.ShloMosaic Idealize.ShloMosaic.ValueIdx Cert.KernelIdeal Cert.KernelIdeal.Gen

/-- The f32 pattern `0x3C800000` is the extended real `1/64`. -/
theorem ofBits_sixtyfourth : Ideal.ofBits .f32 0x3C800000#32 = ((1 / 64 : ℝ) : EReal) := by
  simp [Ideal.ofBits, Ideal.ieee, -EReal.coe_mul]; norm_num

/-- Reducing `[a, b, c]` along axis 0: over `(t, u)`, coordinate `k` put back is `(k, t, u)`. -/
theorem lift3_axis0 {a b c : ℕ} (h : (⟨3, ![a, b, c]⟩ : Shape).Reduces [0] (⟨2, ![b, c]⟩ : Shape)) (t : Fin b) (u : Fin c)
    (k : Fin ((⟨3, ![a, b, c]⟩ : Shape).size 0)) : h.lift (ix2 t u) k = ix3 (⟨k.val, k.isLt⟩ : Fin a) t u := by
  funext d; apply Fin.ext
  fin_cases d <;> rfl

/-- The reshape of the joined rows: batch element `b` is block `(b / 32, b % 32)`. -/
theorem reshape_cat_apply (A : FVec Ideal S2x32x1024x512 .f32) (b : Fin 64) (t : Fin 1024) (j : Fin 512) :
    shapeCast S64x1024x512 A shapeCasts_S2x32x1024x512_S64x1024x512 (ix3 b t j)
      = A (ix4 (⟨b.val / 32, by omega⟩ : Fin 2) (⟨b.val % 32, by omega⟩ : Fin 32) t j) := by
  refine shapeCast_apply A shapeCasts_S2x32x1024x512_S64x1024x512 _ _ ?_
  rw [Shape.rowMajor_val_four, Shape.rowMajor_val_three]
  show ((b.val / 32 * 32 + b.val % 32) * 1024 + t.val) * 512 + j.val = (b.val * 1024 + t.val) * 512 + j.val
  have := Nat.div_add_mod b.val 32
  omega

/-- The mean's tail: the two partial sums added from zero, times the literal. -/
theorem mean_tail_apply (P : FVec Ideal S2x1024x256 .f32) (t : Fin 1024) (c : Fin 256) :
    mulf (broadcastInDim S1x1024x256 ![1, 2] bcast_S1024x256_S1x1024x256_1_2
            (Host.reduceAdd P (constant (F := Ideal) S_ .f32 0x00000000#32) reducesTo_S2x1024x256_S1024x256_d0 h_S_))
         (broadcastInDim S1x1024x256 ![] bcast_S_S1x1024x256 (constant (F := Ideal) S_ .f32 0x3C800000#32))
         (ix3 (0 : Fin 1) t c)
      = (0 + ∑ k : Fin 2, P (ix3 k t c)) * (((1 / 64 : ℝ)) : EReal) := by
  have hred : S2x1024x256.Reduces [0] S1024x256 := by decide
  have hX : ∀ R : FVec Ideal S1024x256 .f32,
      broadcastInDim S1x1024x256 ![1, 2] bcast_S1024x256_S1x1024x256_1_2 R (ix3 (0 : Fin 1) t c) = R (ix2 t c) := fun R =>
    broadcastInDim_apply _ bcast_S1024x256_S1x1024x256_1_2 R (ix3 (0 : Fin 1) t c) (ix2 t c) (fun a => match a with
      | ⟨0, _⟩ => by show t.val = if (1024 : Nat) = 1 then 0 else t.val; rw [if_neg (by decide)]
      | ⟨1, _⟩ => by show c.val = if (256 : Nat) = 1 then 0 else c.val; rw [if_neg (by decide)])
  have hY : ∀ R : FVec Ideal S_ .f32,
      broadcastInDim S1x1024x256 ![] bcast_S_S1x1024x256 R (ix3 (0 : Fin 1) t c) = R ix0 := fun R =>
    broadcastInDim_apply _ bcast_S_S1x1024x256 R (ix3 (0 : Fin 1) t c) ix0 (fun a => a.elim0)
  rw [mulf_apply, hX, hY, hostReduceAdd_apply, Ideal.hostReduceAdd_single _ hred, constant_apply, constant_apply,
    Ideal.ofBits_zero_f32, ofBits_sixtyfourth]
  congr 2
  exact Finset.sum_congr rfl fun k _ => congrArg P (lift3_axis0 hred t c k)

end Cert.KTail

end
-- ==== Proof.KFinal.lean ====
/-
  The kernel program's two results as whole-array functions of its arguments.

  Every grid point writes its joined-rows block back, to block `(n / 32, n % 32)` of the [2, 32, 1024, 512] array: so
  that array ends holding, at `(a, b, t, j)`, entry `j` of row `t` of batch element `32·a + b` joined with what it
  retrieves. Only a core's last point (31, 63) writes the partial-sum block back, to block `n / 32` of the
  [2, 1024, 256] array: that array ends holding the two cores' running sums. The host then reshapes the first array
  to [64, 1024, 512] — the reference's joined rows — and adds the two partial sums from zero and multiplies by
  `1/64` — the batch mean, because the two running sums are the two halves of the batch sum.
-/
import proofs.«428584_j76871324664388_3_alg».proof.Proof.KInv
import proofs.«428584_j76871324664388_3_alg».proof.Proof.KTail
import Idealize.ShloMosaic.Lib.Pipeline.Value
import Idealize.ShloMosaic.Lib.StableHlo.Run

set_option maxRecDepth 16384

noncomputable section

namespace Cert.KFinal

open Idealize.ShloMosaic Idealize.ShloMosaic.TcCoe Idealize.SL.Sem Idealize.ShloMosaic.ValueIdx
open Idealize.ShloMosaic.Pipeline (Dat)
open Cert.KernelIdeal Cert.KernelIdeal.Gen Cert.KInv

variable (m : (ℓ : Loc nD τ sig) → Buf (Elt Ideal) ℓ) (ρ : Dev nD → PrngReg) (c : Dev nD)

/-- The joined rows, as the region's first output array ends holding them. -/
def G8 : S2x32x1024x512.Idx → EReal :=
  fun i => Spec.catv (Mm m c) (Xn m c (32 * (i 0).val + (i 1).val) (i 2)) (i 3)

/-- The two cores' running sums, as the region's second output array ends holding them. -/
def G9 : S2x1024x256.Idx → EReal :=
  fun i => accS m c (32 * (i 0).val + 31) (i 1) (i 2)

/-- Output window 8 walks the two leading axes with the grid. -/
theorem idx8 : ∀ t : Fin cfg0.N, win0_8.index t 0 = t.val / 32 ∧ win0_8.index t 1 = t.val % 32
    ∧ win0_8.index t 2 = 0 ∧ win0_8.index t 3 = 0 :=
  (by decide +kernel : ∀ t : Fin grid0.N, _)
/-- Output window 9 moves with the core. -/
theorem idx9 : ∀ t : Fin cfg0.N, win0_9.index t 0 = t.val / 32 ∧ win0_9.index t 1 = 0 ∧ win0_9.index t 2 = 0 :=
  (by decide +kernel : ∀ t : Fin grid0.N, _)

section Finite

variable (hx : ∀ i, Spec.IsReal (a0 m c i)) (hm : ∀ i, Spec.IsReal (a1 m c i))
include hx hm

/-- What point `t` writes back of the joined rows is block `t` of `G8`. -/
theorem flushed8 (t : Fin cfg0.N) :
    (dats m 0 c).flushed 8 t = ((cfg0.win 8).blk t).view.read (Elt Ideal) (G8 m c) := by
  show (cfg0.win 8).cut (grid0.coords t) ((dats m 0 c).after 8 t) = _
  rw [after0_8, (inv m c hx hm t.val t.isLt).1]
  obtain ⟨e0, e1, e2, e3⟩ := idx8 t
  have ht : t.val < 64 := lt_of_lt_of_eq t.isLt N_0
  funext j
  have hj0 : (j 0).val < 1 := (j 0).isLt
  have hj1 : (j 1).val < 1 := (j 1).isLt
  have hj2 : (j 2).val < 1024 := (j 2).isLt
  have hj3 : (j 3).val < 512 := (j 3).isLt
  have hemb : ((cfg0.win 8).blk t).view.emb j
      = ix4 (⟨t.val / 32, by omega⟩ : Fin 2) (⟨t.val % 32, by omega⟩ : Fin 32) (⟨(j 2).val, hj2⟩ : Fin 1024) (⟨(j 3).val, hj3⟩ : Fin 512) := by
    funext a; apply Fin.ext
    match a with
    | ⟨0, _⟩ => show win0_8.index t 0 * 1 + 1 * (j 0).val = t.val / 32; omega
    | ⟨1, _⟩ => show win0_8.index t 1 * 1 + 1 * (j 1).val = t.val % 32; omega
    | ⟨2, _⟩ => show win0_8.index t 2 * 1024 + 1 * (j 2).val = (j 2).val; omega
    | ⟨3, _⟩ => show win0_8.index t 3 * 512 + 1 * (j 3).val = (j 3).val; omega
  show Spec.catv (Mm m c) (Xn m c t.val (j 2)) (j 3) = G8 m c (((cfg0.win 8).blk t).view.emb j)
  rw [hemb]
  show _ = Spec.catv (Mm m c) (Xn m c (32 * (t.val / 32) + t.val % 32) ⟨(j 2).val, hj2⟩) ⟨(j 3).val, hj3⟩
  rw [show 32 * (t.val / 32) + t.val % 32 = t.val from by omega]
  rfl

/-- What a core's last point writes back of the partial sums is its block of `G9`. -/
theorem flushed9 (t : Fin cfg0.N) (hf : (cfg0.win 9).flush t = true) :
    (dats m 0 c).flushed 9 t = ((cfg0.win 9).blk t).view.read (Elt Ideal) (G9 m c) := by
  have h31 : t.val % 32 = 31 := (flush0_9 t).mp hf
  show (cfg0.win 9).cut (grid0.coords t) ((dats m 0 c).after 9 t) = _
  rw [after0_9, (inv m c hx hm t.val t.isLt).2.2 h31]
  obtain ⟨e0, e1, e2⟩ := idx9 t
  have ht : t.val < 64 := lt_of_lt_of_eq t.isLt N_0
  funext j
  have hj0 : (j 0).val < 1 := (j 0).isLt
  have hj1 : (j 1).val < 1024 := (j 1).isLt
  have hj2 : (j 2).val < 256 := (j 2).isLt
  have hemb : ((cfg0.win 9).blk t).view.emb j
      = ix3 (⟨t.val / 32, by omega⟩ : Fin 2) (⟨(j 1).val, hj1⟩ : Fin 1024) (⟨(j 2).val, hj2⟩ : Fin 256) := by
    funext a; apply Fin.ext
    match a with
    | ⟨0, _⟩ => show win0_9.index t 0 * 1 + 1 * (j 0).val = t.val / 32; omega
    | ⟨1, _⟩ => show win0_9.index t 1 * 1024 + 1 * (j 1).val = (j 1).val; omega
    | ⟨2, _⟩ => show win0_9.index t 2 * 256 + 1 * (j 2).val = (j 2).val; omega
  show accS m c t.val (j 1) (j 2) = G9 m c (((cfg0.win 9).blk t).view.emb j)
  rw [hemb]
  show _ = accS m c (32 * (t.val / 32) + 31) ⟨(j 1).val, hj1⟩ ⟨(j 2).val, hj2⟩
  rw [show 32 * (t.val / 32) + 31 = t.val from by omega]
  rfl

end Finite

/-- An index of the first output array is in point `t`'s block iff each coordinate is in the block's range. -/
theorem mem_blk8 (t : Fin cfg0.N) (i : S2x32x1024x512.Idx) :
    i ∈ ((cfg0.win 8).blk t).view.set ↔ ∀ a : Fin 4, win0_8.index t a * S1x1x1024x512.size a ≤ (i a).val
      ∧ (i a).val < win0_8.index t a * S1x1x1024x512.size a + S1x1x1024x512.size a := by
  show i ∈ ((View.whole main_v5_0).slice (win0_8.rect t)).set ↔ _
  rw [View.set_slice_whole, Rect.mem_set_unit]
  exact Iff.rfl

theorem mem_blk9 (t : Fin cfg0.N) (i : S2x1024x256.Idx) :
    i ∈ ((cfg0.win 9).blk t).view.set ↔ ∀ a : Fin 3, win0_9.index t a * S1x1024x256.size a ≤ (i a).val
      ∧ (i a).val < win0_9.index t a * S1x1024x256.size a + S1x1024x256.size a := by
  show i ∈ ((View.whole main_v5_1).slice (win0_9.rect t)).set ↔ _
  rw [View.set_slice_whole, Rect.mem_set_unit]
  exact Iff.rfl

/-- Every index of the first output array is in the block of the point of its two leading coordinates. -/
theorem cover8 (i : S2x32x1024x512.Idx) :
    ∃ t : Fin cfg0.N, (cfg0.win 8).flush t = true ∧ i ∈ ((cfg0.win 8).blk t).view.set := by
  have h0 : (i 0).val < 2 := (i 0).isLt
  have h1 : (i 1).val < 32 := (i 1).isLt
  have h2 : (i 2).val < 1024 := (i 2).isLt
  have h3 : (i 3).val < 512 := (i 3).isLt
  have hlt : 32 * (i 0).val + (i 1).val < cfg0.N := lt_of_lt_of_eq (show 32 * (i 0).val + (i 1).val < 64 by omega) N_0.symm
  refine ⟨⟨32 * (i 0).val + (i 1).val, hlt⟩, flush0_8 _, ?_⟩
  rw [mem_blk8]
  obtain ⟨e0, e1, e2, e3⟩ := idx8 ⟨32 * (i 0).val + (i 1).val, hlt⟩
  intro a
  match a with
  | ⟨0, _⟩ => show win0_8.index _ 0 * 1 ≤ (i 0).val ∧ (i 0).val < win0_8.index _ 0 * 1 + 1; rw [e0]; show (32 * (i 0).val + (i 1).val) / 32 * 1 ≤ _ ∧ _ < (32 * (i 0).val + (i 1).val) / 32 * 1 + 1; omega
  | ⟨1, _⟩ => show win0_8.index _ 1 * 1 ≤ (i 1).val ∧ (i 1).val < win0_8.index _ 1 * 1 + 1; rw [e1]; show (32 * (i 0).val + (i 1).val) % 32 * 1 ≤ _ ∧ _ < (32 * (i 0).val + (i 1).val) % 32 * 1 + 1; omega
  | ⟨2, _⟩ => show win0_8.index _ 2 * 1024 ≤ (i 2).val ∧ (i 2).val < win0_8.index _ 2 * 1024 + 1024; rw [e2]; omega
  | ⟨3, _⟩ => show win0_8.index _ 3 * 512 ≤ (i 3).val ∧ (i 3).val < win0_8.index _ 3 * 512 + 512; rw [e3]; omega

/-- Every index of the second output array is in the block of its core's last point. -/
theorem cover9 (i : S2x1024x256.Idx) :
    ∃ t : Fin cfg0.N, (cfg0.win 9).flush t = true ∧ i ∈ ((cfg0.win 9).blk t).view.set := by
  have h0 : (i 0).val < 2 := (i 0).isLt
  have h1 : (i 1).val < 1024 := (i 1).isLt
  have h2 : (i 2).val < 256 := (i 2).isLt
  have hlt : 32 * (i 0).val + 31 < cfg0.N := lt_of_lt_of_eq (show 32 * (i 0).val + 31 < 64 by omega) N_0.symm
  refine ⟨⟨32 * (i 0).val + 31, hlt⟩, (flush0_9 _).mpr (by show (32 * (i 0).val + 31) % 32 = 31; omega), ?_⟩
  rw [mem_blk9]
  obtain ⟨e0, e1, e2⟩ := idx9 ⟨32 * (i 0).val + 31, hlt⟩
  intro a
  match a with
  | ⟨0, _⟩ => show win0_9.index _ 0 * 1 ≤ (i 0).val ∧ (i 0).val < win0_9.index _ 0 * 1 + 1; rw [e0]; show (32 * (i 0).val + 31) / 32 * 1 ≤ _ ∧ _ < (32 * (i 0).val + 31) / 32 * 1 + 1; omega
  | ⟨1, _⟩ => show win0_9.index _ 1 * 1024 ≤ (i 1).val ∧ (i 1).val < win0_9.index _ 1 * 1024 + 1024; rw [e1]; omega
  | ⟨2, _⟩ => show win0_9.index _ 2 * 256 ≤ (i 2).val ∧ (i 2).val < win0_9.index _ 2 * 256 + 256; rw [e2]; omega

section Finite2

variable (hx : ∀ i, Spec.IsReal (a0 m c i)) (hm : ∀ i, Spec.IsReal (a1 m c i))
include hx hm

/-- The first output array after the run. -/
theorem final8 : (dats m 0 c).arrAt 8 cfg0.N = G8 m c :=
  (dats m 0 c).arrAt_eq_of_cover 8 (G8 m c) (fun t _ => flushed8 m c hx hm t) cover8

/-- The second output array after the run. -/
theorem final9 : (dats m 0 c).arrAt 9 cfg0.N = G9 m c :=
  (dats m 0 c).arrAt_eq_of_cover 9 (G9 m c) (flushed9 m c hx hm) cover9

/-- What the region leaves in its first output array, read through the host's view of the buffers. -/
theorem arr8 : Pipeline.withArrays (cfgs 0).spec c (V0 m c) (fun w => (dats m 0 c).arrAt w (cfgs 0).N) (Proc.devRef .tc main_v5_0)
    = G8 m c :=
  (Pipeline.withArrays_arr spec0 launch0.win.arr_inj c _ _ 8).trans (final8 m c hx hm)

theorem arr9 : Pipeline.withArrays (cfgs 0).spec c (V0 m c) (fun w => (dats m 0 c).arrAt w (cfgs 0).N) (Proc.devRef .tc main_v5_1)
    = G9 m c :=
  (Pipeline.withArrays_arr spec0 launch0.win.arr_inj c _ _ 9).trans (final9 m c hx hm)

/-- The first result after the host's reshape. -/
theorem tail_v6 : Pipeline.afterTail₀ cfgs (dats m) 0 (V0 m) [hostOps1] c main_v6
    = shapeCast S64x1024x512 (G8 m c) shapeCasts_S2x32x1024x512_S64x1024x512 := by
  unfold Pipeline.afterTail₀
  show StableHlo.after hostOps1 _ (Proc.devRef .tc main_v6) = _
  after_results
  rw [arr8 m c hx hm]
  rfl

/-- The second result after the host's sum over the two cores and its scaling. -/
theorem tail_v10 : Pipeline.afterTail₀ cfgs (dats m) 0 (V0 m) [hostOps1] c main_v10
    = mulf (broadcastInDim S1x1024x256 ![1, 2] bcast_S1024x256_S1x1024x256_1_2
            (Host.reduceAdd (G9 m c) (constant (F := Ideal) S_ .f32 0x00000000#32) reducesTo_S2x1024x256_S1024x256_d0 h_S_))
         (broadcastInDim S1x1024x256 ![] bcast_S_S1x1024x256 (constant (F := Ideal) S_ .f32 0x3C800000#32)) := by
  unfold Pipeline.afterTail₀
  show StableHlo.after hostOps1 _ (Proc.devRef .tc main_v10) = _
  after_results
  rw [arr9 m c hx hm]

end Finite2

/-- The reshaped joined rows are the specification's first result. -/
theorem res0_eq : shapeCast S64x1024x512 (G8 m c) shapeCasts_S2x32x1024x512_S64x1024x512 = Arr.catAll (a0 m c) (a1 m c) := by
  funext i
  obtain ⟨b, t, j, rfl⟩ : ∃ (b : Fin 64) (t : Fin 1024) (j : Fin 512), i = ix3 b t j := ⟨i 0, i 1, i 2, eq_ix3 i⟩
  rw [KTail.reshape_cat_apply]
  have hb : 32 * (b.val / 32) + b.val % 32 = b.val := by omega
  show Spec.catv (Mm m c) (Xn m c (32 * (b.val / 32) + b.val % 32) t) j = Spec.catv (Arr.M (a1 m c)) (Arr.X (a0 m c) b t) j
  rw [hb, Xn_fin]

/-- The scaled sum of the two partial sums is the specification's second result. -/
theorem res1_eq :
    mulf (broadcastInDim S1x1024x256 ![1, 2] bcast_S1024x256_S1x1024x256_1_2
            (Host.reduceAdd (G9 m c) (constant (F := Ideal) S_ .f32 0x00000000#32) reducesTo_S2x1024x256_S1024x256_d0 h_S_))
         (broadcastInDim S1x1024x256 ![] bcast_S_S1x1024x256 (constant (F := Ideal) S_ .f32 0x3C800000#32))
      = Arr.newMemAll (a0 m c) (a1 m c) (a2 m c) (a3 m c) (a4 m c) (a5 m c) := by
  funext i
  obtain ⟨a, t, k, rfl⟩ : ∃ (a : Fin 1) (t : Fin 1024) (k : Fin 256), i = ix3 a t k := ⟨i 0, i 1, i 2, eq_ix3 i⟩
  obtain rfl : a = 0 := Subsingleton.elim _ _
  rw [KTail.mean_tail_apply]
  exact Spec.newMem_halves (Mm m c) (W1m m c) (B1m m c) (W2m m c) (B2m m c) (fun b => Arr.X (a0 m c) b) (Xn m c)
    (fun b => Xn_fin m c b) t k

/-- The kernel program's run, read: the two results at the specification's whole-array functions of the arguments,
    the arguments unchanged — for arguments all of whose `x` and `memory` entries are real numbers. -/
theorem run (hx : ∀ c i, Spec.IsReal (a0 m c i)) (hm : ∀ c i, Spec.IsReal (a1 m c i)) :
    θ_run defs (onTc (τ := τ) (main (F := Ideal))) ⟨m, fun _ => 0, ρ⟩ fun r => ∀ c : Dev nD,
      r.2.mem ((c.tc : Thread nD τ).loc main_v6) = Arr.catAll (a0 m c) (a1 m c)
      ∧ r.2.mem ((c.tc : Thread nD τ).loc main_v10) = Arr.newMemAll (a0 m c) (a1 m c) (a2 m c) (a3 m c) (a4 m c) (a5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v6 (Pipeline.mem_restRefs_of main_v6 (by decide) (by decide))).trans
        ((tail_v6 m c (hx c) (hm c)).trans (res0_eq m c)),
      ((h c).2 main_v10 (Pipeline.mem_restRefs_of main_v10 (by decide) (by decide))).trans
        ((tail_v10 m c (hx c) (hm c)).trans (res1_eq m c)),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).1 5).trans (((dats m 0 c).arrAt_in 5 rfl _).trans ((A_eq m c 5).trans (V_main_arg3 m c))),
      ((h c).2 main_arg4 (Pipeline.mem_restRefs_of main_arg4 (by decide) (by decide))).trans (W_main_arg4 m (dats m) c),
      ((h c).1 7).trans (((dats m 0 c).arrAt_in 7 rfl _).trans ((A_eq m c 7).trans (V_main_arg5 m c)))⟩)
    (run_main m ρ)

end Cert.KFinal

end
-- ==== Proof.RefStages.lean ====
/-
  The reference, stage by stage, is the specification.

  Its first result is the concatenation of `x` with the retrieved rows, its second the batch mean of the blended
  memory slabs. Read at an index through the stage lemmas, each is the corresponding whole-array function of the
  arguments: the scores as inner products, the row maximum as the fold of `max` from `-∞` (taken once more against
  `-∞`, which changes nothing), the softmax quotient, the two contractions of the gate, and the two means as sums
  divided by their counts.
-/
import proofs.«428584_j76871324664388_3_alg».proof.Proof.RefRead
import proofs.«428584_j76871324664388_3_alg».proof.Proof.Arrays
import proofs.«428584_j76871324664388_3_alg».proof.Proof.LibColumn
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.RefStages

open Idealize.ShloMosaic Idealize.ShloMosaic.ValueIdx Cert.ReferenceIdeal Cert.ReferenceIdeal.ReadP

/-! ## A maximum along the last axis of a rank-3 array -/

/-- Reducing `[a, b, c]` along axis 2: over `(r, t)`, coordinate `k` put back is `(r, t, k)`. -/
theorem lift_axis2 {a b c : ℕ} (h : (⟨3, ![a, b, c]⟩ : Shape).Reduces [2] (⟨2, ![a, b]⟩ : Shape)) (r : Fin a) (t : Fin b)
    (k : Fin ((⟨3, ![a, b, c]⟩ : Shape).size 2)) : h.lift (ix2 r t) k = ix3 r t (⟨k.val, k.isLt⟩ : Fin c) := by
  funext d; apply Fin.ext
  fin_cases d <;> rfl

/-- The host's reduce with a maximum body along the last axis is, at `(r, t)`, the fold of `max` over that axis from
    the initial value. -/
theorem hostMaxAxis2_apply {a b c : ℕ} {u : Shape} {φ : FTy} (x : FVec Ideal ⟨3, ![a, b, c]⟩ φ) (init : u.Idx → Ideal φ)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (r : Fin a) (t : Fin b) :
    Host.reduce FloatOps.maximumf x init h' hu (ix2 r t)
      = (Finset.univ : Finset (Fin c)).fold max (init (Shape.Idx.first hu)) (fun k => x (ix3 r t k)) :=
  (Host.reduce_eq_fold_single FloatOps.maximumf x init h' h hu (ix2 r t)).trans
    (congrArg (fun f => (Finset.univ : Finset (Fin c)).fold max (init (Shape.Idx.first hu)) f)
      (funext fun k => congrArg x (lift_axis2 h r t k)))

/-! ## The constants -/

/-- The word `0xFF800000` denotes `-∞`. -/
theorem ofBits_neg_inf_f32 : Ideal.ofBits .f32 0xFF800000#32 = (⊥ : EReal) := by simp [Ideal.ofBits, Ideal.ieee]

/-- The word `0x44800000` denotes the real `1024`. -/
theorem ofBits_1024_f32 : Ideal.ofBits .f32 0x44800000#32 = ((1024 : ℝ) : EReal) := by
  simp [Ideal.ofBits, Ideal.ieee, -EReal.coe_mul]; norm_num

/-- The word `0x42800000` denotes the real `64`. -/
theorem ofBits_64_f32 : Ideal.ofBits .f32 0x42800000#32 = ((64 : ℝ) : EReal) := by
  simp [Ideal.ofBits, Ideal.ieee, -EReal.coe_mul]; norm_num

/-- Two indices whose coordinates agree, one by one, are equal. -/
local macro "coords" : tactic => `(tactic| (funext a; apply Fin.ext; fin_cases a <;> rfl))

/-! ## The stages, each at explicit coordinates -/

section Stages

variable (x0 : (⟨S64x1024x256, .f32⟩ : BufTy).Contents (Elt Ideal)) (x1 : (⟨S1x1024x256, .f32⟩ : BufTy).Contents (Elt Ideal))
  (x2 : (⟨S512x1024, .f32⟩ : BufTy).Contents (Elt Ideal)) (x3 : (⟨S1024, .f32⟩ : BufTy).Contents (Elt Ideal))
  (x4 : (⟨S1024x256, .f32⟩ : BufTy).Contents (Elt Ideal)) (x5 : (⟨S256, .f32⟩ : BufTy).Contents (Elt Ideal))

/-- The memory slab recast as a matrix reads the slab's entry. -/
theorem mem_apply (m : Fin 1024) (k : Fin 256) :
    val_main_v0 (F := Ideal) x1 (ix2 m k) = Arr.M x1 m k := by
  rw [val_main_v0_apply]
  exact congrArg x1 (funext fun a => Fin.ext (by
    match a with
    | ⟨0, _⟩ => rfl
    | ⟨1, _⟩ =>
      show (m.val * 256 + k.val) / 256 % 1024 = m.val
      have := m.isLt; have := k.isLt; omega
    | ⟨2, _⟩ =>
      show (m.val * 256 + k.val) % 256 = k.val
      have := k.isLt; omega))

/-- The scores: row `(b, t)` against memory row `m`. -/
theorem energy_apply (b : Fin 64) (t m : Fin 1024) :
    val_main_v1 (F := Ideal) x0 x1 (ix3 b t m) = Spec.energy (Arr.M x1) (Arr.X x0 b t) m := by
  rw [val_main_v1_apply]
  unfold Spec.energy
  refine Finset.sum_congr rfl fun k _ => ?_
  rw [show lidx_main_v1 (ix3 b t m) k = ix3 b t k from by coords,
    show ridx_main_v1 (ix3 b t m) k = ix2 m k from by coords, mem_apply]

/-- The largest score of row `(b, t)`: the fold of `max` from `-∞`. -/
theorem rowMax_apply (b : Fin 64) (t : Fin 1024) :
    val_main_v2 (F := Ideal) x0 x1 (ix2 b t) = Spec.rowMax (Spec.energy (Arr.M x1) (Arr.X x0 b t)) := by
  unfold val_main_v2 Spec.rowMax
  rw [hostMaxAxis2_apply (a := 64) (b := 1024) (c := 1024) (φ := .f32) _ _ _ (by decide) _ b t,
    val_main_cst_apply, Ideal.ofBits_def, ofBits_neg_inf_f32]
  exact congrArg (fun f => (Finset.univ : Finset (Fin 1024)).fold max ⊥ f) (funext fun m => energy_apply x0 x1 b t m)

/-- The largest score taken once more against `-∞` and spread back over the row is still the largest score. -/
theorem rowMaxB_apply (b : Fin 64) (t m : Fin 1024) :
    val_main_v6 (F := Ideal) x0 x1 (ix3 b t m) = Spec.rowMax (Spec.energy (Arr.M x1) (Arr.X x0 b t)) := by
  rw [val_main_v6_apply, val_main_v5_apply,
    show idx_main_v5 (idx_main_v6 (ix3 b t m)) = ix2 b t from by coords,
    val_main_v4_apply, val_main_v3_apply, val_main_cst_0_apply, rowMax_apply, Ideal.maximumf_def, Ideal.ofBits_def,
    ofBits_neg_inf_f32]
  exact max_bot_left _

/-- The exponential of a score less the row's largest. -/
theorem expd_apply (b : Fin 64) (t m : Fin 1024) :
    val_main_v8 (F := Ideal) x0 x1 (ix3 b t m) = Spec.expd (Spec.energy (Arr.M x1) (Arr.X x0 b t)) m := by
  rw [val_main_v8_apply, val_main_v7_apply, energy_apply, rowMaxB_apply]
  rfl

/-- The softmax's denominator of row `(b, t)`. -/
theorem den_apply (b : Fin 64) (t : Fin 1024) :
    val_main_v9 (F := Ideal) x0 x1 (ix2 b t) = Spec.den (Spec.energy (Arr.M x1) (Arr.X x0 b t)) := by
  rw [val_main_v9_apply, val_main_cst_1_apply, Ideal.ofBits_def, Ideal.ofBits_zero_f32, zero_add]
  unfold Spec.den
  refine Finset.sum_congr rfl fun m _ => ?_
  rw [show idx_main_v9 (ix2 b t) m = ix3 b t m from by coords, expd_apply]

/-- The denominator spread back over the row. -/
theorem denB_apply (b : Fin 64) (t m : Fin 1024) :
    val_main_v11 (F := Ideal) x0 x1 (ix3 b t m) = Spec.den (Spec.energy (Arr.M x1) (Arr.X x0 b t)) := by
  rw [val_main_v11_apply, val_main_v10_apply,
    show idx_main_v10 (idx_main_v11 (ix3 b t m)) = ix2 b t from by coords, den_apply]

/-- The softmax weight of memory row `m` for row `(b, t)`. -/
theorem wgt_apply (b : Fin 64) (t m : Fin 1024) :
    val_main_v12 (F := Ideal) x0 x1 (ix3 b t m) = Spec.wgt (Spec.energy (Arr.M x1) (Arr.X x0 b t)) m := by
  rw [val_main_v12_apply, expd_apply, denB_apply]
  rfl

/-- What row `(b, t)` retrieves. -/
theorem retr_apply (b : Fin 64) (t : Fin 1024) (c : Fin 256) :
    val_main_v13 (F := Ideal) x0 x1 (ix3 b t c) = Spec.retr (Arr.M x1) (Arr.X x0 b t) c := by
  rw [val_main_v13_apply]
  unfold Spec.retr
  refine Finset.sum_congr rfl fun m _ => ?_
  rw [show lidx_main_v13 (ix3 b t c) m = ix3 b t m from by coords,
    show ridx_main_v13 (ix3 b t c) m = ix2 m c from by coords, wgt_apply, mem_apply]

/-- The joined row: below coordinate `256` the row itself, from `256` on what it retrieves. -/
theorem cat_apply (b : Fin 64) (t : Fin 1024) (j : Fin 512) :
    val_main_v14 (F := Ideal) x0 x1 (ix3 b t j) = Spec.catv (Arr.M x1) (Arr.X x0 b t) j := by
  unfold val_main_v14 Spec.catv
  by_cases hj : j.val < 256
  · rw [dif_pos hj]
    exact concatenate_pair_apply_left 2 x0 (val_main_v13 (F := Ideal) x0 x1) _ (ix3 b t j) rfl (ix3 b t ⟨j.val, hj⟩)
      (fun a => by match a with | ⟨0, _⟩ => rfl | ⟨1, _⟩ => rfl | ⟨2, _⟩ => rfl)
  · have hj2 : j.val - 256 < 256 := by have := j.isLt; omega
    rw [dif_neg hj]
    refine (concatenate_pair_apply_right 2 x0 (val_main_v13 (F := Ideal) x0 x1) _ (ix3 b t j) rfl rfl
      (ix3 b t ⟨j.val - 256, hj2⟩) (fun a ha => ?_) ?_).trans (retr_apply x0 x1 b t _)
    · match a, ha with
      | ⟨0, _⟩, _ => rfl
      | ⟨1, _⟩, _ => rfl
      | ⟨2, _⟩, ha => exact absurd rfl ha
    · show (j.val - 256) + 256 = j.val
      omega

/-- The gate's hidden pre-activation at `(b, t, f)`. -/
theorem hpre_apply (b : Fin 64) (t f : Fin 1024) :
    val_main_v18 (F := Ideal) x0 x1 x2 x3 (ix3 b t f)
      = Spec.hpre (Arr.M x1) (Arr.W1 x2) (Arr.B1 x3) (Arr.X x0 b t) f := by
  rw [val_main_v18_apply, val_main_v15_apply, val_main_v17_apply, val_main_v16_apply, Ideal.addf_def]
  unfold Spec.hpre
  congr 1
  · refine Finset.sum_congr rfl fun k _ => ?_
    rw [show lidx_main_v15 (ix3 b t f) k = ix3 b t k from by coords,
      show ridx_main_v15 (ix3 b t f) k = ix2 k f from by coords, cat_apply]
  · exact congrArg x3 (by coords)

/-- SiLU of the pre-activation: the host spells the sigmoid `1 / (1 + exp (-z))`. -/
theorem hid_apply (b : Fin 64) (t f : Fin 1024) :
    val_main_v19 (F := Ideal) x0 x1 x2 x3 (ix3 b t f)
      = Spec.hid (Arr.M x1) (Arr.W1 x2) (Arr.B1 x3) (Arr.X x0 b t) f := by
  rw [val_main_v19_apply, val_main_call0_v5_apply, val_main_call0_v4_apply, val_main_call0_cst_0_apply,
    val_main_call0_v3_apply, val_main_call0_v2_apply, val_main_call0_cst_apply, val_main_call0_v1_apply,
    val_main_call0_v0_apply, hpre_apply, Ideal.ofBits_def, Ideal.ofBits_one_f32]
  rfl

/-- The gate's second contraction with its bias, at `(b, t, c)`. -/
theorem gpre_apply (b : Fin 64) (t : Fin 1024) (c : Fin 256) :
    val_main_v23 (F := Ideal) x0 x1 x2 x3 x4 x5 (ix3 b t c)
      = (∑ f : Fin 1024, Spec.hid (Arr.M x1) (Arr.W1 x2) (Arr.B1 x3) (Arr.X x0 b t) f * Arr.W2 x4 f c) + Arr.B2 x5 c := by
  rw [val_main_v23_apply, val_main_v20_apply, val_main_v22_apply, val_main_v21_apply, Ideal.addf_def]
  congr 1
  · refine Finset.sum_congr rfl fun f _ => ?_
    rw [show lidx_main_v20 (ix3 b t c) f = ix3 b t f from by coords,
      show ridx_main_v20 (ix3 b t c) f = ix2 f c from by coords, hid_apply]
  · exact congrArg x5 (by coords)

/-- The update gate at `(b, t, c)`. -/
theorem gate_apply (b : Fin 64) (t : Fin 1024) (c : Fin 256) :
    val_main_v29 (F := Ideal) x0 x1 x2 x3 x4 x5 (ix3 b t c)
      = Spec.gate (Arr.M x1) (Arr.W1 x2) (Arr.B1 x3) (Arr.W2 x4) (Arr.B2 x5) (Arr.X x0 b t) c := by
  rw [val_main_v29_apply, val_main_v28_apply, val_main_cst_3_apply, val_main_v27_apply, val_main_v26_apply,
    val_main_cst_2_apply, val_main_v25_apply, val_main_v24_apply, gpre_apply, Ideal.ofBits_def, Ideal.ofBits_one_f32]
  rfl

/-- Batch element `b`'s mean row. -/
theorem xmean_apply (b : Fin 64) (c : Fin 256) :
    val_main_v33 (F := Ideal) x0 (ix3 b (0 : Fin 1) c) = Spec.xmean (Arr.X x0 b) c := by
  rw [val_main_v33_apply, val_main_v32_apply, val_main_cst_5_apply, val_main_v31_apply, val_main_v30_apply,
    val_main_cst_4_apply, Ideal.hostDivf_def, Ideal.ofBits_def, Ideal.ofBits_def, Ideal.ofBits_zero_f32, ofBits_1024_f32,
    zero_add]
  unfold Spec.xmean
  congr 1
  refine Finset.sum_congr rfl fun t _ => ?_
  exact congrArg x0 (by coords)

/-- The blended memory entry of batch element `b`. -/
theorem blend_apply (b : Fin 64) (t : Fin 1024) (c : Fin 256) :
    val_main_v40 (F := Ideal) x0 x1 x2 x3 x4 x5 (ix3 b t c)
      = Spec.blend (Arr.M x1) (Arr.W1 x2) (Arr.B1 x3) (Arr.W2 x4) (Arr.B2 x5) (Arr.X x0 b) t c := by
  rw [val_main_v40_apply, val_main_v37_apply, val_main_v39_apply, val_main_v36_apply, val_main_v35_apply,
    val_main_v34_apply, val_main_cst_6_apply, val_main_v38_apply, gate_apply,
    show idx_main_v38 (ix3 b t c) = ix3 b (0 : Fin 1) c from by coords, xmean_apply,
    show idx_main_v36 (ix3 b t c) = ix3 (0 : Fin 1) t c from by coords, Ideal.ofBits_def, Ideal.ofBits_one_f32]
  rfl

/-- The new memory entry `(t, c)`: the blended entries summed over the batch, divided by their count. -/
theorem newMem_apply (t : Fin 1024) (c : Fin 256) :
    val_main_v44 (F := Ideal) x0 x1 x2 x3 x4 x5 (ix3 (0 : Fin 1) t c)
      = Spec.newMem (Arr.M x1) (Arr.W1 x2) (Arr.B1 x3) (Arr.W2 x4) (Arr.B2 x5) (fun b => Arr.X x0 b) t c := by
  rw [val_main_v44_apply, val_main_v43_apply, val_main_cst_8_apply, val_main_v42_apply, val_main_v41_apply,
    val_main_cst_7_apply, Ideal.hostDivf_def, Ideal.ofBits_def, Ideal.ofBits_def, Ideal.ofBits_zero_f32, ofBits_64_f32,
    zero_add]
  unfold Spec.newMem
  congr 1
  refine Finset.sum_congr rfl fun b _ => ?_
  rw [show idx_main_v41 (idx_main_v42 (ix3 (0 : Fin 1) t c)) b = ix3 b t c from by coords, blend_apply]

end Stages

/-- The reference's first result is the joined rows. -/
theorem cat_eq (x0 : (⟨S64x1024x256, .f32⟩ : BufTy).Contents (Elt Ideal)) (x1 : (⟨S1x1024x256, .f32⟩ : BufTy).Contents (Elt Ideal)) :
    val_main_v14 (F := Ideal) x0 x1 = Arr.catAll x0 x1 := by
  funext i
  obtain ⟨b, t, j, rfl⟩ : ∃ (b : Fin 64) (t : Fin 1024) (j : Fin 512), i = ix3 b t j := ⟨i 0, i 1, i 2, eq_ix3 i⟩
  exact cat_apply x0 x1 b t j

/-- The reference's second result is the new memory slab. -/
theorem newMem_eq (x0 : (⟨S64x1024x256, .f32⟩ : BufTy).Contents (Elt Ideal)) (x1 : (⟨S1x1024x256, .f32⟩ : BufTy).Contents (Elt Ideal))
    (x2 : (⟨S512x1024, .f32⟩ : BufTy).Contents (Elt Ideal)) (x3 : (⟨S1024, .f32⟩ : BufTy).Contents (Elt Ideal))
    (x4 : (⟨S1024x256, .f32⟩ : BufTy).Contents (Elt Ideal)) (x5 : (⟨S256, .f32⟩ : BufTy).Contents (Elt Ideal)) :
    val_main_v44 (F := Ideal) x0 x1 x2 x3 x4 x5 = Arr.newMemAll x0 x1 x2 x3 x4 x5 := by
  funext i
  have h0 : i 0 = (0 : Fin 1) := Fin.ext (Nat.lt_one_iff.mp (i 0).isLt)
  obtain ⟨t, c, rfl⟩ : ∃ (t : Fin 1024) (c : Fin 256), i = ix3 (0 : Fin 1) t c :=
    ⟨i 1, i 2, (eq_ix3 i).trans (congrArg (fun z => ix3 z (i 1) (i 2)) h0)⟩
  exact newMem_apply x0 x1 x2 x3 x4 x5 t c

end Cert.RefStages

end
-- ==== Proof.Finite.lean ====
/-
  From the precondition to real numbers.

  The precondition says, array by array, that every entry's absolute value is below `+∞`. On the extended reals
  that is exactly: the entry is a real number. Only the batch array and the memory slab are needed downstream (they
  make every attention score finite, so that each softmax denominator is not zero).
-/
import proofs.«428584_j76871324664388_3_alg».proof.Pre_finite_inputs
import proofs.«428584_j76871324664388_3_alg».proof.Proof.Spec
import Idealize.ShloMosaic.PureOps.Ideal
import Idealize.ShloMosaic.Lib.ReduceAll
import Idealize.ShloMosaic.Lib.ValueIdx

noncomputable section

namespace Cert.Finite

open Idealize.ShloMosaic

/-- The rank-zero shape has one index. -/
instance : Subsingleton Cert.Pre_finite_inputs.S_.Idx := ⟨fun a b => funext fun d => d.elim0⟩

/-- An extended real whose absolute value `max x (-x)` is below `+∞` is a real number: `-∞` has absolute value
    `+∞`, and so has `+∞`. -/
theorem isReal_of_abs_lt_top (x : EReal) (h : max x (-x) < ⊤) : Spec.IsReal x := by
  induction x using EReal.rec with
  | bot => simp at h
  | coe r => exact ⟨r, rfl⟩
  | top => simp at h

/-- The bit pattern `0x7F800000` denotes `+∞`. -/
theorem inf_bits : Ideal.ofBits .f32 0x7F800000#32 = (⊤ : EReal) := by
  simp [Ideal.ofBits, Ideal.ieee]

/-- One entry's test `|x| < +∞` coming out true says the entry is a real number. -/
theorem isReal_of_test (x : Ideal .f32)
    (h : FloatOps.cmpf (F := Ideal) .olt (FloatOps.hostAbsf x) (FloatOps.ofBits .f32 0x7F800000#32) = 1#1) :
    Spec.IsReal x := by
  apply isReal_of_abs_lt_top
  -- at the extended reals the test is the order's comparison of `max x (-x)` with what the pattern denotes
  have h' : Ideal.cmp .olt (max x (-x)) (Ideal.ofBits .f32 0x7F800000#32) = 1#1 := h
  rw [inf_bits] at h'
  unfold Ideal.cmp at h'
  by_contra hn
  simp [hn] at h'

/-- Under the precondition every entry of the batch array and of the memory slab is a real number. -/
theorem real_of_pre [Cert.Pre_finite_inputs.Facts]
    (a0 : FVec Ideal Cert.Pre_finite_inputs.S64x1024x256 .f32) (a1 : FVec Ideal Cert.Pre_finite_inputs.S1x1024x256 .f32)
    (a2 : FVec Ideal Cert.Pre_finite_inputs.S512x1024 .f32) (a3 : FVec Ideal Cert.Pre_finite_inputs.S1024 .f32)
    (a4 : FVec Ideal Cert.Pre_finite_inputs.S1024x256 .f32) (a5 : FVec Ideal Cert.Pre_finite_inputs.S256 .f32)
    (h : Cert.Pre_finite_inputs.fn (F := Ideal) a0 a1 a2 a3 a4 a5 = fun _ => 1#1) :
    (∀ i, Spec.IsReal (a0 i)) ∧ (∀ i, Spec.IsReal (a1 i)) := by
  have e := congrFun h ValueIdx.ix0
  dsimp only [Cert.Pre_finite_inputs.fn, Cert.Pre_finite_inputs.fn_part1] at e
  simp only [andi, IntOp.andi_eq_one] at e
  obtain ⟨⟨⟨⟨⟨e0, e1⟩, -⟩, -⟩, -⟩, -⟩ := e
  refine ⟨fun i => ?_, fun i => ?_⟩
  · exact isReal_of_test _ (Host.reduce_andi_all _ _ _ _ _ e0 i)
  · exact isReal_of_test _ (Host.reduce_andi_all _ _ _ _ _ e1 i)

end Cert.Finite

end
-- ==== Proof.lean ====
/-
  A gated memory update: attention of every row of `x` over a memory slab, the row joined with what it retrieves, a
  two-layer gate, and the batch mean of the memory slab blended with each batch element's mean row under the gate.

  The kernel handles one batch element per grid point, in two chunks of 512 rows, on two cores of 32 points each. It
  writes the joined rows directly, and accumulates the blended slabs in a scratch that it zeroes at a core's first point
  and copies out at its last; the host adds the two cores' sums and multiplies by `1/64`. The reference computes the
  same quantities over whole arrays. Over the extended reals the two agree entry by entry:

  * a cast to bf16 is the identity, and a matrix product, a row maximum and a row sum are the same sums and folds in
    both programs;
  * the kernel multiplies each exponential by the reciprocal of the softmax denominator where the reference divides
    by it: equal because the denominator is not zero, which is where the finiteness of `x` and `memory` is used
    (every score is then a real number, the maximum is attained, and the denominator is at least one);
  * the contraction over the 512 joined coordinates is the sum of its two halves; the sigmoid is one function in both
    spellings;
  * a mean taken as a product with the exact reciprocal of a power of two is the quotient by that power;
  * the batch sum accumulated point by point on each core, then added across the two cores, is the sum over the batch.

  The three frames: the two kernel programs' frames are the generated ones; the reference's is its run with the
  results dropped. The idealization rewrote nothing, so the kernel's idealization is the kernel's own text.
-/
import proofs.«428584_j76871324664388_3_alg».proof.Defs
import proofs.«428584_j76871324664388_3_alg».proof.Proof.Gen.Kernel
import proofs.«428584_j76871324664388_3_alg».proof.Proof.Gen.Kernel.Skeleton
import proofs.«428584_j76871324664388_3_alg».proof.Proof.Gen.Kernel.Launch
import proofs.«428584_j76871324664388_3_alg».proof.Proof.Gen.Kernel.Points
import proofs.«428584_j76871324664388_3_alg».proof.Proof.Gen.Kernel.Frame
import proofs.«428584_j76871324664388_3_alg».proof.Proof.Gen.KernelIdeal
import proofs.«428584_j76871324664388_3_alg».proof.Proof.Gen.KernelIdeal.Skeleton
import proofs.«428584_j76871324664388_3_alg».proof.Proof.Gen.KernelIdeal.Launch
import proofs.«428584_j76871324664388_3_alg».proof.Proof.Gen.KernelIdeal.Points
import proofs.«428584_j76871324664388_3_alg».proof.Proof.Gen.KernelIdeal.Frame
import proofs.«428584_j76871324664388_3_alg».proof.Proof.Gen.ReferenceIdeal
import proofs.«428584_j76871324664388_3_alg».proof.Proof.Gen.Pre_finite_inputs
import proofs.«428584_j76871324664388_3_alg».proof.Proof.KFinal
import proofs.«428584_j76871324664388_3_alg».proof.Proof.RefStages
import proofs.«428584_j76871324664388_3_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both idealized programs end with the joined rows and the new memory slab of their (agreeing) arguments. -/
theorem algebraic : Cert.algebraic_KernelIdeal_ReferenceIdeal := by
  intro m ρ m' ρ' hpre hagree
  have hfin := fun c => Cert.Finite.real_of_pre _ _ _ _ _ _ (hpre c)
  refine ⟨fun c => Arr.catAll (KInv.a0 m c) (KInv.a1 m c),
    fun c => Arr.newMemAll (KInv.a0 m c) (KInv.a1 m c) (KInv.a2 m c) (KInv.a3 m c) (KInv.a4 m c) (KInv.a5 m c),
    Cert.KFinal.run m ρ (fun c => (hfin c).1) (fun c => (hfin c).2), ?_⟩
  refine (θ_run Cert.ReferenceIdeal.defs _ _).mono (fun _ h c => ?_) (Cert.ReferenceIdeal.ValueP.run (F := Ideal) m' ρ')
  obtain ⟨h14, h44, r0, r1, r2, r3, r4, r5⟩ := h c
  refine ⟨h14.trans ?_, h44.trans ?_, r0, r1, r2, r3, r4, r5⟩
  · rw [Cert.ReferenceIdeal.ReadP.val_main_v14_eq, Cert.RefStages.cat_eq, (hagree c).1, (hagree c).2.1]
  · rw [Cert.ReferenceIdeal.ReadP.val_main_v44_eq, Cert.RefStages.newMem_eq, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
